-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x2 : Shape := ⟨2, ![100000, 2]⟩
abbrev S100000 : Shape := ⟨1, ![100000]⟩
abbrev S3200000 : Shape := ⟨1, ![3200000]⟩
abbrev S6x3 : Shape := ⟨2, ![6, 3]⟩
abbrev S3 : Shape := ⟨1, ![3]⟩
abbrev S4x3 : Shape := ⟨2, ![4, 3]⟩
abbrev S8x1 : Shape := ⟨2, ![8, 1]⟩
abbrev S1 : Shape := ⟨1, ![1]⟩
abbrev S4x1 : Shape := ⟨2, ![4, 1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S100000 : S_.BroadcastsInDim S100000 (![] : Fin 0 → Fin S100000.rank)
  reducesTo_S100000_S_d0 : S100000.ReducesTo [0] S_
  bcast_S_S3200000 : S_.BroadcastsInDim S3200000 (![] : Fin 0 → Fin S3200000.rank)
  reducesTo_S3200000_S_d0 : S3200000.ReducesTo [0] S_
  bcast_S_S6x3 : S_.BroadcastsInDim S6x3 (![] : Fin 0 → Fin S6x3.rank)
  reducesTo_S6x3_S_d0_1 : S6x3.ReducesTo [0, 1] S_
  bcast_S_S3 : S_.BroadcastsInDim S3 (![] : Fin 0 → Fin S3.rank)
  reducesTo_S3_S_d0 : S3.ReducesTo [0] S_
  bcast_S_S4x3 : S_.BroadcastsInDim S4x3 (![] : Fin 0 → Fin S4x3.rank)
  reducesTo_S4x3_S_d0_1 : S4x3.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S4x1 : S_.BroadcastsInDim S4x1 (![] : Fin 0 → Fin S4x1.rank)
  reducesTo_S4x1_S_d0_1 : S4x1.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn_part4 {F : FTy → Type} [FloatOps F] (main_arg0 : IVec S2x3200000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x3200000 32 := broadcastInDim S2x3200000 ![] bcast_S_S2x3200000 main_c_26
  let main_v70 : IVec S2x3200000 1 := cmpi .sge main_arg0 main_v69
  let main_c_27 : IVec S_ 1 := constantI S_ 1 1#1
  let main_v71 : IVec S_ 1 := (fun x v => Host.reduce IntOp.andi x v reducesTo_S2x3200000_S_d0_1 h_S_) main_v70 main_c_27
  let main_v72 : IVec S_ 1 := andi main_v68 main_v71
  main_v72

def fn_part3 {F : FTy → Type} [FloatOps F] (main_arg0 : IVec S2x3200000 32) (main_arg12 : FVec F S1 .f32) (main_arg13 : FVec F S4x1 .f32) (main_arg14 : FVec F S1 .f32) (main_v48 : IVec S_ 1) (main_v49 : FVec F S8x1 .f32) (main_v50 : FVec F S8x1 .f32) : IVec S_ 1 :=
  let main_v51 : IVec S8x1 1 := cmpf .olt main_v49 main_v50
  let main_c_19 : IVec S_ 1 := constantI S_ 1 1#1
  let main_v52 : IVec S_ 1 := (fun x v => Host.reduce IntOp.andi x v reducesTo_S8x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S4x1 .f32 := Host.absf main_arg13
  let main_cst_22 : FVec F S_ .f32 := constant S_ .f32 0x7F800000#32
  let main_v60 : FVec F S4x1 .f32 := broadcastInDim S4x1 ![] bcast_S_S4x1 main_cst_22
  let main_v61 : IVec S4x1 1 := cmpf .olt main_v59 main_v60
  let main_c_23 : IVec S_ 1 := constantI S_ 1 1#1
  let main_v62 : IVec S_ 1 := (fun x v => Host.reduce IntOp.andi x v reducesTo_S4x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg0 main_v63 main_v67

def fn_part2 {F : FTy → Type} [FloatOps F] (main_arg0 : IVec S2x3200000 32) (main_arg8 : FVec F S3 .f32) (main_arg9 : FVec F S4x3 .f32) (main_arg10 : FVec F S3 .f32) (main_arg11 : FVec F S8x1 .f32) (main_arg12 : FVec F S1 .f32) (main_arg13 : FVec F S4x1 .f32) (main_arg14 : FVec F S1 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S4x3 .f32 := Host.absf main_arg9
  let main_cst_14 : FVec F S_ .f32 := constant S_ .f32 0x7F800000#32
  let main_v40 : FVec F S4x3 .f32 := broadcastInDim S4x3 ![] bcast_S_S4x3 main_cst_14
  let main_v41 : IVec S4x3 1 := cmpf .olt main_v39 main_v40
  let main_c_15 : IVec S_ 1 := constantI S_ 1 1#1
  let main_v42 : IVec S_ 1 := (fun x v => Host.reduce IntOp.andi x v reducesTo_S4x3_S_d0_1 h_S_) main_v41 main_c_15
  let main_v43 : IVec S_ 1 := andi main_v38 main_v42
  let main_v44 : FVec F S3 .f32 := Host.absf main_arg10
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S8x1 .f32 := Host.absf main_arg11
  let main_cst_18 : FVec F S_ .f32 := constant S_ .f32 0x7F800000#32
  let main_v50 : FVec F S8x1 .f32 := broadcastInDim S8x1 ![] bcast_S_S8x1 main_cst_18
  fn_part3 (F := F) main_arg0 main_arg12 main_arg13 main_arg14 main_v48 main_v49 main_v50

def fn_part1 {F : FTy → Type} [FloatOps F] (main_arg0 : IVec S2x3200000 32) (main_arg5 : FVec F S3200000 .f32) (main_arg6 : FVec F S3200000 .f32) (main_arg7 : FVec F S6x3 .f32) (main_arg8 : FVec F S3 .f32) (main_arg9 : FVec F S4x3 .f32) (main_arg10 : FVec F S3 .f32) (main_arg11 : FVec F S8x1 .f32) (main_arg12 : FVec F S1 .f32) (main_arg13 : FVec F S4x1 .f32) (main_arg14 : FVec F S1 .f32) (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  let main_v19 : FVec F S3200000 .f32 := Host.absf main_arg5
  let main_cst_6 : FVec F S_ .f32 := constant S_ .f32 0x7F800000#32
  let main_v20 : FVec F S3200000 .f32 := broadcastInDim S3200000 ![] bcast_S_S3200000 main_cst_6
  let main_v21 : IVec S3200000 1 := cmpf .olt main_v19 main_v20
  let main_c_7 : IVec S_ 1 := constantI S_ 1 1#1
  let main_v22 : IVec S_ 1 := (fun x v => Host.reduce IntOp.andi x v reducesTo_S3200000_S_d0 h_S_) main_v21 main_c_7
  let main_v23 : IVec S_ 1 := andi main_v18 main_v22
  let main_v24 : FVec F S3200000 .f32 := Host.absf main_arg6
  let main_cst_8 : FVec F S_ .f32 := constant S_ .f32 0x7F800000#32
  let main_v25 : FVec F S3200000 .f32 := broadcastInDim S3200000 ![] bcast_S_S3200000 main_cst_8
  let main_v26 : IVec S3200000 1 := cmpf .olt main_v24 main_v25
  let main_c_9 : IVec S_ 1 := constantI S_ 1 1#1
  let main_v27 : IVec S_ 1 := (fun x v => Host.reduce IntOp.andi x v reducesTo_S3200000_S_d0 h_S_) main_v26 main_c_9
  let main_v28 : IVec S_ 1 := andi main_v23 main_v27
  let main_v29 : FVec F S6x3 .f32 := Host.absf main_arg7
  let main_cst_10 : FVec F S_ .f32 := constant S_ .f32 0x7F800000#32
  let main_v30 : FVec F S6x3 .f32 := broadcastInDim S6x3 ![] bcast_S_S6x3 main_cst_10
  let main_v31 : IVec S6x3 1 := cmpf .olt main_v29 main_v30
  let main_c_11 : IVec S_ 1 := constantI S_ 1 1#1
  let main_v32 : IVec S_ 1 := (fun x v => Host.reduce IntOp.andi x v reducesTo_S6x3_S_d0_1 h_S_) main_v31 main_c_11
  let main_v33 : IVec S_ 1 := andi main_v28 main_v32
  fn_part2 (F := F) main_arg0 main_arg8 main_arg9 main_arg10 main_arg11 main_arg12 main_arg13 main_arg14 main_v33

def fn {F : FTy → Type} [FloatOps F] (main_arg0 : IVec S2x3200000 32) (main_arg1 : FVec F S100000x2 .f32) (main_arg2 : FVec F S100000 .f32) (main_arg3 : FVec F S3200000 .f32) (main_arg4 : FVec F S3200000 .f32) (main_arg5 : FVec F S3200000 .f32) (main_arg6 : FVec F S3200000 .f32) (main_arg7 : FVec F S6x3 .f32) (main_arg8 : FVec F S3 .f32) (main_arg9 : FVec F S4x3 .f32) (main_arg10 : FVec F S3 .f32) (main_arg11 : FVec F S8x1 .f32) (main_arg12 : FVec F S1 .f32) (main_arg13 : FVec F S4x1 .f32) (main_arg14 : FVec F S1 .f32) : IVec S_ 1 :=
  let main_v0 : FVec F S100000x2 .f32 := Host.absf main_arg1
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S3200000 .f32 := Host.absf main_arg3
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S3200000 .f32 := Host.absf main_arg4
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_arg0 main_arg5 main_arg6 main_arg7 main_arg8 main_arg9 main_arg10 main_arg11 main_arg12 main_arg13 main_arg14 main_v13 main_v16
-- ==== Kernel.lean ====
abbrev S2x3200000 : Shape := ⟨2, ![2, 3200000]⟩
abbrev S100000x2 : Shape := ⟨2, ![100000, 2]⟩
abbrev S100000 : Shape := ⟨1, ![100000]⟩
abbrev S3200000 : Shape := ⟨1, ![3200000]⟩
abbrev S6x3 : Shape := ⟨2, ![6, 3]⟩
abbrev S3 : Shape := ⟨1, ![3]⟩
abbrev S4x3 : Shape := ⟨2, ![4, 3]⟩
abbrev S8x1 : Shape := ⟨2, ![8, 1]⟩
abbrev S1 : Shape := ⟨1, ![1]⟩
abbrev S4x1 : Shape := ⟨2, ![4, 1]⟩
abbrev S1x3200000 : Shape := ⟨2, ![1, 3200000]⟩
abbrev S4x3200000 : Shape := ⟨2, ![4, 3200000]⟩
abbrev S2x100000 : Shape := ⟨2, ![2, 100000]⟩
abbrev S1x100000 : Shape := ⟨2, ![1, 100000]⟩
abbrev S3x100000 : Shape := ⟨2, ![3, 100000]⟩
abbrev S3200000x1 : Shape := ⟨2, ![3200000, 1]⟩
abbrev S3x3200000 : Shape := ⟨2, ![3, 3200000]⟩
abbrev S2x3 : Shape := ⟨2, ![2, 3]⟩
abbrev S1x3 : Shape := ⟨2, ![1, 3]⟩
abbrev S3x3 : Shape := ⟨2, ![3, 3]⟩
abbrev S3x4 : Shape := ⟨2, ![3, 4]⟩
abbrev S3x1 : Shape := ⟨2, ![3, 1]⟩
abbrev S3x80000 : Shape := ⟨2, ![3, 80000]⟩
abbrev S4x80000 : Shape := ⟨2, ![4, 80000]⟩
abbrev S_ : Shape := ⟨0, ![]⟩
abbrev S4x100000 : Shape := ⟨2, ![4, 100000]⟩
abbrev S1x1 : Shape := ⟨2, ![1, 1]⟩
abbrev S1x4 : Shape := ⟨2, ![1, 4]⟩
abbrev S1x80000 : Shape := ⟨2, ![1, 80000]⟩
abbrev S100000x1 : Shape := ⟨2, ![100000, 1]⟩

abbrev nBuf : Space → Nat
  | .hbm => 98
  | .vmem => 26
  | .smem => 0
  | _ => 0

abbrev bufTy : (tb : Table) → Fin (tcTables nBuf tb) → BufTy
  | .hbm, ⟨0, _⟩ => ⟨S2x3200000, .i32⟩
  | .hbm, ⟨1, _⟩ => ⟨S100000x2, .f32⟩
  | .hbm, ⟨2, _⟩ => ⟨S100000, .f32⟩
  | .hbm, ⟨3, _⟩ => ⟨S3200000, .f32⟩
  | .hbm, ⟨4, _⟩ => ⟨S3200000, .f32⟩
  | .hbm, ⟨5, _⟩ => ⟨S3200000, .f32⟩
  | .hbm, ⟨6, _⟩ => ⟨S3200000, .f32⟩
  | .hbm, ⟨7, _⟩ => ⟨S6x3, .f32⟩
  | .hbm, ⟨8, _⟩ => ⟨S3, .f32⟩
  | .hbm, ⟨9, _⟩ => ⟨S4x3, .f32⟩
  | .hbm, ⟨10, _⟩ => ⟨S3, .f32⟩
  | .hbm, ⟨11, _⟩ => ⟨S8x1, .f32⟩
  | .hbm, ⟨12, _⟩ => ⟨S1, .f32⟩
  | .hbm, ⟨13, _⟩ => ⟨S4x1, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S1x3200000, .f32⟩
  | .hbm, ⟨20, _⟩ => ⟨S1x3200000, .f32⟩
  | .hbm, ⟨21, _⟩ => ⟨S1x3200000, .f32⟩
  | .hbm, ⟨22, _⟩ => ⟨S1x3200000, .f32⟩
  | .hbm, ⟨23, _⟩ => ⟨S4x3200000, .f32⟩
  | .hbm, ⟨24, _⟩ => ⟨S4x3200000, .bf16⟩
  | .hbm, ⟨25, _⟩ => ⟨S2x100000, .f32⟩
  | .hbm, ⟨26, _⟩ => ⟨S1x100000, .f32⟩
  | .hbm, ⟨27, _⟩ => ⟨S3x100000, .f32⟩
  | .hbm, ⟨28, _⟩ => ⟨S3x100000, .bf16⟩
  | .hbm, ⟨29, _⟩ => ⟨S3200000x1, .i32⟩
  | .hbm, ⟨30, _⟩ => ⟨S3x3200000, .bf16⟩
  | .hbm, ⟨31, _⟩ => ⟨S3200000x1, .i32⟩
  | .hbm, ⟨32, _⟩ => ⟨S3x3200000, .bf16⟩
  | .hbm, ⟨33, _⟩ => ⟨S2x3, .f32⟩
  | .hbm, ⟨34, _⟩ => ⟨S1x3, .f32⟩
  | .hbm, ⟨35, _⟩ => ⟨S3x3, .f32⟩
  | .hbm, ⟨36, _⟩ => ⟨S2x3, .f32⟩
  | .hbm, ⟨37, _⟩ => ⟨S1x3, .f32⟩
  | .hbm, ⟨38, _⟩ => ⟨S3x3, .f32⟩
  | .hbm, ⟨39, _⟩ => ⟨S3x3, .f32⟩
  | .hbm, ⟨40, _⟩ => ⟨S3x3, .bf16⟩
  | .hbm, ⟨41, _⟩ => ⟨S3x3, .f32⟩
  | .hbm, ⟨42, _⟩ => ⟨S3x3, .bf16⟩
  | .hbm, ⟨43, _⟩ => ⟨S3x4, .f32⟩
  | .hbm, ⟨44, _⟩ => ⟨S3x4, .bf16⟩
  | .hbm, ⟨45, _⟩ => ⟨S3x1, .f32⟩
  | .hbm, ⟨46, _⟩ => ⟨S3x1, .f32⟩
  | .hbm, ⟨47, _⟩ => ⟨S3x3200000, .f32⟩
  | .hbm, ⟨48, _⟩ => ⟨S_, .f32⟩
  | .hbm, ⟨49, _⟩ => ⟨S3x100000, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3x100000, .f32⟩
  | .hbm, ⟨59, _⟩ => ⟨S_, .f32⟩
  | .hbm, ⟨60, _⟩ => ⟨S3x100000, .f32⟩
  | .hbm, ⟨61, _⟩ => ⟨S3x100000, .f32⟩
  | .hbm, ⟨62, _⟩ => ⟨S4x100000, .f32⟩
  | .hbm, ⟨63, _⟩ => ⟨S4x100000, .bf16⟩
  | .hbm, ⟨64, _⟩ => ⟨S3200000x1, .i32⟩
  | .hbm, ⟨65, _⟩ => ⟨S4x3200000, .bf16⟩
  | .hbm, ⟨66, _⟩ => ⟨S3200000x1, .i32⟩
  | .hbm, ⟨67, _⟩ => ⟨S4x3200000, .bf16⟩
  | .hbm, ⟨68, _⟩ => ⟨S3x1, .f32⟩
  | .hbm, ⟨69, _⟩ => ⟨S1x1, .f32⟩
  | .hbm, ⟨70, _⟩ => ⟨S4x1, .f32⟩
  | .hbm, ⟨71, _⟩ => ⟨S3x1, .f32⟩
  | .hbm, ⟨72, _⟩ => ⟨S1x1, .f32⟩
  | .hbm, ⟨73, _⟩ => ⟨S4x1, .f32⟩
  | .hbm, ⟨74, _⟩ => ⟨S1x4, .f32⟩
  | .hbm, ⟨75, _⟩ => ⟨S1x4, .bf16⟩
  | .hbm, ⟨76, _⟩ => ⟨S1x4, .f32⟩
  | .hbm, ⟨77, _⟩ => ⟨S1x4, .bf16⟩
  | .hbm, ⟨78, _⟩ => ⟨S1x4, .f32⟩
  | .hbm, ⟨79, _⟩ => ⟨S1x4, .bf16⟩
  | .hbm, ⟨80, _⟩ => ⟨S1x1, .f32⟩
  | .hbm, ⟨81, _⟩ => ⟨S1x1, .f32⟩
  | .hbm, ⟨82, _⟩ => ⟨S1x3200000, .f32⟩
  | .hbm, ⟨83, _⟩ => ⟨S_, .f32⟩
  | .hbm, ⟨84, _⟩ => ⟨S1x100000, .f32⟩
  | .hbm, ⟨85, _⟩ => ⟨S_, .i32⟩
  | .hbm, ⟨86, _⟩ => ⟨S3200000, .i32⟩
  | .hbm, ⟨87, _⟩ => ⟨S3200000, .i1⟩
  | .hbm, ⟨88, _⟩ => ⟨S_, .i32⟩
  | .hbm, ⟨89, _⟩ => ⟨S3200000, .i32⟩
  | .hbm, ⟨90, _⟩ => ⟨S3200000, .i32⟩
  | .hbm, ⟨91, _⟩ => ⟨S3200000, .i32⟩
  | .hbm, ⟨92, _⟩ => ⟨S3200000x1, .i32⟩
  | .hbm, ⟨93, _⟩ => ⟨S1x100000, .f32⟩
  | .hbm, ⟨94, _⟩ => ⟨S_, .f32⟩
  | .hbm, ⟨95, _⟩ => ⟨S1x100000, .f32⟩
  | .hbm, ⟨96, _⟩ => ⟨S1x100000, .f32⟩
  | .hbm, ⟨97, _⟩ => ⟨S100000x1, .f32⟩
  | .local _ .vmem, ⟨0, _⟩ => ⟨S3x80000, .bf16⟩
  | .local _ .vmem, ⟨1, _⟩ => ⟨S3x80000, .bf16⟩
  | .local _ .vmem, ⟨2, _⟩ => ⟨S3x80000, .bf16⟩
  | .local _ .vmem, ⟨3, _⟩ => ⟨S3x80000, .bf16⟩
  | .local _ .vmem, ⟨4, _⟩ => ⟨S4x80000, .bf16⟩
  | .local _ .vmem, ⟨5, _⟩ => ⟨S4x80000, .bf16⟩
  | .local _ .vmem, ⟨6, _⟩ => ⟨S3x3, .bf16⟩
  | .local _ .vmem, ⟨7, _⟩ => ⟨S3x3, .bf16⟩
  | .local _ .vmem, ⟨8, _⟩ => ⟨S3x1, .f32⟩
  | .local _ .vmem, ⟨9, _⟩ => ⟨S3x4, .bf16⟩
  | .local _ .vmem, ⟨10, _⟩ => ⟨S3x1, .f32⟩
  | .local _ .vmem, ⟨11, _⟩ => ⟨S3x80000, .f32⟩
  | .local _ .vmem, ⟨12, _⟩ => ⟨S3x80000, .f32⟩
  | .local _ .vmem, ⟨13, _⟩ => ⟨S4x80000, .bf16⟩
  | .local _ .vmem, ⟨14, _⟩ => ⟨S4x80000, .bf16⟩
  | .local _ .vmem, ⟨15, _⟩ => ⟨S4x80000, .bf16⟩
  | .local _ .vmem, ⟨16, _⟩ => ⟨S4x80000, .bf16⟩
  | .local _ .vmem, ⟨17, _⟩ => ⟨S4x80000, .bf16⟩
  | .local _ .vmem, ⟨18, _⟩ => ⟨S4x80000, .bf16⟩
  | .local _ .vmem, ⟨19, _⟩ => ⟨S1x4, .bf16⟩
  | .local _ .vmem, ⟨20, _⟩ => ⟨S1x4, .bf16⟩
  | .local _ .vmem, ⟨21, _⟩ => ⟨S1x1, .f32⟩
  | .local _ .vmem, ⟨22, _⟩ => ⟨S1x4, .bf16⟩
  | .local _ .vmem, ⟨23, _⟩ => ⟨S1x1, .f32⟩
  | .local _ .vmem, ⟨24, _⟩ => ⟨S1x80000, .f32⟩
  | .local _ .vmem, ⟨25, _⟩ => ⟨S1x80000, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_v14 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_v33 : Ref sig .tc := ⟨.hbm, 52, rfl⟩
abbrev main_c_0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_cst : Ref sig .tc := ⟨.hbm, 59, rfl⟩
abbrev main_call2_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call3_v0 : Ref sig .tc := ⟨.hbm, 64, rfl⟩
abbrev main_v42 : Ref sig .tc := ⟨.hbm, 65, rfl⟩
abbrev main_call4_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_1 : Ref sig .tc := ⟨.hbm, 83, rfl⟩
abbrev main_v59 : Ref sig .tc := ⟨.hbm, 84, rfl⟩
abbrev main_c_2 : Ref sig .tc := ⟨.hbm, 85, rfl⟩
abbrev main_v60 : Ref sig .tc := ⟨.hbm, 86, rfl⟩
abbrev main_v61 : Ref sig .tc := ⟨.hbm, 87, rfl⟩
abbrev main_c_3 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call5_cst : Ref sig .tc := ⟨.hbm, 94, rfl⟩
abbrev main_call5_v0 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x80000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x80000 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x4 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x80000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x80000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x80000 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x80000 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x80000 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S1x3200000_1 : S3200000.BroadcastsInDim S1x3200000 (![1] : Fin 1 → Fin S1x3200000.rank)
  concatenates_S1x3200000_S1x3200000_S1x3200000_S1x3200000_S4x3200000_d0 : Shape.Concatenates [S1x3200000, S1x3200000, S1x3200000, S1x3200000] S4x3200000 0
  bitsLt_bf16_f32 : FTy.bits .bf16 < FTy.bits .f32
  transposes_S100000x2_S2x100000_1_0 : S100000x2.Transposes [1, 0] S2x100000
  bcast_S100000_S1x100000_1 : S100000.BroadcastsInDim S1x100000 (![1] : Fin 1 → Fin S1x100000.rank)
  concatenates_S2x100000_S1x100000_S3x100000_d0 : Shape.Concatenates [S2x100000, S1x100000] S3x100000 0
  bcast_S3200000_S3200000x1_0 : S3200000.BroadcastsInDim S3200000x1 (![0] : Fin 1 → Fin S3200000x1.rank)
  slices_S6x3_S2x3_0_0 : S6x3.Slices ![0, 0] S2x3
  slices_S6x3_S1x3_4_0 : S6x3.Slices ![4, 0] S1x3
  concatenates_S2x3_S1x3_S3x3_d0 : Shape.Concatenates [S2x3, S1x3] S3x3 0
  slices_S6x3_S2x3_2_0 : S6x3.Slices ![2, 0] S2x3
  slices_S6x3_S1x3_5_0 : S6x3.Slices ![5, 0] S1x3
  transposes_S3x3_S3x3_1_0 : S3x3.Transposes [1, 0] S3x3
  transposes_S4x3_S3x4_1_0 : S4x3.Transposes [1, 0] S3x4
  shapeCasts_S3_S3x1 : S3.ShapeCasts S3x1
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  inb_S4x80000_S4x80000_0_0 : ∀ a, (![0, 0] : Fin 2 → Nat) a + S4x80000.size a ≤ S4x80000.size a
  h_S4x80000 : 0 < S4x80000.numel
  shapeCasts_S4x80000_S4x80000 : S4x80000.ShapeCasts S4x80000
  inb_S3x3_S3x3_0_0 : ∀ a, (![0, 0] : Fin 2 → Nat) a + S3x3.size a ≤ S3x3.size a
  h_S3x3 : 0 < S3x3.numel
  shapeCasts_S3x3_S3x3 : S3x3.ShapeCasts S3x3
  inb_S3x4_S3x4_0_0 : ∀ a, (![0, 0] : Fin 2 → Nat) a + S3x4.size a ≤ S3x4.size a
  h_S3x4 : 0 < S3x4.numel
  shapeCasts_S3x4_S3x4 : S3x4.ShapeCasts S3x4
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x80000 : S3x1.Broadcasts S3x80000
  bcast_S_S3x100000 : S_.BroadcastsInDim S3x100000 (![] : Fin 0 → Fin S3x100000.rank)
  bcast_S_S3200000 : S_.BroadcastsInDim S3200000 (![] : Fin 0 → Fin S3200000.rank)
  concatenates_S3x100000_S1x100000_S4x100000_d0 : Shape.Concatenates [S3x100000, S1x100000] S4x100000 0
  slices_S8x1_S3x1_0_0 : S8x1.Slices ![0, 0] S3x1
  slices_S8x1_S1x1_6_0 : S8x1.Slices ![6, 0] S1x1
  concatenates_S3x1_S1x1_S4x1_d0 : Shape.Concatenates [S3x1, S1x1] S4x1 0
  slices_S8x1_S3x1_3_0 : S8x1.Slices ![3, 0] S3x1
  slices_S8x1_S1x1_7_0 : S8x1.Slices ![7, 0] S1x1
  transposes_S4x1_S1x4_1_0 : S4x1.Transposes [1, 0] S1x4
  shapeCasts_S1_S1x1 : S1.ShapeCasts S1x1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x80000 : S1x1.Broadcasts S1x80000
  inb_S1x80000_S1x80000_0_0 : ∀ a, (![0, 0] : Fin 2 → Nat) a + S1x80000.size a ≤ S1x80000.size a
  h_S1x80000 : 0 < S1x80000.numel
  bcast_S_S1x100000 : S_.BroadcastsInDim S1x100000 (![] : Fin 0 → Fin S1x100000.rank)
  transposes_S1x100000_S100000x1_1_0 : S1x100000.Transposes [1, 0] S100000x1
  gather_S3x100000_S3200000x1_S3x3200000_0_1_n_n_1_1_31_wf : GatherDims.WF S3x100000 S3200000x1 S3x3200000 [0] [1] [] [1] [] 1 ![3, 1]
  dot_S3x3_S3x80000_S3x80000_1_0_0_1_n_n_wf : DotDims.WF S3x3 S3x80000 S3x80000 [1] [0] [0] [1] [] []
  dot_S3x4_S4x80000_S3x80000_1_0_0_1_n_n_wf : DotDims.WF S3x4 S4x80000 S3x80000 [1] [0] [0] [1] [] []
  scatter_S3x100000_S3200000x1_S3x3200000_0_1_1_1_wf : ScatterDims.WF S3x100000 S3200000x1 S3x3200000 [0] [1] [1] 1
  gather_S4x100000_S3200000x1_S4x3200000_0_1_n_n_1_1_41_wf : GatherDims.WF S4x100000 S3200000x1 S4x3200000 [0] [1] [] [1] [] 1 ![4, 1]
  dot_S1x4_S4x80000_S1x80000_1_0_0_1_n_n_wf : DotDims.WF S1x4 S4x80000 S1x80000 [1] [0] [0] [1] [] []
  scatter_S1x100000_S3200000x1_S1x3200000_0_1_1_1_wf : ScatterDims.WF S1x100000 S3200000x1 S1x3200000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x3200000.size a
  hwx0_0 : ∀ i : grid0.Coords, EltTy.bits .bf16 = 32 ∨ (Rect.block (s := S3x3200000) S3x80000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x80000.size a ≤ S3x3200000.size a
  hwx0_1 : ∀ i : grid0.Coords, EltTy.bits .bf16 = 32 ∨ (Rect.block (s := S3x3200000) S3x80000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x80000.size a ≤ S4x3200000.size a
  hwx0_2 : ∀ i : grid0.Coords, EltTy.bits .bf16 = 32 ∨ (Rect.block (s := S4x3200000) S4x80000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .bf16 = 32 ∨ (Rect.block (s := S3x3) S3x3.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x3.size a ≤ S3x3.size a
  hwx0_4 : ∀ i : grid0.Coords, EltTy.bits .bf16 = 32 ∨ (Rect.block (s := S3x3) S3x3.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1.size a ≤ S3x1.size a
  hwx0_5 : ∀ i : grid0.Coords, EltTy.bits .f32 = 32 ∨ (Rect.block (s := S3x1) S3x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x4.size a ≤ S3x4.size a
  hwx0_6 : ∀ i : grid0.Coords, EltTy.bits .bf16 = 32 ∨ (Rect.block (s := S3x4) S3x4.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x1.size a ≤ S3x1.size a
  hwx0_7 : ∀ i : grid0.Coords, EltTy.bits .f32 = 32 ∨ (Rect.block (s := S3x1) S3x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3x80000.size a ≤ S3x3200000.size a
  hwx0_8 : ∀ i : grid0.Coords, EltTy.bits .f32 = 32 ∨ (Rect.block (s := S3x3200000) S3x80000.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x80000.size a ≤ S4x3200000.size a
  hwx1_0 : ∀ i : grid1.Coords, EltTy.bits .bf16 = 32 ∨ (Rect.block (s := S4x3200000) S4x80000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x80000.size a ≤ S4x3200000.size a
  hwx1_1 : ∀ i : grid1.Coords, EltTy.bits .bf16 = 32 ∨ (Rect.block (s := S4x3200000) S4x80000.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x80000.size a ≤ S4x3200000.size a
  hwx1_2 : ∀ i : grid1.Coords, EltTy.bits .bf16 = 32 ∨ (Rect.block (s := S4x3200000) S4x80000.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .bf16 = 32 ∨ (Rect.block (s := S1x4) S1x4.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4.size a ≤ S1x4.size a
  hwx1_4 : ∀ i : grid1.Coords, EltTy.bits .bf16 = 32 ∨ (Rect.block (s := S1x4) S1x4.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4.size a ≤ S1x4.size a
  hwx1_6 : ∀ i : grid1.Coords, EltTy.bits .bf16 = 32 ∨ (Rect.block (s := S1x4) S1x4.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x80000.size a ≤ S1x3200000.size a
  hwx1_8 : ∀ i : grid1.Coords, EltTy.bits .f32 = 32 ∨ (Rect.block (s := S1x3200000) S1x80000.size (cc1_transform_8 i) (hinb1_8 i)).WholeWords (EltTy.packing .f32)

variable [Facts₀]

def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf
def dot_S3x3_S3x80000_S3x80000_1_0_0_1_n_n : DotDims S3x3 S3x80000 S3x80000 where
  lhsContracting := [1]
  rhsContracting := [0]
  lhsNonContracting := [0]
  rhsNonContracting := [1]
  lhsBatch := []
  rhsBatch := []
  wf := dot_S3x3_S3x80000_S3x80000_1_0_0_1_n_n_wf
def dot_S3x4_S4x80000_S3x80000_1_0_0_1_n_n : DotDims S3x4 S4x80000 S3x80000 where
  lhsContracting := [1]
  rhsContracting := [0]
  lhsNonContracting := [0]
  rhsNonContracting := [1]
  lhsBatch := []
  rhsBatch := []
  wf := dot_S3x4_S4x80000_S3x80000_1_0_0_1_n_n_wf
def scatter_S3x100000_S3200000x1_S3x3200000_0_1_1_1 : ScatterDims S3x100000 S3200000x1 S3x3200000 where
  updateWindowDims := [0]
  insertedWindowDims := [1]
  scatterDimsToOperandDims := [1]
  indexVectorDim := 1
  wf := scatter_S3x100000_S3200000x1_S3x3200000_0_1_1_1_wf
def gather_S4x100000_S3200000x1_S4x3200000_0_1_n_n_1_1_41 : GatherDims S4x100000 S3200000x1 S4x3200000 where
  offsetDims := [0]
  collapsedSliceDims := [1]
  operandBatchingDims := []
  startIndicesBatchingDims := []
  startIndexMap := [1]
  indexVectorDim := 1
  sliceSizes := ![4, 1]
  wf := gather_S4x100000_S3200000x1_S4x3200000_0_1_n_n_1_1_41_wf
def dot_S1x4_S4x80000_S1x80000_1_0_0_1_n_n : DotDims S1x4 S4x80000 S1x80000 where
  lhsContracting := [1]
  rhsContracting := [0]
  lhsNonContracting := [0]
  rhsNonContracting := [1]
  lhsBatch := []
  rhsBatch := []
  wf := dot_S1x4_S4x80000_S1x80000_1_0_0_1_n_n_wf
def scatter_S1x100000_S3200000x1_S1x3200000_0_1_1_1 : ScatterDims S1x100000 S3200000x1 S1x3200000 where
  updateWindowDims := [0]
  insertedWindowDims := [1]
  scatterDimsToOperandDims := [1]
  indexVectorDim := 1
  wf := scatter_S1x100000_S3200000x1_S1x3200000_0_1_1_1_wf

abbrev win0_0 : Pipeline.Window sig grid0 :=
  Pipeline.Window.ofSpec (Memref.whole main_v14) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S3x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4x80000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S3x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S3x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S3x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S3x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S3x80000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v42) S4x80000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S4x80000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4x80000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1x4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v57) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S1x80000.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2x3200000 : Shape := ⟨2, ![2, 3200000]⟩
abbrev S100000x2 : Shape := ⟨2, ![100000, 2]⟩
abbrev S100000 : Shape := ⟨1, ![100000]⟩
abbrev S3200000 : Shape := ⟨1, ![3200000]⟩
abbrev S6x3 : Shape := ⟨2, ![6, 3]⟩
abbrev S3 : Shape := ⟨1, ![3]⟩
abbrev S4x3 : Shape := ⟨2, ![4, 3]⟩
abbrev S8x1 : Shape := ⟨2, ![8, 1]⟩
abbrev S1 : Shape := ⟨1, ![1]⟩
abbrev S4x1 : Shape := ⟨2, ![4, 1]⟩
abbrev S3200000x1 : Shape := ⟨2, ![3200000, 1]⟩
abbrev S3200000x4 : Shape := ⟨2, ![3200000, 4]⟩
abbrev S1x3200000 : Shape := ⟨2, ![1, 3200000]⟩
abbrev S_ : Shape := ⟨0, ![]⟩
abbrev S3200000x2 : Shape := ⟨2, ![3200000, 2]⟩
abbrev S3200000x6 : Shape := ⟨2, ![3200000, 6]⟩
abbrev S3200000x3 : Shape := ⟨2, ![3200000, 3]⟩
abbrev S1x3 : Shape := ⟨2, ![1, 3]⟩
abbrev S100000x3 : Shape := ⟨2, ![100000, 3]⟩
abbrev S3200000x8 : Shape := ⟨2, ![3200000, 8]⟩
abbrev S1x1 : Shape := ⟨2, ![1, 1]⟩
abbrev S100000x1 : Shape := ⟨2, ![100000, 1]⟩

abbrev nBuf : Space → Nat
  | .hbm => 154
  | .vmem => 0
  | .smem => 0
  | _ => 0

abbrev hbmTy0_0 (i : Nat) : BufTy := match i % 128 with
  | 0 => ⟨S2x3200000, .i32⟩
  | 1 => ⟨S100000x2, .f32⟩
  | 2 => ⟨S100000, .f32⟩
  | 3 => ⟨S3200000, .f32⟩
  | 4 => ⟨S3200000, .f32⟩
  | 5 => ⟨S3200000, .f32⟩
  | 6 => ⟨S3200000, .f32⟩
  | 7 => ⟨S6x3, .f32⟩
  | 8 => ⟨S3, .f32⟩
  | 9 => ⟨S4x3, .f32⟩
  | 10 => ⟨S3, .f32⟩
  | 11 => ⟨S8x1, .f32⟩
  | 12 => ⟨S1, .f32⟩
  | 13 => ⟨S4x1, .f32⟩
  | 14 => ⟨S1, .f32⟩
  | 15 => ⟨S3200000x1, .f32⟩
  | 16 => ⟨S3200000x1, .f32⟩
  | 17 => ⟨S3200000x1, .f32⟩
  | 18 => ⟨S3200000x1, .f32⟩
  | 19 => ⟨S3200000x4, .f32⟩
  | 20 => ⟨S1x3200000, .i32⟩
  | 21 => ⟨S3200000, .i32⟩
  | 22 => ⟨S1x3200000, .i32⟩
  | 23 => ⟨S3200000, .i32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x2, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x2, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000x1, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000, .f32⟩
  | 61 => ⟨S3200000x1, .f32⟩
  | 62 => ⟨S3200000x6, .f32⟩
  | 63 => ⟨S3200000x3, .f32⟩
  | 64 => ⟨S1x3, .f32⟩
  | 65 => ⟨S3200000x3, .f32⟩
  | 66 => ⟨S3200000x3, .f32⟩
  | 67 => ⟨S3200000x3, .f32⟩
  | 68 => ⟨S1x3, .f32⟩
  | 69 => ⟨S3200000x3, .f32⟩
  | 70 => ⟨S3200000x3, .f32⟩
  | 71 => ⟨S3200000x3, .f32⟩
  | 72 => ⟨S3200000x3, .f32⟩
  | 73 => ⟨S_, .f32⟩
  | 74 => ⟨S3200000x3, .f32⟩
  | 75 => ⟨S3200000x3, .f32⟩
  | 76 => ⟨S_, .f32⟩
  | 77 => ⟨S3200000x3, .f32⟩
  | 78 => ⟨S3200000x3, .f32⟩
  | 79 => ⟨S3200000x3, .f32⟩
  | 80 => ⟨S_, .f32⟩
  | 81 => ⟨S100000x3, .f32⟩
  | 82 => ⟨S3200000x1, .i32⟩
  | 83 => ⟨S100000x3, .f32⟩
  | 84 => ⟨S_, .f32⟩
  | 85 => ⟨S100000x3, .f32⟩
  | 86 => ⟨S100000x3, .f32⟩
  | 87 => ⟨S1x3200000, .i32⟩
  | 88 => ⟨S3200000, .i32⟩
  | 89 => ⟨S1x3200000, .i32⟩
  | 90 => ⟨S3200000, .i32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000x3, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x3, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000, .f32⟩
  | 118 => ⟨S3200000x1, .f32⟩
  | 119 => ⟨S_, .i32⟩
  | 120 => ⟨S3200000, .i32⟩
  | 121 => ⟨S3200000, .i1⟩
  | 122 => ⟨S_, .i32⟩
  | 123 => ⟨S3200000, .i32⟩
  | 124 => ⟨S3200000, .i32⟩
  | 125 => ⟨S3200000, .i32⟩
  | 126 => ⟨S3200000x1, .i32⟩
  | 127 => ⟨S3200000, .f32⟩
  | _ => ⟨S2x3200000, .i32⟩

abbrev hbmTy0_1 (i : Nat) : BufTy := match i % 128 with
  | 0 => ⟨S3200000x1, .f32⟩
  | 1 => ⟨S3200000x8, .f32⟩
  | 2 => ⟨S3200000x1, .f32⟩
  | 3 => ⟨S1x1, .f32⟩
  | 4 => ⟨S3200000x1, .f32⟩
  | 5 => ⟨S3200000x1, .f32⟩
  | 6 => ⟨S3200000x1, .f32⟩
  | 7 => ⟨S1x1, .f32⟩
  | 8 => ⟨S3200000x1, .f32⟩
  | 9 => ⟨S3200000x1, .f32⟩
  | 10 => ⟨S3200000x1, .f32⟩
  | 11 => ⟨S3200000x1, .f32⟩
  | 12 => ⟨S_, .f32⟩
  | 13 => ⟨S3200000x1, .f32⟩
  | 14 => ⟨S3200000x1, .f32⟩
  | 15 => ⟨S_, .f32⟩
  | 16 => ⟨S3200000x1, .f32⟩
  | 17 => ⟨S3200000x1, .f32⟩
  | 18 => ⟨S3200000x1, .f32⟩
  | 19 => ⟨S_, .f32⟩
  | 20 => ⟨S100000x1, .f32⟩
  | 21 => ⟨S3200000x1, .i32⟩
  | 22 => ⟨S100000x1, .f32⟩
  | 23 => ⟨S_, .f32⟩
  | 24 => ⟨S100000x1, .f32⟩
  | 25 => ⟨S100000x1, .f32⟩
  | _ => ⟨S2x3200000, .i32⟩

abbrev hbmTy (i : Nat) : BufTy := match i / 128 with
  | 0 => hbmTy0_0 i
  | 1 => hbmTy0_1 i
  | _ => ⟨S2x3200000, .i32⟩

abbrev bufTy : (tb : Table) → Fin (tcTables nBuf tb) → BufTy
  | .hbm, ⟨i, _⟩ => hbmTy i
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call0_cst : Ref sig .tc := ⟨.hbm, 84, rfl⟩
abbrev main_call0_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_9 : Ref sig .tc := ⟨.hbm, 91, rfl⟩
abbrev main_v63 : Ref sig .tc := ⟨.hbm, 92, rfl⟩
abbrev main_v64 : Ref sig .tc := ⟨.hbm, 93, rfl⟩
abbrev main_c_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_11 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_13 : Ref sig .tc := ⟨.hbm, 109, rfl⟩
abbrev main_v77 : Ref sig .tc := ⟨.hbm, 110, rfl⟩
abbrev main_v78 : Ref sig .tc := ⟨.hbm, 111, rfl⟩
abbrev main_c_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_15 : Ref sig .tc := ⟨.hbm, 119, rfl⟩
abbrev main_v85 : Ref sig .tc := ⟨.hbm, 120, rfl⟩
abbrev main_v86 : Ref sig .tc := ⟨.hbm, 121, rfl⟩
abbrev main_c_16 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_17 : Ref sig .tc := ⟨.hbm, 140, rfl⟩
abbrev main_v104 : Ref sig .tc := ⟨.hbm, 141, rfl⟩
abbrev main_v105 : Ref sig .tc := ⟨.hbm, 142, rfl⟩
abbrev main_cst_18 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_19 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_call1_cst : Ref sig .tc := ⟨.hbm, 151, rfl⟩
abbrev main_call1_v0 : Ref sig .tc := ⟨.hbm, 152, rfl⟩
abbrev main_v112 : Ref sig .tc := ⟨.hbm, 153, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  concatenates_S3200000x1_S3200000x1_S3200000x1_S3200000x1_S3200000x4_d1 : Shape.Concatenates [S3200000x1, S3200000x1, S3200000x1, S3200000x1] S3200000x4 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  concatenates_S3200000x2_S3200000x2_S3200000x1_S3200000x1_S3200000x6_d1 : Shape.Concatenates [S3200000x2, S3200000x2, S3200000x1, S3200000x1] S3200000x6 1
  bcast_S3_S1x3_1 : S3.BroadcastsInDim S1x3 (![1] : Fin 1 → Fin S1x3.rank)
  bcast_S1x3_S3200000x3_0_1 : S1x3.BroadcastsInDim S3200000x3 (![0, 1] : Fin 2 → Fin S3200000x3.rank)
  bcast_S_S3200000x3 : S_.BroadcastsInDim S3200000x3 (![] : Fin 0 → Fin S3200000x3.rank)
  bcast_S_S100000x3 : S_.BroadcastsInDim S100000x3 (![] : Fin 0 → Fin S100000x3.rank)
  concatenates_S3200000x3_S3200000x3_S3200000x1_S3200000x1_S3200000x8_d1 : Shape.Concatenates [S3200000x3, S3200000x3, S3200000x1, S3200000x1] S3200000x8 1
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  bcast_S_S100000x1 : S_.BroadcastsInDim S100000x1 (![] : Fin 0 → Fin S100000x1.rank)
  gather_S100000x2_S3200000x1_S3200000x2_1_0_n_n_0_1_12_wf : GatherDims.WF S100000x2 S3200000x1 S3200000x2 [1] [0] [] [0] [] 1 ![1, 2]
  gather_S100000_S3200000x1_S3200000_n_0_n_n_0_1_1_wf : GatherDims.WF S100000 S3200000x1 S3200000 [] [0] [] [0] [] 1 ![1]
  dot_S3200000x6_S6x3_S3200000x3_1_0_0_1_n_n_wf : DotDims.WF S3200000x6 S6x3 S3200000x3 [1] [0] [0] [1] [] []
  dot_S3200000x4_S4x3_S3200000x3_1_0_0_1_n_n_wf : DotDims.WF S3200000x4 S4x3 S3200000x3 [1] [0] [0] [1] [] []
  scatter_S100000x3_S3200000x1_S3200000x3_1_0_0_1_wf : ScatterDims.WF S100000x3 S3200000x1 S3200000x3 [1] [0] [0] 1
  gather_S100000x3_S3200000x1_S3200000x3_1_0_n_n_0_1_13_wf : GatherDims.WF S100000x3 S3200000x1 S3200000x3 [1] [0] [] [0] [] 1 ![1, 3]
  dot_S3200000x8_S8x1_S3200000x1_1_0_0_1_n_n_wf : DotDims.WF S3200000x8 S8x1 S3200000x1 [1] [0] [0] [1] [] []
  dot_S3200000x4_S4x1_S3200000x1_1_0_0_1_n_n_wf : DotDims.WF S3200000x4 S4x1 S3200000x1 [1] [0] [0] [1] [] []
  scatter_S100000x1_S3200000x1_S3200000x1_1_0_0_1_wf : ScatterDims.WF S100000x1 S3200000x1 S3200000x1 [1] [0] [0] 1

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S3200000x6_S6x3_S3200000x3_1_0_0_1_n_n : DotDims S3200000x6 S6x3 S3200000x3 where
  lhsContracting := [1]
  rhsContracting := [0]
  lhsNonContracting := [0]
  rhsNonContracting := [1]
  lhsBatch := []
  rhsBatch := []
  wf := dot_S3200000x6_S6x3_S3200000x3_1_0_0_1_n_n_wf
def dot_S3200000x4_S4x3_S3200000x3_1_0_0_1_n_n : DotDims S3200000x4 S4x3 S3200000x3 where
  lhsContracting := [1]
  rhsContracting := [0]
  lhsNonContracting := [0]
  rhsNonContracting := [1]
  lhsBatch := []
  rhsBatch := []
  wf := dot_S3200000x4_S4x3_S3200000x3_1_0_0_1_n_n_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S3200000x8_S8x1_S3200000x1_1_0_0_1_n_n : DotDims S3200000x8 S8x1 S3200000x1 where
  lhsContracting := [1]
  rhsContracting := [0]
  lhsNonContracting := [0]
  rhsNonContracting := [1]
  lhsBatch := []
  rhsBatch := []
  wf := dot_S3200000x8_S8x1_S3200000x1_1_0_0_1_n_n_wf
def dot_S3200000x4_S4x1_S3200000x1_1_0_0_1_n_n : DotDims S3200000x4 S4x1 S3200000x1 where
  lhsContracting := [1]
  rhsContracting := [0]
  lhsNonContracting := [0]
  rhsNonContracting := [1]
  lhsBatch := []
  rhsBatch := []
  wf := dot_S3200000x4_S4x1_S3200000x1_1_0_0_1_n_n_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.KiRun.lean ====
/-
  The kernel program's run from the launch to the return, at any float instance.

  @main is fifteen items: host stretches around the two pallas_calls.  The contents of the core's unscoped buffers at
  each boundary are the launch contents pushed through each host stretch in turn, with the two buffers the regions
  write (their output arrays) replaced by what the regions leave; and what a region leaves in its output array is the
  write-backs of its 40 grid points folded over the array it was entered with (the pipeline's `arrAt`), for the proof
  data of its kernel (each output block is the body's payload of the input blocks).  Each region is a segment record
  over the thread state "every unscoped buffer at the boundary's contents, the generator register at some state, nothing
  owed"; the host stretches are segments by themselves.  The run then says: every weakly fair execution terminates,
  the result buffer ends at the last boundary's contents, and every argument array ends as launched.
-/
import proofs.«429407_j49014166782254_3_alg».proof.Proof.KiReg0
import proofs.«429407_j49014166782254_3_alg».proof.Proof.KiReg1
import proofs.«429407_j49014166782254_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run, given the regions' records -/

set_option backward.isDefEq.respectTransparency.types false in
/-- The program's run, given the regions' records: as the conditional frame, and the final memory also holds the
    result buffer at the last valuation's contents (the launch contents pushed through every host stretch and
    through what the regions leave, `outs`). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c)) :
    θ_run defs (onTc (τ := τ) (main (F := F))) ⟨m, fun _ => 0, ρ⟩ (fun r => ∀ c : Dev nD,
      r.2.mem ((c.tc : Thread nD τ).loc main_v68) = V15 m outs c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, .rfl, hpre0 c, hpost0 c, .rfl, .rfl, .rfl, .rfl, .rfl, hpre1 c, hpost1 c, .rfl, .rfl, sep_mono .rfl (hE2 c)⟩)
    (hinit := ?_) (QY := fun c s => s.mem ((c.tc : Thread nD τ).loc main_v68) = V15 m outs c (Proc.devRef .tc main_v68) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact ⟨h (Proc.devRef .tc main_v68) (Finset.mem_filter.mpr ⟨StableHlo.devRef_mem_tcRefs main_v68, by decide⟩),
        (h (Proc.devRef .tc main_arg0) (Finset.mem_filter.mpr ⟨StableHlo.devRef_mem_tcRefs main_arg0, by decide⟩)).trans (V15_main_arg0 m outs c),
        (h (Proc.devRef .tc main_arg1) (Finset.mem_filter.mpr ⟨StableHlo.devRef_mem_tcRefs main_arg1, by decide⟩)).trans (V15_main_arg1 m outs c),
        (h (Proc.devRef .tc main_arg2) (Finset.mem_filter.mpr ⟨StableHlo.devRef_mem_tcRefs main_arg2, by decide⟩)).trans (V15_main_arg2 m outs c),
        (h (Proc.devRef .tc main_arg3) (Finset.mem_filter.mpr ⟨StableHlo.devRef_mem_tcRefs main_arg3, by decide⟩)).trans (V15_main_arg3 m outs c),
        (h (Proc.devRef .tc main_arg4) (Finset.mem_filter.mpr ⟨StableHlo.devRef_mem_tcRefs main_arg4, by decide⟩)).trans (V15_main_arg4 m outs c),
        (h (Proc.devRef .tc main_arg5) (Finset.mem_filter.mpr ⟨StableHlo.devRef_mem_tcRefs main_arg5, by decide⟩)).trans (V15_main_arg5 m outs c),
        (h (Proc.devRef .tc main_arg6) (Finset.mem_filter.mpr ⟨StableHlo.devRef_mem_tcRefs main_arg6, by decide⟩)).trans (V15_main_arg6 m outs c),
        (h (Proc.devRef .tc main_arg7) (Finset.mem_filter.mpr ⟨StableHlo.devRef_mem_tcRefs main_arg7, by decide⟩)).trans (V15_main_arg7 m outs c),
        (h (Proc.devRef .tc main_arg8) (Finset.mem_filter.mpr ⟨StableHlo.devRef_mem_tcRefs main_arg8, by decide⟩)).trans (V15_main_arg8 m outs c),
        (h (Proc.devRef .tc main_arg9) (Finset.mem_filter.mpr ⟨StableHlo.devRef_mem_tcRefs main_arg9, by decide⟩)).trans (V15_main_arg9 m outs c),
        (h (Proc.devRef .tc main_arg10) (Finset.mem_filter.mpr ⟨StableHlo.devRef_mem_tcRefs main_arg10, by decide⟩)).trans (V15_main_arg10 m outs c),
        (h (Proc.devRef .tc main_arg11) (Finset.mem_filter.mpr ⟨StableHlo.devRef_mem_tcRefs main_arg11, by decide⟩)).trans (V15_main_arg11 m outs c),
        (h (Proc.devRef .tc main_arg12) (Finset.mem_filter.mpr ⟨StableHlo.devRef_mem_tcRefs main_arg12, by decide⟩)).trans (V15_main_arg12 m outs c),
        (h (Proc.devRef .tc main_arg13) (Finset.mem_filter.mpr ⟨StableHlo.devRef_mem_tcRefs main_arg13, by decide⟩)).trans (V15_main_arg13 m outs c),
        (h (Proc.devRef .tc main_arg14) (Finset.mem_filter.mpr ⟨StableHlo.devRef_mem_tcRefs main_arg14, by decide⟩)).trans (V15_main_arg14 m outs c)⟩
    · iexact HSI

/-! ## What the regions leave -/

/-- The contents the first region is entered with (the launch contents after the first four host stretches), -/
abbrev Ve0W (c : Dev nD) : Valuation τ sig (Elt F) := V4 m c
/-- read at the core's references. -/
abbrev Ve0 : (c : Dev nD) → (b : Ref sig .tc) → Buf (Elt F) ((c : Thread nD τ).loc b) := fun c b => V4 m c b

/-- At the first region's exit: its arrays at what the pipeline leaves (the inputs as entered, the output's
    write-backs folded), every other buffer as entered. -/
def X5 (c : Dev nD) : Valuation τ sig (Elt F) :=
  Pipeline.withArrays spec0 c (V4 m c) fun w => (dat0 (Ve0 m) c).arrAt w cfg0.N

theorem X5_arr (c : Dev nD) (w : Fin cfg0.W) :
    X5 m c (Proc.devRef .tc (Pipeline.arrRef spec0 w)) = (dat0 (Ve0 m) c).arrAt w cfg0.N := by
  unfold X5; exact Pipeline.withArrays_arr spec0 launch0.win.arr_inj c _ _ w

/-- What the first region leaves, as the unknown the boundary contents are written over. -/
def outsA : Outs (F := F) := fun _ r c => X5 m c (Proc.devRef .tc r)

/-- The contents the second region is entered with, -/
abbrev Ve1W (c : Dev nD) : Valuation τ sig (Elt F) := V11 m (outsA m) c
/-- read at the core's references. -/
abbrev Ve1 : (c : Dev nD) → (b : Ref sig .tc) → Buf (Elt F) ((c : Thread nD τ).loc b) := fun c b => V11 m (outsA m) c b

/-- At the second region's exit. -/
def X12 (c : Dev nD) : Valuation τ sig (Elt F) :=
  Pipeline.withArrays spec1 c (V11 m (outsA m) c) fun w => (dat1 (Ve1 m) c).arrAt w cfg1.N

theorem X12_arr (c : Dev nD) (w : Fin cfg1.W) :
    X12 m c (Proc.devRef .tc (Pipeline.arrRef spec1 w)) = (dat1 (Ve1 m) c).arrAt w cfg1.N := by
  unfold X12; exact Pipeline.withArrays_arr spec1 launch1.win.arr_inj c _ _ w

/-- What the two regions leave in the buffers they may change: after item 11 the second region's, before that the
    first's. -/
def outsF : Outs (F := F) := fun J r c => if J = 12 then X12 m c (Proc.devRef .tc r) else X5 m c (Proc.devRef .tc r)

theorem outsF_5 (c : Dev nD) : outsF m 5 main_v30 c = X5 m c (Proc.devRef .tc main_v30) := if_neg (by decide)
theorem outsF_12 (c : Dev nD) : outsF m 12 main_v58 c = X12 m c (Proc.devRef .tc main_v58) := if_pos rfl

/-- The second region's entry contents do not depend on what it leaves. -/
theorem V11_outsF (c : Dev nD) : V11 m (outsF m) c = V11 m (outsA m) c := by
  show StableHlo.after hostOps1_5 (StableHlo.after hostOps1_4 (StableHlo.after hostOps1_3 (StableHlo.after hostOps1_2
      (StableHlo.after hostOps1_1 (StableHlo.after hostOps1 (Function.update (V4 m c) main_v30 (outsF m 5 main_v30 c))))))) = _
  rw [outsF_5]
  rfl

/-- The first region's exit contents, -/
abbrev Vx0W (c : Dev nD) : Valuation τ sig (Elt F) := V5 m (outsF m) c
abbrev Vx0 : (c : Dev nD) → (b : Ref sig .tc) → Buf (Elt F) ((c : Thread nD τ).loc b) := fun c b => V5 m (outsF m) c b
/-- and the second's. -/
abbrev Vx1W (c : Dev nD) : Valuation τ sig (Elt F) := V12 m (outsF m) c
abbrev Vx1 : (c : Dev nD) → (b : Ref sig .tc) → Buf (Elt F) ((c : Thread nD τ).loc b) := fun c b => V12 m (outsF m) c b

theorem in_win0 : ∀ w : Fin 9, w ≠ 8 → (cfg0.win w).isOut = false := by decide
theorem ne_out0 : ∀ w : Fin 9, w ≠ 8 → Pipeline.arrRef spec0 w ≠ main_v30 := by decide
theorem in_win1 : ∀ w : Fin 9, w ≠ 8 → (cfg1.win w).isOut = false := by decide
theorem ne_out1 : ∀ w : Fin 9, w ≠ 8 → Pipeline.arrRef spec1 w ≠ main_v58 := by decide

/-- At the first region's exit each of its arrays holds what the pipeline leaves, -/
theorem hF0 (c : Dev nD) (w : Fin cfg0.W) : (dat0 (Ve0 m) c).arrAt w cfg0.N = Vx0 m c (Pipeline.arrRef spec0 w) := by
  by_cases h : w = 8
  · subst h
    show _ = Function.update (V4 m c) (Proc.devRef .tc main_v30) (outsF m 5 main_v30 c) (Proc.devRef .tc main_v30)
    rw [Function.update_self, outsF_5]
    exact (X5_arr m c 8).symm
  · rw [show Vx0 m c (Pipeline.arrRef spec0 w) = V4 m c (Pipeline.arrRef spec0 w) from
      V5_of m (outsF m) c _ (fun hm => ne_out0 w h (List.mem_singleton.mp hm))]
    exact ((dat0 (Ve0 m) c).arrAt_in w (in_win0 w h) _).trans (A_eq0 (Ve0 m) c w)
/-- and every other buffer what it held at entry. -/
theorem hrest0 (c : Dev nD) : ∀ b, b ∉ Finset.univ.image (Pipeline.arrRef spec0) → Vx0 m c b = Ve0 m c b :=
  fun b hb => V5_of m (outsF m) c b fun hm => hb (Finset.mem_image.mpr ⟨8, Finset.mem_univ _, (List.mem_singleton.mp hm).symm⟩)

theorem hF1 (c : Dev nD) (w : Fin cfg1.W) : (dat1 (Ve1 m) c).arrAt w cfg1.N = Vx1 m c (Pipeline.arrRef spec1 w) := by
  by_cases h : w = 8
  · subst h
    show _ = Function.update (V11 m (outsF m) c) (Proc.devRef .tc main_v58) (outsF m 12 main_v58 c) (Proc.devRef .tc main_v58)
    rw [Function.update_self, outsF_12]
    exact (X12_arr m c 8).symm
  · rw [show Vx1 m c (Pipeline.arrRef spec1 w) = V11 m (outsF m) c (Pipeline.arrRef spec1 w) from
      V12_of m (outsF m) c _ (fun hm => ne_out1 w h (List.mem_singleton.mp hm)), V11_outsF]
    exact ((dat1 (Ve1 m) c).arrAt_in w (in_win1 w h) _).trans (A_eq1 (Ve1 m) c w)
theorem hrest1 (c : Dev nD) : ∀ b, b ∉ Finset.univ.image (Pipeline.arrRef spec1) → Vx1 m c b = Ve1 m c b :=
  fun b hb => (V12_of m (outsF m) c b fun hm => hb (Finset.mem_image.mpr ⟨8, Finset.mem_univ _, (List.mem_singleton.mp hm).symm⟩)).trans
    (congrFun (V11_outsF m c) _)

/-! ## The proof data family and the thread state -/

/-- Every pipeline's proof data, each at its region's entry contents: a literal match on the pipeline's number. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at its entry contents, left at its exit
    contents.  Its nine arrays are split out of the unscoped buffers and put back with the output array at what the
    write-backs leave; the generator register goes into the region's invariant and comes out; nothing is owed; the
    kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lz lvz 0 fun _ _ => rfl
  pre c := iprop(StableHlo.held (c : Thread nD τ) (Pipeline.ucRefs τ sig) (Ve0W m c) ∗ Rst c)
  post c := iprop(StableHlo.held (c : Thread nD τ) (Pipeline.ucRefs τ sig) (Vx0W m c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents.  Its nine arrays are split out of the unscoped buffers and put back with the output array at what the
    write-backs leave; the generator register goes into the region's invariant and comes out; nothing is owed; the
    kernel has no semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ Lz lvz 1 fun _ _ => rfl
  pre c := iprop(StableHlo.held (c : Thread nD τ) (Pipeline.ucRefs τ sig) (Ve1W m c) ∗ Rst c)
  post c := iprop(StableHlo.held (c : Thread nD τ) (Pipeline.ucRefs τ sig) (Vx1W m c) ∗ Rst c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN of the kernel program from any launch memory with zero counters: every weakly fair execution terminates,
    nothing faulting; the result buffer ends at the last boundary's contents and every argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v68) = V15 m (outsF m) c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_cond m emb₁ () Variants.none Lz lvz (fun _ _ => rfl) ρ (outsF m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by
      iintro ⟨-, HO⟩
      iexact HO)
    (reg0 m) (fun c => .rfl) (fun c => .rfl)
    (reg1 m) (fun c => by rw [V11_outsF]; exact .rfl) (fun c => .rfl)

end Cert.KernelIdeal.Hand

end
-- ==== Proof.Spec.lean ====
/-
  The mathematics of the two stacked edge-gated message-passing layers, on plain functions over the extended reals.

  There are N = 100000 nodes and E = 3200000 edges.  Edge e goes from node src e to node dst e (the two rows of the
  index array).  A row gather reads a node array at an index word read signed and clamped into [0, N - 1] (cl).  In
  each layer the message of edge e at output channel o is
      (sum over the input rows j of  m_in e j * W j o  +  b o)  *  1 / (1 + exp (-(sum_j ef e j * We j o + be o))),
  where m_in e is the source node's features, the destination node's features, the source's elevation and the
  destination's elevation; the messages of the edges whose destination word, read signed, is node n are added into
  node n, and the result is rectified (max with 0).

  Two arrangements of the same numbers are written out:
  * the transposed arrangement (out, h1, edge1, edge2): a node table with the elevation as its last row is read at the
    source and at the destination, the weight matrix is cut into the rows that meet the source's entries (ws) and the
    rows that meet the destination's entries (wd), every product is weight * entry, and the gate is the logistic
    function;
  * the row arrangement (rout, rh1, redge1, redge2): one sum over the six (eight) entries of m_in, every product
    entry * weight, and the gate spelt 1 / (1 + exp (-x)).
  They agree by commutativity and associativity alone (Proof/SpecAlgebra.lean), so no finiteness is needed.
-/
import Idealize.ShloMosaic.PureOps.Ideal

noncomputable section

namespace Cert.Spec

open Idealize.ShloMosaic

/-- The number of nodes. -/
abbrev NN : ℕ := 100000
/-- The number of edges. -/
abbrev EE : ℕ := 3200000

/-- An index word read signed and clamped into the node range [0, N - 1]: what a gather reads at. -/
def cl (w : BitVec 32) : Fin NN :=
  ⟨min w.toInt.toNat (NN - 1), by show min w.toInt.toNat (100000 - 1) < 100000; omega⟩

/-- The fifteen argument arrays as plain functions. -/
structure Args where
  /-- row 0 the source node of each edge, row 1 its destination node -/
  ei : Fin 2 → Fin EE → BitVec 32
  /-- two features per node -/
  x : Fin NN → Fin 2 → EReal
  /-- the elevation of each node -/
  elev : Fin NN → EReal
  /-- the four features of each edge -/
  f0 : Fin EE → EReal
  f1 : Fin EE → EReal
  f2 : Fin EE → EReal
  f3 : Fin EE → EReal
  W1 : Fin 6 → Fin 3 → EReal
  b1 : Fin 3 → EReal
  We1 : Fin 4 → Fin 3 → EReal
  be1 : Fin 3 → EReal
  W2 : Fin 8 → Fin 1 → EReal
  b2 : Fin 1 → EReal
  We2 : Fin 4 → Fin 1 → EReal
  be2 : Fin 1 → EReal

variable (a : Args)

/-- The edge features as a 4-row table. -/
def Args.ef (j : Fin 4) (e : Fin EE) : EReal :=
  match j with
  | 0 => a.f0 e
  | 1 => a.f1 e
  | 2 => a.f2 e
  | 3 => a.f3 e

/-- Edge e lands on node n: its destination word, read signed, is n. -/
def lands (n : Fin NN) (e : Fin EE) : Prop := (a.ei 1 e).toInt = (n.val : ℤ)

instance (n : Fin NN) : DecidablePred (lands a n) := fun _ => by unfold lands; infer_instance

/-! ## The transposed arrangement -/

/-- Layer 1's node table: the two features, then the elevation. -/
def tab1 (k : Fin 3) (n : Fin NN) : EReal :=
  match k with
  | 0 => a.x n 0
  | 1 => a.x n 1
  | 2 => a.elev n

/-- Layer 1's weights on the source's entries: rows 0, 1 and 4 of W1, transposed. -/
def ws1 (o : Fin 3) (k : Fin 3) : EReal :=
  match k with
  | 0 => a.W1 0 o
  | 1 => a.W1 1 o
  | 2 => a.W1 4 o

/-- Layer 1's weights on the destination's entries: rows 2, 3 and 5 of W1, transposed. -/
def wd1 (o : Fin 3) (k : Fin 3) : EReal :=
  match k with
  | 0 => a.W1 2 o
  | 1 => a.W1 3 o
  | 2 => a.W1 5 o

/-- Layer 1's gated message of edge e at channel o. -/
def edge1 (o : Fin 3) (e : Fin EE) : EReal :=
  ((∑ k : Fin 3, ws1 a o k * tab1 a k (cl (a.ei 0 e))) + (∑ k : Fin 3, wd1 a o k * tab1 a k (cl (a.ei 1 e))) + a.b1 o)
    * Ideal.logistic ((∑ j : Fin 4, a.We1 j o * a.ef j e) + a.be1 o)

/-- Layer 1's output at channel o, node n: the landing edges' messages added to zero, rectified. -/
def h1 (o : Fin 3) (n : Fin NN) : EReal :=
  max (0 + ∑ e ∈ Finset.univ.filter (lands a n), edge1 a o e) 0

/-- Layer 2's node table: layer 1's three channels, then the elevation. -/
def tab2 (k : Fin 4) (n : Fin NN) : EReal :=
  match k with
  | 0 => h1 a 0 n
  | 1 => h1 a 1 n
  | 2 => h1 a 2 n
  | 3 => a.elev n

/-- Layer 2's weights on the source's entries: rows 0, 1, 2 and 6 of W2, transposed. -/
def ws2 (o : Fin 1) (k : Fin 4) : EReal :=
  match k with
  | 0 => a.W2 0 o
  | 1 => a.W2 1 o
  | 2 => a.W2 2 o
  | 3 => a.W2 6 o

/-- Layer 2's weights on the destination's entries: rows 3, 4, 5 and 7 of W2, transposed. -/
def wd2 (o : Fin 1) (k : Fin 4) : EReal :=
  match k with
  | 0 => a.W2 3 o
  | 1 => a.W2 4 o
  | 2 => a.W2 5 o
  | 3 => a.W2 7 o

/-- Layer 2's gated message of edge e at its one channel. -/
def edge2 (o : Fin 1) (e : Fin EE) : EReal :=
  ((∑ k : Fin 4, ws2 a o k * tab2 a k (cl (a.ei 0 e))) + (∑ k : Fin 4, wd2 a o k * tab2 a k (cl (a.ei 1 e))) + a.b2 o)
    * Ideal.logistic ((∑ j : Fin 4, a.We2 j o * a.ef j e) + a.be2 o)

/-- The result at node n. -/
def out (n : Fin NN) : EReal :=
  max (0 + ∑ e ∈ Finset.univ.filter (lands a n), edge2 a 0 e) 0

/-! ## The row arrangement -/

/-- Layer 1's message input of edge e: source features, destination features, source elevation, destination
    elevation. -/
def min1 (e : Fin EE) (j : Fin 6) : EReal :=
  match j with
  | 0 => a.x (cl (a.ei 0 e)) 0
  | 1 => a.x (cl (a.ei 0 e)) 1
  | 2 => a.x (cl (a.ei 1 e)) 0
  | 3 => a.x (cl (a.ei 1 e)) 1
  | 4 => a.elev (cl (a.ei 0 e))
  | 5 => a.elev (cl (a.ei 1 e))

def redge1 (e : Fin EE) (o : Fin 3) : EReal :=
  ((∑ j : Fin 6, min1 a e j * a.W1 j o) + a.b1 o)
    * Ideal.div 1 (1 + Ideal.exp (-((∑ j : Fin 4, a.ef j e * a.We1 j o) + a.be1 o)))

def rh1 (n : Fin NN) (o : Fin 3) : EReal :=
  max (0 + ∑ e ∈ Finset.univ.filter (lands a n), redge1 a e o) 0

/-- Layer 2's message input of edge e. -/
def min2 (e : Fin EE) (j : Fin 8) : EReal :=
  match j with
  | 0 => rh1 a (cl (a.ei 0 e)) 0
  | 1 => rh1 a (cl (a.ei 0 e)) 1
  | 2 => rh1 a (cl (a.ei 0 e)) 2
  | 3 => rh1 a (cl (a.ei 1 e)) 0
  | 4 => rh1 a (cl (a.ei 1 e)) 1
  | 5 => rh1 a (cl (a.ei 1 e)) 2
  | 6 => a.elev (cl (a.ei 0 e))
  | 7 => a.elev (cl (a.ei 1 e))

def redge2 (e : Fin EE) (o : Fin 1) : EReal :=
  ((∑ j : Fin 8, min2 a e j * a.W2 j o) + a.b2 o)
    * Ideal.div 1 (1 + Ideal.exp (-((∑ j : Fin 4, a.ef j e * a.We2 j o) + a.be2 o)))

def rout (n : Fin NN) : EReal :=
  max (0 + ∑ e ∈ Finset.univ.filter (lands a n), redge2 a e 0) 0

end Cert.Spec

end
-- ==== Proof.SpecArgs.lean ====
/-
  The fifteen argument arrays, as the programs hold them (arrays indexed by coordinate vectors), bundled as the plain
  functions the specification is written over: entry (r, e) of the index array, entry (n, k) of the node features,
  and so on, each read at the coordinate vector built from its coordinates.
-/
import proofs.«429407_j49014166782254_3_alg».proof.Proof.Spec
import Idealize.ShloMosaic.Lib.ValueIdx

noncomputable section

namespace Cert.Spec

open Idealize.ShloMosaic Idealize.ShloMosaic.ValueIdx

/-- The argument arrays as the specification's plain functions. -/
def mkArgs
    (x0 : (⟨2, ![2, 3200000]⟩ : Shape).Idx → BitVec 32)
    (x1 : (⟨2, ![100000, 2]⟩ : Shape).Idx → EReal)
    (x2 : (⟨1, ![100000]⟩ : Shape).Idx → EReal)
    (x3 x4 x5 x6 : (⟨1, ![3200000]⟩ : Shape).Idx → EReal)
    (x7 : (⟨2, ![6, 3]⟩ : Shape).Idx → EReal)
    (x8 : (⟨1, ![3]⟩ : Shape).Idx → EReal)
    (x9 : (⟨2, ![4, 3]⟩ : Shape).Idx → EReal)
    (x10 : (⟨1, ![3]⟩ : Shape).Idx → EReal)
    (x11 : (⟨2, ![8, 1]⟩ : Shape).Idx → EReal)
    (x12 : (⟨1, ![1]⟩ : Shape).Idx → EReal)
    (x13 : (⟨2, ![4, 1]⟩ : Shape).Idx → EReal)
    (x14 : (⟨1, ![1]⟩ : Shape).Idx → EReal) : Args where
  ei r e := x0 (ix2 r e)
  x n k := x1 (ix2 n k)
  elev n := x2 (ix1 n)
  f0 e := x3 (ix1 e)
  f1 e := x4 (ix1 e)
  f2 e := x5 (ix1 e)
  f3 e := x6 (ix1 e)
  W1 j o := x7 (ix2 j o)
  b1 o := x8 (ix1 o)
  We1 j o := x9 (ix2 j o)
  be1 o := x10 (ix1 o)
  W2 j o := x11 (ix2 j o)
  b2 o := x12 (ix1 o)
  We2 j o := x13 (ix2 j o)
  be2 o := x14 (ix1 o)

end Cert.Spec

end
-- ==== Proof.KvArgs.lean ====
/-
  The kernel program's fifteen argument arrays on core c, as the specification's plain functions.
-/
import proofs.«429407_j49014166782254_3_alg».proof.Proof.SpecArgs
import proofs.«429407_j49014166782254_3_alg».proof.Proof.Gen.KernelIdeal

noncomputable section

namespace Cert.KernelIdeal.HandV

open Cert.KernelIdeal Idealize.ShloMosaic Idealize.ShloMosaic.TcCoe Idealize.SL.Sem

/-- The argument arrays of the launch memory m on core c. -/
def kargs (m : (ℓ : Loc nD τ sig) → Buf (Elt Ideal) ℓ) (c : Dev nD) : Cert.Spec.Args :=
  Cert.Spec.mkArgs (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14))

end Cert.KernelIdeal.HandV

end
-- ==== Proof.LibGatherCols.lean ====
import Idealize.ShloMosaic.PureOps
import Idealize.ShloMosaic.Lib.ValueIdx

/-!
# A column gather, read at an index

The COLUMN GATHER `y[:, r] = x[:, idx[r]]` of an operand `x : [C, N]` at a column of start
indices `idx : [R, 1]`, read at one index of its result: result element `(q, r)` is `x` at row
`q` and column `idx[r, 0]`, that word read as a signed integer and clamped into `[0, N − 1]`.

In the operation's own terms: the result's axis 0 is its one offset axis and reads the operand's
axis 0, the only operand axis that is not collapsed, over a slice of full height `C`; the
result's axis 1 is its one batch axis and reads the start indices' axis 0; the start index has
one component, found on the start indices' axis 1, and it addresses the operand's axis 1, which
is collapsed (slice width one).  So on the operand's axis 0 the start is zero and the offset is
the result's row `q`, and on the operand's axis 1 the offset is zero and the start is the
clamped start index of the result's column `r`.
-/

namespace Idealize.ShloMosaic.HostIdxCols

open Idealize.ShloMosaic Idealize.ShloMosaic.ValueIdx

/-- THE COLUMN GATHER READ AT `(q, r)`: the operand at row `q` and column `idx[r, 0]`, read
    signed and clamped into `[0, N − 1]`. -/
theorem gather_cols_apply {α : Type} {N R C w : Nat} (hN : 0 < N)
    (d : GatherDims ⟨2, ![C, N]⟩ ⟨2, ![R, 1]⟩ ⟨2, ![C, R]⟩)
    (hod : d.offsetDims = [0]) (hcd : d.collapsedSliceDims = [1]) (hob : d.operandBatchingDims = [])
    (hsb : d.startIndicesBatchingDims = []) (hsim : d.startIndexMap = [1]) (hiv : d.indexVectorDim = 1)
    (hss : d.sliceSizes = ![C, 1])
    (x : (⟨2, ![C, N]⟩ : Shape).Idx → α) (idx : IVec ⟨2, ![R, 1]⟩ w) (q : Fin C) (r : Fin R) :
    Host.gather d x idx (ix2 q r)
      = x (ix2 q ⟨min (idx (ix2 r (0 : Fin 1))).toInt.toNat (N - 1), by omega⟩) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    -- the operand's row axis: no start, no batching, the offset is the result's row
    show GatherDims.start _ (ix2 q r) idx 0 + GatherDims.batchCoord _ (ix2 q r) 0
      + GatherDims.offCoord _ (ix2 q r) 0 = _
    rw [GatherDims.batchCoord_eq_zero _ _ _ List.not_mem_nil]
    unfold GatherDims.start
    rw [dif_neg (show (0 : Fin 2) ∉ ([1] : List (Fin 2)) by decide)]
    simp only [Nat.add_zero, Nat.zero_add]
    unfold GatherDims.offCoord
    rw [dif_pos ((GatherDims.mem_sKept _ _).mpr
      ⟨show (0 : Fin 2) ∉ ([1] : List (Fin 2)) by decide, List.not_mem_nil⟩)]
    rfl
  | ⟨1, _⟩ =>
    -- the operand's column axis: collapsed, so no offset; the start is the clamped start index
    show GatherDims.start _ (ix2 q r) idx 1 + GatherDims.batchCoord _ (ix2 q r) 1
      + GatherDims.offCoord _ (ix2 q r) 1 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![C, N]⟩) (si := ⟨2, ![R, 1]⟩) (t := ⟨2, ![C, R]⟩)
        ⟨[0], [1], [], [], [1], 1, ![C, 1], wf⟩ (ix2 q r)
        ⟨List.idxOf (1 : Fin 2) [1], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl

end Idealize.ShloMosaic.HostIdxCols
-- ==== Proof.KvHost0.lean ====
/-
  What the host lines before the first pallas_call leave in its eight operands, entry by entry: the gathered node
  tables (the node table, with the elevation as its last row, read at each edge's source and destination word), the
  stacked edge features, the weight matrix cut into its source rows and its destination rows and transposed, the gate's
  weights transposed, and the two bias columns.
-/
import proofs.«429407_j49014166782254_3_alg».proof.Proof.KvArgs
import proofs.«429407_j49014166782254_3_alg».proof.Proof.Gen.KernelIdeal.Regions
import proofs.«429407_j49014166782254_3_alg».proof.Proof.LibGatherCols
import Idealize.ShloMosaic.Lib.ValueLayout

noncomputable section

namespace Cert.KernelIdeal.HandV

open Cert.KernelIdeal Cert.KernelIdeal.Gen Idealize.ShloMosaic Idealize.ShloMosaic.TcCoe Idealize.ShloMosaic.ValueIdx Idealize.SL.Sem
open Cert.Spec (NN EE)

/-! ## The layout operations of these lines, read at an entry -/

/-- The node table (the two features transposed, the elevation as a last row) at a feature row. -/
private theorem tab_apply_x (x1 : FVec Ideal S100000x2 .f32) (x2 : FVec Ideal S100000 .f32) (k : Fin 3) (k' : Fin 2)
    (hk : k'.val = k.val) (n : Fin NN) :
    (truncf (F := Ideal) .bf16 (concatenate S3x100000 0
          [⟨S2x100000, transpose S2x100000 [1, 0] x1 transposes_S100000x2_S2x100000_1_0⟩,
           ⟨S1x100000, broadcastInDim S1x100000 ![1] bcast_S100000_S1x100000_1 x2⟩]
          concatenates_S2x100000_S1x100000_S3x100000_d0) bitsLt_bf16_f32 : FVec Ideal S3x100000 .bf16) (ix2 k n) = x1 (ix2 n k') := by
  rw [truncf_apply]
  refine (concatenate_pair_apply_left (t := S3x100000) (s₁ := S2x100000) (s₂ := S1x100000) (0 : Fin 2) _ _ _ (ix2 k n) rfl
    (ix2 k' n) ?_).trans ?_
  · intro b
    match b with
    | ⟨0, _⟩ => exact hk
    | ⟨1, _⟩ => rfl
  · exact transpose_ix2_apply _ _ k' n

/-- The node table at its last row: the elevation. -/
private theorem tab_apply_elev (x1 : FVec Ideal S100000x2 .f32) (x2 : FVec Ideal S100000 .f32) (k : Fin 3)
    (hk : k.val = 2) (n : Fin NN) :
    (truncf (F := Ideal) .bf16 (concatenate S3x100000 0
          [⟨S2x100000, transpose S2x100000 [1, 0] x1 transposes_S100000x2_S2x100000_1_0⟩,
           ⟨S1x100000, broadcastInDim S1x100000 ![1] bcast_S100000_S1x100000_1 x2⟩]
          concatenates_S2x100000_S1x100000_S3x100000_d0) bitsLt_bf16_f32 : FVec Ideal S3x100000 .bf16) (ix2 k n) = x2 (ix1 n) := by
  rw [truncf_apply]
  refine (concatenate_pair_apply_right (t := S3x100000) (s₁ := S2x100000) (s₂ := S1x100000) (0 : Fin 2) _ _ _ (ix2 k n) rfl rfl
    (ix2 (0 : Fin 1) n) ?_ ?_).trans ?_
  · intro b hb
    match b, hb with
    | ⟨0, _⟩, hb => exact absurd rfl hb
    | ⟨1, _⟩, _ => rfl
  · show 0 + 2 = k.val
    omega
  · refine broadcastInDim_apply _ _ _ (ix2 (0 : Fin 1) n) (ix1 n) ?_
    intro a
    match a with
    | ⟨0, _⟩ => exact (if_neg (show ¬((100000 : ℕ) = 1) by decide)).symm

/-- Row r of the index array, flattened and stood up as a column: entry (e, 0) is the index array at (r, e). -/
private theorem idx_apply (x0 : IVec S2x3200000 32) (o : Nat) (r : Fin 2) (hr : r.val = o)
    (h : S2x3200000.Slices ![o, 0] S1x3200000) (e : Fin EE) :
    (broadcastInDim S3200000x1 ![0] bcast_S3200000_S3200000x1_0
          (shapeCast S3200000 (extractStridedSlice S1x3200000 ![o, 0] x0 h) shapeCasts_S1x3200000_S3200000) : IVec S3200000x1 32) (ix2 e (0 : Fin 1)) = x0 (ix2 r e) := by
  refine (broadcastInDim_apply _ _ _ (ix2 e (0 : Fin 1)) (ix1 e) ?_).trans ?_
  · intro a
    match a with
    | ⟨0, _⟩ => exact (if_neg (show ¬((3200000 : ℕ) = 1) by decide)).symm
  · refine (shapeCast_1a_a_apply _ _ e).trans ?_
    exact slice2_axis0_apply o x0 h (0 : Fin 1) e r (by rw [hr]; rfl)

/-- The column gather of the program, read at (k, e): the operand at row k and the clamped word of edge e. -/
private theorem gathered_apply (X : FVec Ideal S3x100000 .bf16) (idx : IVec S3200000x1 32) (w : BitVec 32) (k : Fin 3)
    (e : Fin EE) (hw : idx (ix2 e (0 : Fin 1)) = w) :
    (Host.gather gather_S3x100000_S3200000x1_S3x3200000_0_1_n_n_1_1_31 X idx : FVec Ideal S3x3200000 .bf16) (ix2 k e)
      = X (ix2 k (Cert.Spec.cl w)) := by
  subst hw
  exact HostIdxCols.gather_cols_apply (by decide) _ rfl rfl rfl rfl rfl rfl rfl X idx k e

/-- Four edge arrays, each given a leading unit axis, stacked along that axis: entry (j, e) is array j at e. -/
private theorem stack4_apply (A0 A1 A2 A3 : FVec Ideal S3200000 .f32) (j : Fin 4) (e : Fin EE) :
    (truncf (F := Ideal) .bf16 (concatenate S4x3200000 0
        [⟨S1x3200000, broadcastInDim S1x3200000 ![1] bcast_S3200000_S1x3200000_1 A0⟩,
         ⟨S1x3200000, broadcastInDim S1x3200000 ![1] bcast_S3200000_S1x3200000_1 A1⟩,
         ⟨S1x3200000, broadcastInDim S1x3200000 ![1] bcast_S3200000_S1x3200000_1 A2⟩,
         ⟨S1x3200000, broadcastInDim S1x3200000 ![1] bcast_S3200000_S1x3200000_1 A3⟩]
        concatenates_S1x3200000_S1x3200000_S1x3200000_S1x3200000_S4x3200000_d0) bitsLt_bf16_f32 : FVec Ideal S4x3200000 .bf16) (ix2 j e)
      = (![A0, A1, A2, A3] : Fin 4 → FVec Ideal S3200000 .f32) j (ix1 e) := by
  rw [truncf_apply]
  refine (concatenate_ofFn_unit_apply (t := S4x3200000) (s₁ := S1x3200000) (0 : Fin 2) (N := 4)
    (fun n => broadcastInDim S1x3200000 ![1] bcast_S3200000_S1x3200000_1 ((![A0, A1, A2, A3] : Fin 4 → FVec Ideal S3200000 .f32) n))
    concatenates_S1x3200000_S1x3200000_S1x3200000_S1x3200000_S4x3200000_d0 rfl rfl (ix2 j e) j rfl (ix2 (0 : Fin 1) e) ?_).trans ?_
  · intro b hb
    match b, hb with
    | ⟨0, _⟩, hb => exact absurd rfl hb
    | ⟨1, _⟩, _ => rfl
  · refine broadcastInDim_apply _ _ _ (ix2 (0 : Fin 1) e) (ix1 e) ?_
    intro a
    match a with
    | ⟨0, _⟩ => exact (if_neg (show ¬((3200000 : ℕ) = 1) by decide)).symm

/-- The weight matrix cut at rows r0, r0+1 and at row r2, the two cuts stacked, the stack transposed: entry (o, k)
    is the matrix at row (r0 + k for k < 2, r2 for k = 2) and column o. -/
private theorem wcut_apply (W : FVec Ideal S6x3 .f32) (r0 r2 : Nat)
    (h0 : S6x3.Slices ![r0, 0] S2x3) (h2 : S6x3.Slices ![r2, 0] S1x3) (o k : Fin 3)
    (q : Fin 6) (hq : q.val = if k.val < 2 then r0 + k.val else r2) :
    (truncf (F := Ideal) .bf16 (transpose S3x3 [1, 0]
        (concatenate S3x3 0 [⟨S2x3, extractStridedSlice S2x3 ![r0, 0] W h0⟩, ⟨S1x3, extractStridedSlice S1x3 ![r2, 0] W h2⟩]
          concatenates_S2x3_S1x3_S3x3_d0) transposes_S3x3_S3x3_1_0) bitsLt_bf16_f32 : FVec Ideal S3x3 .bf16) (ix2 o k)
      = W (ix2 q o) := by
  rw [truncf_apply]
  refine (transpose_ix2_apply _ _ o k).trans ?_
  by_cases hk : k.val < 2
  · rw [if_pos hk] at hq
    refine (concatenate_pair_apply_left (t := S3x3) (s₁ := S2x3) (s₂ := S1x3) (0 : Fin 2) _ _ _ (ix2 k o) rfl
      (ix2 (⟨k.val, hk⟩ : Fin 2) o) ?_).trans ?_
    · intro b
      match b with
      | ⟨0, _⟩ => rfl
      | ⟨1, _⟩ => rfl
    · exact slice2_axis0_apply r0 W h0 ⟨k.val, hk⟩ o q hq
  · rw [if_neg hk] at hq
    refine (concatenate_pair_apply_right (t := S3x3) (s₁ := S2x3) (s₂ := S1x3) (0 : Fin 2) _ _ _ (ix2 k o) rfl rfl
      (ix2 (0 : Fin 1) o) ?_ ?_).trans ?_
    · intro b hb
      match b, hb with
      | ⟨0, _⟩, hb => exact absurd rfl hb
      | ⟨1, _⟩, _ => rfl
    · show 0 + 2 = k.val
      omega
    · exact slice2_axis0_apply r2 W h2 (0 : Fin 1) o q (by rw [hq]; rfl)

/-- A 3-vector stood up as a column: entry (o, 0) is the vector at o. -/
private theorem col_apply (b : FVec Ideal S3 .f32) (o : Fin 3) :
    shapeCast S3x1 b shapeCasts_S3_S3x1 (ix2 o (0 : Fin 1)) = b (ix1 o) := by
  refine shapeCast_apply _ _ (ix2 o (0 : Fin 1)) (ix1 o) ?_
  rw [Shape.rowMajor_val_two, Shape.rowMajor_val_one]
  show o.val = o.val * 1 + 0
  omega

/-! ## The eight operands -/

variable (m : (ℓ : Loc nD τ sig) → Buf (Elt Ideal) ℓ) (c : Dev nD)

theorem v14_apply (k : Fin 3) (e : Fin EE) :
    (V4 (F := Ideal) m c main_v14 : S3x3200000.Idx → EReal) (ix2 k e) = Cert.Spec.tab1 (kargs m c) k (Cert.Spec.cl ((kargs m c).ei 0 e)) := by
  have eq : (V4 (F := Ideal) m c main_v14 : S3x3200000.Idx → EReal)
      = (Host.gather gather_S3x100000_S3200000x1_S3x3200000_0_1_n_n_1_1_31
        (truncf (F := Ideal) .bf16 (concatenate S3x100000 0
          [⟨S2x100000, transpose S2x100000 [1, 0] ((m ((c.tc : Thread nD τ).loc main_arg1)) : FVec Ideal S100000x2 .f32) transposes_S100000x2_S2x100000_1_0⟩,
           ⟨S1x100000, broadcastInDim S1x100000 ![1] bcast_S100000_S1x100000_1 ((m ((c.tc : Thread nD τ).loc main_arg2)) : FVec Ideal S100000 .f32)⟩]
          concatenates_S2x100000_S1x100000_S3x100000_d0) bitsLt_bf16_f32 : FVec Ideal S3x100000 .bf16)
        (broadcastInDim S3200000x1 ![0] bcast_S3200000_S3200000x1_0
          (shapeCast S3200000 (extractStridedSlice S1x3200000 ![0, 0] ((m ((c.tc : Thread nD τ).loc main_arg0)) : IVec S2x3200000 32) slices_S2x3200000_S1x3200000_0_0) shapeCasts_S1x3200000_S3200000) : IVec S3200000x1 32) : FVec Ideal S3x3200000 .bf16) := by
    refine Eq.trans (b := ?mid) ?h1 ?h2
    case h1 => dsimp only [V4, V3, V2, V1, V0]; after_results
    case h2 => rfl
  rw [eq]
  refine (gathered_apply _ _ ((kargs m c).ei 0 e) k e (idx_apply _ 0 0 rfl _ e)).trans ?_
  match k with
  | ⟨0, _⟩ => exact tab_apply_x _ _ _ 0 rfl _
  | ⟨1, _⟩ => exact tab_apply_x _ _ _ 1 rfl _
  | ⟨2, _⟩ => exact tab_apply_elev _ _ _ rfl _
theorem v15_apply (k : Fin 3) (e : Fin EE) :
    (V4 (F := Ideal) m c main_v15 : S3x3200000.Idx → EReal) (ix2 k e) = Cert.Spec.tab1 (kargs m c) k (Cert.Spec.cl ((kargs m c).ei 1 e)) := by
  have eq : (V4 (F := Ideal) m c main_v15 : S3x3200000.Idx → EReal)
      = (Host.gather gather_S3x100000_S3200000x1_S3x3200000_0_1_n_n_1_1_31
        (truncf (F := Ideal) .bf16 (concatenate S3x100000 0
          [⟨S2x100000, transpose S2x100000 [1, 0] ((m ((c.tc : Thread nD τ).loc main_arg1)) : FVec Ideal S100000x2 .f32) transposes_S100000x2_S2x100000_1_0⟩,
           ⟨S1x100000, broadcastInDim S1x100000 ![1] bcast_S100000_S1x100000_1 ((m ((c.tc : Thread nD τ).loc main_arg2)) : FVec Ideal S100000 .f32)⟩]
          concatenates_S2x100000_S1x100000_S3x100000_d0) bitsLt_bf16_f32 : FVec Ideal S3x100000 .bf16)
        (broadcastInDim S3200000x1 ![0] bcast_S3200000_S3200000x1_0
          (shapeCast S3200000 (extractStridedSlice S1x3200000 ![1, 0] ((m ((c.tc : Thread nD τ).loc main_arg0)) : IVec S2x3200000 32) slices_S2x3200000_S1x3200000_1_0) shapeCasts_S1x3200000_S3200000) : IVec S3200000x1 32) : FVec Ideal S3x3200000 .bf16) := by
    refine Eq.trans (b := ?mid) ?h1 ?h2
    case h1 => dsimp only [V4, V3, V2, V1, V0]; after_results
    case h2 => rfl
  rw [eq]
  refine (gathered_apply _ _ ((kargs m c).ei 1 e) k e (idx_apply _ 1 1 rfl _ e)).trans ?_
  match k with
  | ⟨0, _⟩ => exact tab_apply_x _ _ _ 0 rfl _
  | ⟨1, _⟩ => exact tab_apply_x _ _ _ 1 rfl _
  | ⟨2, _⟩ => exact tab_apply_elev _ _ _ rfl _
theorem v9_apply (j : Fin 4) (e : Fin EE) :
    (V4 (F := Ideal) m c main_v9 : S4x3200000.Idx → EReal) (ix2 j e) = (kargs m c).ef j e := by
  have eq : (V4 (F := Ideal) m c main_v9 : S4x3200000.Idx → EReal)
      = (truncf (F := Ideal) .bf16 (concatenate S4x3200000 0
          [⟨S1x3200000, broadcastInDim S1x3200000 ![1] bcast_S3200000_S1x3200000_1 (m ((c.tc : Thread nD τ).loc main_arg3) : FVec Ideal S3200000 .f32)⟩,
           ⟨S1x3200000, broadcastInDim S1x3200000 ![1] bcast_S3200000_S1x3200000_1 (m ((c.tc : Thread nD τ).loc main_arg4) : FVec Ideal S3200000 .f32)⟩,
           ⟨S1x3200000, broadcastInDim S1x3200000 ![1] bcast_S3200000_S1x3200000_1 (m ((c.tc : Thread nD τ).loc main_arg5) : FVec Ideal S3200000 .f32)⟩,
           ⟨S1x3200000, broadcastInDim S1x3200000 ![1] bcast_S3200000_S1x3200000_1 (m ((c.tc : Thread nD τ).loc main_arg6) : FVec Ideal S3200000 .f32)⟩]
          concatenates_S1x3200000_S1x3200000_S1x3200000_S1x3200000_S4x3200000_d0) bitsLt_bf16_f32 : FVec Ideal S4x3200000 .bf16) := by
    dsimp only [V4, V3, V2, V1, V0]
    simp only [StableHlo.after_cons, StableHlo.after_nil]
    repeat (first | rw [StableHlo.unary_result] | rw [StableHlo.reshape_result] | (rw [StableHlo.unary_result_ne]; rotate_left; decide) | (rw [StableHlo.reshape_result_ne]; rotate_left; decide) | (rw [StableHlo.binary_result_ne]; rotate_left; decide))
    rw [StableHlo.nary4_result]
    repeat (first | rw [StableHlo.unary_result] | rw [StableHlo.reshape_result] | (rw [StableHlo.unary_result_ne]; rotate_left; decide) | (rw [StableHlo.reshape_result_ne]; rotate_left; decide) | (rw [StableHlo.binary_result_ne]; rotate_left; decide))
    rfl
  rw [eq]
  refine (stack4_apply _ _ _ _ j e).trans ?_
  match j with
  | ⟨0, _⟩ => rfl
  | ⟨1, _⟩ => rfl
  | ⟨2, _⟩ => rfl
  | ⟨3, _⟩ => rfl
theorem v23_apply (o k : Fin 3) :
    (V4 (F := Ideal) m c main_v23 : S3x3.Idx → EReal) (ix2 o k) = Cert.Spec.ws1 (kargs m c) o k := by
  have eq : (V4 (F := Ideal) m c main_v23 : S3x3.Idx → EReal)
      = (truncf (F := Ideal) .bf16 (transpose S3x3 [1, 0]
        (concatenate S3x3 0 [⟨S2x3, extractStridedSlice S2x3 ![0, 0] ((m ((c.tc : Thread nD τ).loc main_arg7)) : FVec Ideal S6x3 .f32) slices_S6x3_S2x3_0_0⟩,
          ⟨S1x3, extractStridedSlice S1x3 ![4, 0] ((m ((c.tc : Thread nD τ).loc main_arg7)) : FVec Ideal S6x3 .f32) slices_S6x3_S1x3_4_0⟩]
          concatenates_S2x3_S1x3_S3x3_d0) transposes_S3x3_S3x3_1_0) bitsLt_bf16_f32 : FVec Ideal S3x3 .bf16) := by
    dsimp only [V4, V3, V2, V1, V0]; after_results
  rw [eq]
  match k with
  | ⟨0, _⟩ => exact wcut_apply _ 0 4 _ _ o _ 0 rfl
  | ⟨1, _⟩ => exact wcut_apply _ 0 4 _ _ o _ 1 rfl
  | ⟨2, _⟩ => exact wcut_apply _ 0 4 _ _ o _ 4 rfl
theorem v25_apply (o k : Fin 3) :
    (V4 (F := Ideal) m c main_v25 : S3x3.Idx → EReal) (ix2 o k) = Cert.Spec.wd1 (kargs m c) o k := by
  have eq : (V4 (F := Ideal) m c main_v25 : S3x3.Idx → EReal)
      = (truncf (F := Ideal) .bf16 (transpose S3x3 [1, 0]
        (concatenate S3x3 0 [⟨S2x3, extractStridedSlice S2x3 ![2, 0] ((m ((c.tc : Thread nD τ).loc main_arg7)) : FVec Ideal S6x3 .f32) slices_S6x3_S2x3_2_0⟩,
          ⟨S1x3, extractStridedSlice S1x3 ![5, 0] ((m ((c.tc : Thread nD τ).loc main_arg7)) : FVec Ideal S6x3 .f32) slices_S6x3_S1x3_5_0⟩]
          concatenates_S2x3_S1x3_S3x3_d0) transposes_S3x3_S3x3_1_0) bitsLt_bf16_f32 : FVec Ideal S3x3 .bf16) := by
    dsimp only [V4, V3, V2, V1, V0]; after_results
  rw [eq]
  match k with
  | ⟨0, _⟩ => exact wcut_apply _ 2 5 _ _ o _ 2 rfl
  | ⟨1, _⟩ => exact wcut_apply _ 2 5 _ _ o _ 3 rfl
  | ⟨2, _⟩ => exact wcut_apply _ 2 5 _ _ o _ 5 rfl
theorem v28_apply (o : Fin 3) :
    (V4 (F := Ideal) m c main_v28 : S3x1.Idx → EReal) (ix2 o (0 : Fin 1)) = (kargs m c).b1 o := by
  have eq : (V4 (F := Ideal) m c main_v28 : S3x1.Idx → EReal)
      = shapeCast S3x1 ((m ((c.tc : Thread nD τ).loc main_arg8)) : FVec Ideal S3 .f32) shapeCasts_S3_S3x1 := by
    dsimp only [V4, V3, V2, V1, V0]; after_results; rfl
  rw [eq]
  exact col_apply _ o
theorem v27_apply (o : Fin 3) (j : Fin 4) :
    (V4 (F := Ideal) m c main_v27 : S3x4.Idx → EReal) (ix2 o j) = (kargs m c).We1 j o := by
  have eq : (V4 (F := Ideal) m c main_v27 : S3x4.Idx → EReal)
      = (truncf (F := Ideal) .bf16 (transpose S3x4 [1, 0] ((m ((c.tc : Thread nD τ).loc main_arg9)) : FVec Ideal S4x3 .f32) transposes_S4x3_S3x4_1_0) bitsLt_bf16_f32 : FVec Ideal S3x4 .bf16) := by
    dsimp only [V4, V3, V2, V1, V0]; after_results
  rw [eq, truncf_apply]
  exact transpose_ix2_apply _ _ o j
theorem v29_apply (o : Fin 3) :
    (V4 (F := Ideal) m c main_v29 : S3x1.Idx → EReal) (ix2 o (0 : Fin 1)) = (kargs m c).be1 o := by
  have eq : (V4 (F := Ideal) m c main_v29 : S3x1.Idx → EReal)
      = shapeCast S3x1 ((m ((c.tc : Thread nD τ).loc main_arg10)) : FVec Ideal S3 .f32) shapeCasts_S3_S3x1 := by
    dsimp only [V4, V3, V2, V1, V0]; after_results; rfl
  rw [eq]
  exact col_apply _ o

end Cert.KernelIdeal.HandV

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.KvReg0.lean ====
/-
  What the first pallas_call leaves in its output array, entry by entry, from the arrays it is entered with: the grid's 40
  blocks of 80000 edges tile the edge axis, block t of the output is the body's payload of the input blocks at t, and
  the payload at (o, e) is  (sum_k ws(o,k) * src(k,e) + sum_k wd(o,k) * dst(k,e) + b(o)) * logistic(sum_j we(o,j) * ef(j,e) + be(o)):
  the two products into a zero accumulator are plain sums over the contracted coordinate, the bias columns are
  broadcast along the edges, and a change of float format is the identity at the exact instance.
-/
import proofs.«429407_j49014166782254_3_alg».proof.Proof.KiReg0
import proofs.«429407_j49014166782254_3_alg».proof.Proof.Spec
import proofs.«429407_j49014166782254_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandV

open Cert.KernelIdeal Cert.KernelIdeal.Gen Cert.KernelIdeal.Hand Idealize.ShloMosaic Idealize.ShloMosaic.TcCoe Idealize.ShloMosaic.ValueIdx Idealize.SL.Sem
open Cert.Spec (NN EE)

variable (V : (c : Dev nD) → (b : Ref sig .tc) → Buf (Elt Ideal) ((c : Thread nD τ).loc b)) (c : Dev nD)

/-! The region's nine arrays as it is entered, each at its literal type (so that their entries can be added and
    multiplied), and the output array after the region. -/
abbrev src0 : S3x3200000.Idx → EReal := V c main_v14
abbrev dst0 : S3x3200000.Idx → EReal := V c main_v15
abbrev efs0 : S4x3200000.Idx → EReal := V c main_v9
abbrev wsm0 : S3x3.Idx → EReal := V c main_v23
abbrev wdm0 : S3x3.Idx → EReal := V c main_v25
abbrev bcol0 : S3x1.Idx → EReal := V c main_v28
abbrev wem0 : S3x4.Idx → EReal := V c main_v27
abbrev becol0 : S3x1.Idx → EReal := V c main_v29
abbrev outArr0 : S3x3200000.Idx → EReal := (dat0 (F := Ideal) V c).arrAt 8 cfg0.N

/-! ## The payload at an index -/

/-- A column of three broadcast along the edges reads, at (o, q), the column's entry at o. -/
private theorem col_broadcast0_apply (x : FVec Ideal S3x1 .f32) (o : Fin 3) (q : Fin 80000) :
    broadcastTo S3x80000 x broadcasts_S3x1_S3x80000 (ix2 o q) = x (ix2 o (0 : Fin 1)) := by
  refine broadcastTo_apply x broadcasts_S3x1_S3x80000 (ix2 o q) (ix2 o (0 : Fin 1)) fun ax => ?_
  match ax with
  | ⟨0, _⟩ => rfl
  | ⟨1, _⟩ => rfl

/-- The payload of eight blocks at (o, q): the casts to the same shape are the identity, each product into the zero
    accumulator is the sum over the contracted coordinate, the two bias columns are read at o, and the sum, the
    logistic function and the product are taken entry by entry. -/
private theorem pay0_apply (v0 v2 : FVec Ideal S3x80000 .bf16) (v4 : FVec Ideal S4x80000 .bf16) (v6 v8 : FVec Ideal S3x3 .bf16)
    (v10 : FVec Ideal S3x4 .bf16) (v15 v20 : FVec Ideal S3x1 .f32) (o : Fin 3) (q : Fin 80000) :
    k0_pay1 (F := Ideal) v0 v2 v4 v6 v8 v10 v15 v20 (ix2 o q)
      = ((∑ k : Fin 3, v6 (ix2 o k) * v0 (ix2 k q)) + (∑ k : Fin 3, v8 (ix2 o k) * v2 (ix2 k q)) + v15 (ix2 o (0 : Fin 1)))
        * Ideal.logistic ((∑ j : Fin 4, v10 (ix2 o j) * v4 (ix2 j q)) + v20 (ix2 o (0 : Fin 1))) := by
  unfold k0_pay1
  simp only [shapeCast_self]
  have h1 := Cert.LibPlainDot.matmul_zero_apply dot_S3x3_S3x80000_S3x80000_1_0_0_1_n_n rfl none v6 v0 o q
  have h2 := Cert.LibPlainDot.matmul_zero_apply dot_S3x3_S3x80000_S3x80000_1_0_0_1_n_n rfl none v8 v2 o q
  have h3 := Cert.LibPlainDot.matmul_zero_apply dot_S3x4_S4x80000_S3x80000_1_0_0_1_n_n rfl none v10 v4 o q
  show (matmul dot_S3x3_S3x80000_S3x80000_1_0_0_1_n_n none v6 v0 (constant (F := Ideal) S3x80000 .f32 0x00000000#32) (ix2 o q)
        + matmul dot_S3x3_S3x80000_S3x80000_1_0_0_1_n_n none v8 v2 (constant (F := Ideal) S3x80000 .f32 0x00000000#32) (ix2 o q)
        + broadcastTo S3x80000 v15 broadcasts_S3x1_S3x80000 (ix2 o q))
      * Ideal.logistic (matmul dot_S3x4_S4x80000_S3x80000_1_0_0_1_n_n none v10 v4 (constant (F := Ideal) S3x80000 .f32 0x00000000#32) (ix2 o q)
        + broadcastTo S3x80000 v20 broadcasts_S3x1_S3x80000 (ix2 o q)) = _
  rw [h1, h2, h3, col_broadcast0_apply, col_broadcast0_apply]

/-! ## The output array as one function of its index -/

/-- The gated message at channel o and edge e, from the region's arrays. -/
private def msg0 (o : Fin 3) (e : Fin EE) : EReal :=
  ((∑ k : Fin 3, wsm0 V c (ix2 o k) * src0 V c (ix2 k e))
      + (∑ k : Fin 3, wdm0 V c (ix2 o k) * dst0 V c (ix2 k e))
      + bcol0 V c (ix2 o (0 : Fin 1)))
    * Ideal.logistic ((∑ j : Fin 4, wem0 V c (ix2 o j) * efs0 V c (ix2 j e))
      + becol0 V c (ix2 o (0 : Fin 1)))

/-- The whole output array: at index i the gated message at channel i 0 and edge i 1. -/
private def G0 : S3x3200000.Idx → EReal := fun i => msg0 V c (i 0) (i 1)

private theorem hz0 : (![0, 0] : Fin 2 → Nat) = fun _ => 0 := funext fun a => by fin_cases a <;> rfl

/-! ## Where each window's block sits

At grid point t the three edge-indexed inputs and the output take block (0, t), that is edges 80000 t … 80000 t + 79999,
all rows; the five small inputs take block (0, 0), that is the whole array. -/

private theorem idx_facts0 : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = t.val) :=
  (by decide +kernel : ∀ t : Fin grid0.N, _)

/-! Each input block read at an index is its array read at the block's place: a block's coordinate on an axis is the
    block index times the block's size plus the coordinate inside the block. -/

private theorem blk0_src (t : Fin cfg0.N) (k : Fin 3) (q : Fin 80000) (e : Fin EE) (he : e.val = t.val * 80000 + q.val) :
    (iblk0 (F := Ideal) V c 0 t : Vec Ideal S3x80000 .bf16) (ix2 k q) = src0 V c (ix2 k e) := by
  have hi : win0_0.index t (0 : Fin 2) = 0 ∧ win0_0.index t (1 : Fin 2) = t.val := (idx_facts0 t).1
  unfold iblk0
  rw [View.read_apply]
  show src0 V c _ = src0 V c _
  congr 1
  funext a
  apply Fin.ext
  match a with
  | ⟨0, _⟩ => show win0_0.index t (0 : Fin 2) * 3 + 1 * k.val = k.val; rw [hi.1]; omega
  | ⟨1, _⟩ => show win0_0.index t (1 : Fin 2) * 80000 + 1 * q.val = e.val; rw [hi.2, he]; omega

private theorem blk0_dst (t : Fin cfg0.N) (k : Fin 3) (q : Fin 80000) (e : Fin EE) (he : e.val = t.val * 80000 + q.val) :
    (iblk0 (F := Ideal) V c 1 t : Vec Ideal S3x80000 .bf16) (ix2 k q) = dst0 V c (ix2 k e) := by
  have hi : win0_1.index t (0 : Fin 2) = 0 ∧ win0_1.index t (1 : Fin 2) = t.val := (idx_facts0 t).2.1
  unfold iblk0
  rw [View.read_apply]
  show dst0 V c _ = dst0 V c _
  congr 1
  funext a
  apply Fin.ext
  match a with
  | ⟨0, _⟩ => show win0_1.index t (0 : Fin 2) * 3 + 1 * k.val = k.val; rw [hi.1]; omega
  | ⟨1, _⟩ => show win0_1.index t (1 : Fin 2) * 80000 + 1 * q.val = e.val; rw [hi.2, he]; omega

private theorem blk0_efs (t : Fin cfg0.N) (k : Fin 4) (q : Fin 80000) (e : Fin EE) (he : e.val = t.val * 80000 + q.val) :
    (iblk0 (F := Ideal) V c 2 t : Vec Ideal S4x80000 .bf16) (ix2 k q) = efs0 V c (ix2 k e) := by
  have hi : win0_2.index t (0 : Fin 2) = 0 ∧ win0_2.index t (1 : Fin 2) = t.val := (idx_facts0 t).2.2.1
  unfold iblk0
  rw [View.read_apply]
  show efs0 V c _ = efs0 V c _
  congr 1
  funext a
  apply Fin.ext
  match a with
  | ⟨0, _⟩ => show win0_2.index t (0 : Fin 2) * 4 + 1 * k.val = k.val; rw [hi.1]; omega
  | ⟨1, _⟩ => show win0_2.index t (1 : Fin 2) * 80000 + 1 * q.val = e.val; rw [hi.2, he]; omega

private theorem blk0_wsm (t : Fin cfg0.N) (o : Fin 3) (k : Fin 3) :
    (iblk0 (F := Ideal) V c 3 t : Vec Ideal S3x3 .bf16) (ix2 o k) = wsm0 V c (ix2 o k) := by
  have hi : win0_3.index t (0 : Fin 2) = 0 ∧ win0_3.index t (1 : Fin 2) = 0 := (idx_facts0 t).2.2.2.1
  unfold iblk0
  rw [View.read_apply]
  show wsm0 V c _ = wsm0 V c _
  congr 1
  funext a
  apply Fin.ext
  match a with
  | ⟨0, _⟩ => show win0_3.index t (0 : Fin 2) * 3 + 1 * o.val = o.val; rw [hi.1]; omega
  | ⟨1, _⟩ => show win0_3.index t (1 : Fin 2) * 3 + 1 * k.val = k.val; rw [hi.2]; omega

private theorem blk0_wdm (t : Fin cfg0.N) (o : Fin 3) (k : Fin 3) :
    (iblk0 (F := Ideal) V c 4 t : Vec Ideal S3x3 .bf16) (ix2 o k) = wdm0 V c (ix2 o k) := by
  have hi : win0_4.index t (0 : Fin 2) = 0 ∧ win0_4.index t (1 : Fin 2) = 0 := (idx_facts0 t).2.2.2.2.1
  unfold iblk0
  rw [View.read_apply]
  show wdm0 V c _ = wdm0 V c _
  congr 1
  funext a
  apply Fin.ext
  match a with
  | ⟨0, _⟩ => show win0_4.index t (0 : Fin 2) * 3 + 1 * o.val = o.val; rw [hi.1]; omega
  | ⟨1, _⟩ => show win0_4.index t (1 : Fin 2) * 3 + 1 * k.val = k.val; rw [hi.2]; omega

private theorem blk0_bcol (t : Fin cfg0.N) (o : Fin 3) (k : Fin 1) :
    (iblk0 (F := Ideal) V c 5 t : Vec Ideal S3x1 .f32) (ix2 o k) = bcol0 V c (ix2 o k) := by
  have hi : win0_5.index t (0 : Fin 2) = 0 ∧ win0_5.index t (1 : Fin 2) = 0 := (idx_facts0 t).2.2.2.2.2.1
  unfold iblk0
  rw [View.read_apply]
  show bcol0 V c _ = bcol0 V c _
  congr 1
  funext a
  apply Fin.ext
  match a with
  | ⟨0, _⟩ => show win0_5.index t (0 : Fin 2) * 3 + 1 * o.val = o.val; rw [hi.1]; omega
  | ⟨1, _⟩ => show win0_5.index t (1 : Fin 2) * 1 + 1 * k.val = k.val; rw [hi.2]; omega

private theorem blk0_wem (t : Fin cfg0.N) (o : Fin 3) (k : Fin 4) :
    (iblk0 (F := Ideal) V c 6 t : Vec Ideal S3x4 .bf16) (ix2 o k) = wem0 V c (ix2 o k) := by
  have hi : win0_6.index t (0 : Fin 2) = 0 ∧ win0_6.index t (1 : Fin 2) = 0 := (idx_facts0 t).2.2.2.2.2.2.1
  unfold iblk0
  rw [View.read_apply]
  show wem0 V c _ = wem0 V c _
  congr 1
  funext a
  apply Fin.ext
  match a with
  | ⟨0, _⟩ => show win0_6.index t (0 : Fin 2) * 3 + 1 * o.val = o.val; rw [hi.1]; omega
  | ⟨1, _⟩ => show win0_6.index t (1 : Fin 2) * 4 + 1 * k.val = k.val; rw [hi.2]; omega

private theorem blk0_becol (t : Fin cfg0.N) (o : Fin 3) (k : Fin 1) :
    (iblk0 (F := Ideal) V c 7 t : Vec Ideal S3x1 .f32) (ix2 o k) = becol0 V c (ix2 o k) := by
  have hi : win0_7.index t (0 : Fin 2) = 0 ∧ win0_7.index t (1 : Fin 2) = 0 := (idx_facts0 t).2.2.2.2.2.2.2.1
  unfold iblk0
  rw [View.read_apply]
  show becol0 V c _ = becol0 V c _
  congr 1
  funext a
  apply Fin.ext
  match a with
  | ⟨0, _⟩ => show win0_7.index t (0 : Fin 2) * 3 + 1 * o.val = o.val; rw [hi.1]; omega
  | ⟨1, _⟩ => show win0_7.index t (1 : Fin 2) * 1 + 1 * k.val = k.val; rw [hi.2]; omega

/-- The output block's entry (p, q) at point t sits at channel p and edge 80000 t + q. -/
private theorem emb_out0 (t : Fin cfg0.N) (p : Fin 3) (q : Fin 80000) (e : Fin EE) (he : e.val = t.val * 80000 + q.val) :
    G0 V c (((cfg0.win 8).blk t).view.emb (ix2 p q)) = msg0 V c p e := by
  have hi : win0_8.index t (0 : Fin 2) = 0 ∧ win0_8.index t (1 : Fin 2) = t.val := (idx_facts0 t).2.2.2.2.2.2.2.2
  have h0 : ((cfg0.win 8).blk t).view.emb (ix2 p q) = ix2 p e := by
    funext a
    apply Fin.ext
    match a with
    | ⟨0, _⟩ => show win0_8.index t (0 : Fin 2) * 3 + 1 * p.val = p.val; rw [hi.1]; omega
    | ⟨1, _⟩ => show win0_8.index t (1 : Fin 2) * 80000 + 1 * q.val = e.val; rw [hi.2, he]; omega
  rw [h0]
  rfl

/-- What point t writes back is block t of the whole-array function. -/
private theorem flushed0_eq (t : Fin cfg0.N) :
    (dat0 (F := Ideal) V c).flushed 8 t = ((cfg0.win 8).blk t).view.read (Elt Ideal) (G0 V c) := by
  show (cfg0.win 8).cut (grid0.coords t) ((dat0 (F := Ideal) V c).after 8 t) = _
  rw [after0_8]
  unfold out0_8
  rw [View.canon_unit_zero hz0]
  simp only [View.ld_unit_zero (S := S3x80000) hz0, View.ld_unit_zero (S := S4x80000) hz0, View.ld_unit_zero (S := S3x3) hz0, View.ld_unit_zero (S := S3x1) hz0, View.ld_unit_zero (S := S3x4) hz0]
  funext j
  obtain ⟨p, q, rfl⟩ : ∃ (p : Fin 3) (q : Fin 80000), j = ix2 p q := ⟨j 0, j 1, eq_ix2 j⟩
  refine (pay0_apply (iblk0 V c 0 t) (iblk0 V c 1 t) (iblk0 V c 2 t) (iblk0 V c 3 t) (iblk0 V c 4 t) (iblk0 V c 6 t) (iblk0 V c 5 t) (iblk0 V c 7 t) p q).trans ?_
  have ht : t.val < 40 := t.isLt.trans_eq N_0
  have hq : q.val < 80000 := q.isLt
  rw [View.read_apply]
  show _ = G0 V c (((cfg0.win 8).blk t).view.emb (ix2 p q))
  rw [emb_out0 V c t p q ⟨t.val * 80000 + q.val, by show t.val * 80000 + q.val < 3200000; omega⟩ rfl]
  unfold msg0
  simp only [blk0_src V c t _ q ⟨t.val * 80000 + q.val, by show t.val * 80000 + q.val < 3200000; omega⟩ rfl,
    blk0_dst V c t _ q ⟨t.val * 80000 + q.val, by show t.val * 80000 + q.val < 3200000; omega⟩ rfl,
    blk0_efs V c t _ q ⟨t.val * 80000 + q.val, by show t.val * 80000 + q.val < 3200000; omega⟩ rfl,
    blk0_wsm V c t, blk0_wdm V c t, blk0_bcol V c t, blk0_wem V c t, blk0_becol V c t]

/-- Edge i 1 lies in block (i 1) / 80000, so the forty blocks cover the array, which ends at the whole-array function. -/
private theorem outArr0_eq : outArr0 V c = G0 V c :=
  (dat0 (F := Ideal) V c).arrAt_eq_of_cover 8 (G0 V c) (fun t _ => flushed0_eq V c t) fun i => by
    have h0 : (i 0).val < 3 := (i 0).isLt
    have h1 : (i 1).val < 3200000 := (i 1).isLt
    have hN : cfg0.N = 40 := N_0
    obtain ⟨t, ht⟩ : ∃ t : Fin cfg0.N, t.val = (i 1).val / 80000 := ⟨⟨(i 1).val / 80000, by rw [hN]; omega⟩, rfl⟩
    have hi : win0_8.index t (0 : Fin 2) = 0 ∧ win0_8.index t (1 : Fin 2) = t.val := (idx_facts0 t).2.2.2.2.2.2.2.2
    refine ⟨t, flush0_8 t, ?_⟩
    show i ∈ ((View.whole main_v30).slice (win0_8.rect t)).set
    rw [View.set_slice_whole, Rect.mem_set_unit]
    intro a
    match a with
    | ⟨0, _⟩ =>
      show win0_8.index t (0 : Fin 2) * 3 ≤ (i 0).val ∧ (i 0).val < win0_8.index t (0 : Fin 2) * 3 + 3
      rw [hi.1]; omega
    | ⟨1, _⟩ =>
      show win0_8.index t (1 : Fin 2) * 80000 ≤ (i 1).val ∧ (i 1).val < win0_8.index t (1 : Fin 2) * 80000 + 80000
      rw [hi.2, ht]; omega

/-- The output array after the region, at channel o and edge e. -/
theorem reg0_value (o : Fin 3) (e : Fin EE) :
    outArr0 V c (ix2 o e)
      = ((∑ k : Fin 3, wsm0 V c (ix2 o k) * src0 V c (ix2 k e))
          + (∑ k : Fin 3, wdm0 V c (ix2 o k) * dst0 V c (ix2 k e))
          + bcol0 V c (ix2 o (0 : Fin 1)))
        * Ideal.logistic ((∑ j : Fin 4, wem0 V c (ix2 o j) * efs0 V c (ix2 j e))
          + becol0 V c (ix2 o (0 : Fin 1))) := by
  rw [outArr0_eq V c]
  rfl

end Cert.KernelIdeal.HandV

end
-- ==== Proof.LibScatterConst.lean ====
/-
  A scatter whose body keeps the update (a "set") and whose updates all carry one constant, read at an index; and when an
  update index lands on a given operand index.

  The scatter is a left fold over the update indices; each step overwrites the element its update lands on, when it
  lands inside the operand. With a constant update the order of the steps and repeated landings do not matter: the result at
  an index is the constant when some update lands there, and the operand's element otherwise.
-/
import Idealize.ShloMosaic.PureOps.ShapeOps

namespace Cert.LibScatterConst

open Idealize.ShloMosaic

/-- A left fold whose step, where `g n = some i`, sets the element at `i` to the constant `c` and keeps every other element,
    and where `g n = none` keeps the function: read at `i'`, it is `c` when some member of the list lands on `i'`, else
    the starting function's element. By induction over the list, for every starting function. -/
theorem foldl_set_const_apply {ι κ α : Type} (g : κ → Option ι) (c : α) (step : (ι → α) → κ → ι → α)
    (hsome : ∀ r n i, g n = some i → step r n i = c ∧ ∀ i', i' ≠ i → step r n i' = r i')
    (hnone : ∀ r n, g n = none → step r n = r) (i' : ι) :
    ∀ (L : List κ) (r : ι → α),
      ((∃ n ∈ L, g n = some i') → L.foldl step r i' = c) ∧ ((¬ ∃ n ∈ L, g n = some i') → L.foldl step r i' = r i') := by
  intro L
  induction L with
  | nil =>
    intro r
    exact ⟨fun ⟨n, hn, _⟩ => absurd hn List.not_mem_nil, fun _ => rfl⟩
  | cons a L ih =>
    intro r
    rw [List.foldl_cons]
    obtain ⟨ih1, ih2⟩ := ih (step r a)
    constructor
    · rintro ⟨n, hn, h⟩
      by_cases hL : ∃ n ∈ L, g n = some i'
      · exact ih1 hL
      · rw [ih2 hL]
        rcases List.mem_cons.1 hn with rfl | hn
        · exact (hsome r n i' h).1
        · exact absurd ⟨n, hn, h⟩ hL
    · intro hno
      have hL : ¬ ∃ n ∈ L, g n = some i' := fun ⟨n, hn, h⟩ => hno ⟨n, List.mem_cons_of_mem _ hn, h⟩
      rw [ih2 hL]
      cases hg : g a with
      | none => rw [hnone r a hg]
      | some i =>
        have hi : i' ≠ i := fun e => hno ⟨a, List.mem_cons_self, by rw [hg, e]⟩
        exact (hsome r a i hg).2 i' hi

/-- A scatter that sets (its body returns the update) with every update equal to `c`, read at `i'`: `c` when some update index
    lands on `i'`, else the operand's element there. -/
theorem scatter_set_const_apply {s si u : Shape} {α : Type} {w : Nat} (d : ScatterDims s si u) (x : s.Idx → α)
    (idx : IVec si w) (upd : u.Idx → α) (c : α) (hupd : ∀ j, upd j = c) (i' : s.Idx)
    [Decidable (∃ j : u.Idx, d.resultIdx? j idx = some i')] :
    Host.scatter d (fun _ v => v) x idx upd i' = if ∃ j : u.Idx, d.resultIdx? j idx = some i' then c else x i' := by
  obtain rfl : upd = fun _ => c := funext hupd
  unfold Host.scatter
  have key := foldl_set_const_apply (fun n => d.resultIdx? (u.rowMajor.symm n) idx) c
    (fun r n => match d.resultIdx? (u.rowMajor.symm n) idx with
      | some i => fun i' => if i' = i then (fun _ v => v) (r i) ((fun _ => c) (u.rowMajor.symm n)) else r i'
      | none => r)
    (fun r n i h => by
      refine ⟨?_, fun i' hi => ?_⟩
      · simp only [h]; exact if_pos trivial
      · simp only [h]; exact if_neg hi)
    (fun r n h => by simp only [h]) i' (List.finRange u.numel) x
  have hiff : (∃ n ∈ List.finRange u.numel, d.resultIdx? (u.rowMajor.symm n) idx = some i') ↔
      ∃ j : u.Idx, d.resultIdx? j idx = some i' := by
    constructor
    · rintro ⟨n, _, h⟩; exact ⟨_, h⟩
    · rintro ⟨j, h⟩
      exact ⟨u.rowMajor j, List.mem_finRange _, by rw [Equiv.symm_apply_apply]; exact h⟩
  by_cases h : ∃ j : u.Idx, d.resultIdx? j idx = some i'
  · rw [if_pos h]; exact key.1 (hiff.2 h)
  · rw [if_neg h]; exact key.2 (fun h' => h (hiff.1 h'))

/-- An update index lands on the operand index `i'` exactly when, on every axis, its start plus its window coordinate is
    `i'`'s coordinate. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split
  · rename_i h
    constructor
    · intro e a
      have e1 : ((d.start j idx a + (d.window j a : Int)).toNat) = (i' a).val :=
        congrArg Fin.val (congrFun (Option.some.inj e) a)
      have ha := h a
      omega
    · intro e
      refine congrArg some (funext fun a => Fin.ext ?_)
      have ea := e a
      have ha := h a
      show (d.start j idx a + (d.window j a : Int)).toNat = (i' a).val
      omega
  · rename_i h
    constructor
    · intro e; exact absurd e (by simp)
    · intro e
      refine absurd (fun a => ?_) h
      have ea := e a
      have hlt := (i' a).isLt
      omega

end Cert.LibScatterConst
-- ==== Proof.LibScatterAddCols.lean ====
/-
  The accumulating float scatter read at an index, at the exact instance, for COLUMN updates: updates [T, R] added into
  a matrix [T, S] at an [R, 1] column of column indices (update_window_dims [0], inserted_window_dims [1],
  scatter_dims_to_operand_dims [1], index_vector_dim 1).  Element (t, o) is the operand's plus the sum, over the
  update columns n whose start index read signed is o, of update (t, n).  The mirror image of the row form
  (updates [R, T] into [S, T]).

  One update (t', n) lands on (t, o) exactly when the start index of column n, read signed, is o and t' = t: operand
  axis 1 is the one the start index addresses and it is inserted (no window coordinate), operand axis 0 is not addressed
  (start zero) and carries the update's window axis 0. The sum over the update indices that land on (t, o), split by
  coordinates with the column coordinate brought outermost, keeps in each column n at most the one term t' = t.
-/
import Idealize.ShloMosaic.PureOps.Ideal
import Idealize.ShloMosaic.Lib.ValueIdx
import proofs.«429407_j49014166782254_3_alg».proof.Proof.LibScatterConst

noncomputable section

namespace Cert.LibScatterAddCols

open Idealize.ShloMosaic Idealize.ShloMosaic.ValueIdx

/-- COLUMNS, one update: update `j = (t', n)` lands on `(t, o)` exactly when the start index of column `n`, read signed,
    is `o` and `t' = t`. On operand axis 1 the start is the index word at `[n, 0]` and the axis is inserted (window
    coordinate zero); operand axis 0 is not addressed by the start index (start zero) and carries the update's axis 0. -/
theorem cols_lands_iff {S T R : ℕ} (d : ScatterDims ⟨2, ![T, S]⟩ ⟨2, ![R, 1]⟩ ⟨2, ![T, R]⟩)
    (huw : d.updateWindowDims = [0]) (hiw : d.insertedWindowDims = [1]) (hsd : d.scatterDimsToOperandDims = [1])
    (hiv : d.indexVectorDim = 1) (idx : IVec ⟨2, ![R, 1]⟩ 32) (j : (⟨2, ![T, R]⟩ : Shape).Idx) (t : Fin T) (o : Fin S) :
    d.resultIdx? j idx = some (ix2 t o) ↔ (idx (ix2 (j 1) (0 : Fin 1))).toInt = (o.val : ℤ) ∧ j 0 = t := by
  rw [Cert.LibScatterConst.resultIdx?_eq_some_iff]
  obtain ⟨uw, iw, sd, iv, wf⟩ := d
  dsimp only at huw hiw hsd hiv
  subst huw hiw hsd hiv
  -- operand axis 1: the start is the index word at [n, 0] …
  have hstart1 : ScatterDims.start (s := ⟨2, ![T, S]⟩) (si := ⟨2, ![R, 1]⟩) (u := ⟨2, ![T, R]⟩) ⟨[0], [1], [1], 1, wf⟩ j idx 1
      = (idx (ix2 (j 1) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- … operand axis 0 is not addressed by the start index
  have hstart0 : ScatterDims.start (s := ⟨2, ![T, S]⟩) (si := ⟨2, ![R, 1]⟩) (u := ⟨2, ![T, R]⟩) ⟨[0], [1], [1], 1, wf⟩ j idx 0
      = 0 := by
    unfold ScatterDims.start
    exact dif_neg (show (0 : Fin 2) ∉ ([1] : List (Fin 2)) by decide)
  -- operand axis 1 is inserted: no window coordinate …
  have hwin1 : ScatterDims.window (s := ⟨2, ![T, S]⟩) (si := ⟨2, ![R, 1]⟩) (u := ⟨2, ![T, R]⟩) ⟨[0], [1], [1], 1, wf⟩ j 1 = 0 := by
    unfold ScatterDims.window
    exact dif_neg (show (1 : Fin 2) ∉ (List.finRange 2).filter (· ∉ ([1] : List (Fin 2))) by decide)
  -- … operand axis 0 is the one kept axis: its window coordinate is the update's coordinate on its window axis 0
  have hwin0 : ScatterDims.window (s := ⟨2, ![T, S]⟩) (si := ⟨2, ![R, 1]⟩) (u := ⟨2, ![T, R]⟩) ⟨[0], [1], [1], 1, wf⟩ j 0
      = (j 0).val := by
    unfold ScatterDims.window
    exact (dif_pos (show (0 : Fin 2) ∈ (List.finRange 2).filter (· ∉ ([1] : List (Fin 2))) by decide)).trans rfl
  constructor
  · intro h
    have h0 := h 0
    have h1 := h 1
    rw [hstart0, hwin0, zero_add] at h0
    rw [hstart1, hwin1, Nat.cast_zero, add_zero] at h1
    exact ⟨h1, Fin.ext (by exact_mod_cast h0)⟩
  · rintro ⟨h1, h0⟩ a
    match a with
    | ⟨0, _⟩ =>
      show ScatterDims.start _ j idx 0 + (ScatterDims.window _ j 0 : ℤ) = _
      rw [hstart0, hwin0, zero_add, h0]
    | ⟨1, _⟩ =>
      show ScatterDims.start _ j idx 1 + (ScatterDims.window _ j 1 : ℤ) = _
      rw [hstart1, hwin1, Nat.cast_zero, add_zero]
      exact h1

/-- COLUMNS: element (t, o) is the operand's plus the sum over the update columns n whose start index, read signed, is o,
    of update (t, n). -/
theorem scatterAdd_cols_apply {S T R : ℕ} (d : ScatterDims ⟨2, ![T, S]⟩ ⟨2, ![R, 1]⟩ ⟨2, ![T, R]⟩)
    (huw : d.updateWindowDims = [0]) (hiw : d.insertedWindowDims = [1]) (hsd : d.scatterDimsToOperandDims = [1])
    (hiv : d.indexVectorDim = 1)
    (x : (⟨2, ![T, S]⟩ : Shape).Idx → EReal) (idx : IVec ⟨2, ![R, 1]⟩ 32) (upd : (⟨2, ![T, R]⟩ : Shape).Idx → EReal)
    (t : Fin T) (o : Fin S) :
    Ideal.hostScatterAdd d x idx upd (ix2 t o)
      = x (ix2 t o) + ∑ n ∈ Finset.univ.filter
          (fun n : Fin R => (idx (ix2 n (0 : Fin 1))).toInt = (o.val : ℤ)), upd (ix2 t n) := by
  unfold Ideal.hostScatterAdd
  congr 1
  -- both sums as sums of guarded terms; the left one split by the update index's coordinates (t', n), columns outermost
  rw [Finset.sum_filter, Finset.sum_filter, sum_idx2, Finset.sum_comm]
  refine Finset.sum_congr rfl fun n _ => ?_
  by_cases hP : (idx (ix2 n (0 : Fin 1))).toInt = (o.val : ℤ)
  · -- column n starts at o: of its terms only t' = t lands on (t, o)
    rw [if_pos hP, Finset.sum_eq_single t]
    · exact if_pos ((cols_lands_iff d huw hiw hsd hiv idx (ix2 t n) t o).mpr ⟨hP, rfl⟩)
    · intro b _ hb
      exact if_neg (fun h => hb ((cols_lands_iff d huw hiw hsd hiv idx (ix2 b n) t o).mp h).2)
    · intro h; exact absurd (Finset.mem_univ t) h
  · -- column n starts elsewhere: none of its terms lands on (t, o)
    rw [if_neg hP]
    refine Finset.sum_eq_zero fun b _ => ?_
    exact if_neg (fun h => hP ((cols_lands_iff d huw hiw hsd hiv idx (ix2 b n) t o).mp h).1)

end Cert.LibScatterAddCols

end
-- ==== Proof.KvHost1.lean ====
/-
  What the host lines between the two pallas_calls leave in the second call's eight operands, entry by entry, given
  what the first call left in its output array (hout5: the first layer's gated messages): the messages are added
  into their destination nodes (a column scatter-add into zeros; a destination word that is not negative is its own
  wrapped index) and rectified, giving the first layer's node channels; these with the elevation row are the second
  layer's node table, read at each edge's source and destination word; the second weight matrix is cut, transposed,
  and the biases reshaped as before.  The stacked edge features are those of the first stretch.
-/
import proofs.«429407_j49014166782254_3_alg».proof.Proof.KvArgs
import proofs.«429407_j49014166782254_3_alg».proof.Proof.Gen.KernelIdeal.Regions
import proofs.«429407_j49014166782254_3_alg».proof.Proof.LibGatherCols
import proofs.«429407_j49014166782254_3_alg».proof.Proof.LibScatterAddCols
import Idealize.ShloMosaic.Lib.ValueLayout
import Idealize.ShloMosaic.Lib.IdealHost

noncomputable section

namespace Cert.KernelIdeal.HandV

open Cert.KernelIdeal Cert.KernelIdeal.Gen Idealize.ShloMosaic Idealize.ShloMosaic.TcCoe Idealize.ShloMosaic.ValueIdx Idealize.SL.Sem
open Cert.Spec (NN EE)

variable (m : (ℓ : Loc nD τ sig) → Buf (Elt Ideal) ℓ) (outs : Outs (F := Ideal)) (c : Dev nD)
variable (hnn : ∀ e : Fin EE, 0 ≤ ((kargs m c).ei 1 e).toInt)
variable (hout5 : ∀ (o : Fin 3) (e : Fin EE), (outs 5 main_v30 c : S3x3200000.Idx → EReal) (ix2 o e) = Cert.Spec.edge1 (kargs m c) o e)

/-! ## The host stretches over any contents -/

section Stretches
variable (W : Valuation τ sig (Elt Ideal))

/-- The source words: row 0 of the index array, as a vector. -/
private theorem h0_v1 : (StableHlo.after hostOps0 W main_v1 : S3200000.Idx → BitVec 32)
    = shapeCast S3200000 (extractStridedSlice S1x3200000 ![0, 0] (W main_arg0 : S2x3200000.Idx → BitVec 32)
        slices_S2x3200000_S1x3200000_0_0) shapeCasts_S1x3200000_S3200000 := by
  dsimp only [hostOps0]; after_results <;> rfl

/-- The destination words: row 1 of the index array, as a vector. -/
private theorem h0_v3 : (StableHlo.after hostOps0 W main_v3 : S3200000.Idx → BitVec 32)
    = shapeCast S3200000 (extractStridedSlice S1x3200000 ![1, 0] (W main_arg0 : S2x3200000.Idx → BitVec 32)
        slices_S2x3200000_S1x3200000_1_0) shapeCasts_S1x3200000_S3200000 := by
  dsimp only [hostOps0]; after_results <;> rfl

/-- The elevation as a one-row matrix. -/
private theorem h0_v11 : (StableHlo.after hostOps0 W main_v11 : S1x100000.Idx → EReal)
    = broadcastInDim S1x100000 ![1] bcast_S100000_S1x100000_1 (W main_arg2 : S100000.Idx → EReal) := by
  dsimp only [hostOps0]; after_results <;> rfl

/-- The four edge features stacked as rows. -/
private theorem h0_v9 : (StableHlo.after hostOps0 W main_v9 : S4x3200000.Idx → EReal)
    = concatenate S4x3200000 0
        [⟨S1x3200000, broadcastInDim S1x3200000 ![1] bcast_S3200000_S1x3200000_1 (W main_arg3 : S3200000.Idx → EReal)⟩,
         ⟨S1x3200000, broadcastInDim S1x3200000 ![1] bcast_S3200000_S1x3200000_1 (W main_arg4 : S3200000.Idx → EReal)⟩,
         ⟨S1x3200000, broadcastInDim S1x3200000 ![1] bcast_S3200000_S1x3200000_1 (W main_arg5 : S3200000.Idx → EReal)⟩,
         ⟨S1x3200000, broadcastInDim S1x3200000 ![1] bcast_S3200000_S1x3200000_1 (W main_arg6 : S3200000.Idx → EReal)⟩]
        concatenates_S1x3200000_S1x3200000_S1x3200000_S1x3200000_S4x3200000_d0 := by
  dsimp only [hostOps0]; after_results <;> rfl

end Stretches

section Stretches2
variable (W : Valuation τ sig (Elt Ideal))

/-- The destination words with the negative ones moved up by the node count. -/
private def wrapped (D : S3200000.Idx → BitVec 32) : S3200000.Idx → BitVec 32 :=
  select (cmpi .slt D (broadcastInDim S3200000 ![] bcast_S_S3200000 (constantI S_ 32 0#32)))
    (addi D (broadcastInDim S3200000 ![] bcast_S_S3200000 (constantI S_ 32 100000#32))) D

/-- The messages added into a zero matrix at the wrapped destination words. -/
private theorem h1_v38 : (StableHlo.after hostOps1 W main_v38 : S3x100000.Idx → EReal)
    = Host.scatterAdd (F := Ideal) scatter_S3x100000_S3200000x1_S3x3200000_0_1_1_1
        (broadcastInDim S3x100000 ![] bcast_S_S3x100000 (constant (F := Ideal) S_ .f32 0x00000000#32))
        (broadcastInDim S3200000x1 ![0] bcast_S3200000_S3200000x1_0 (wrapped (W main_v3 : S3200000.Idx → BitVec 32)))
        (W main_v30 : S3x3200000.Idx → EReal) := by
  dsimp only [hostOps1]; after_results <;> rfl

/-- The rectifier. -/
private theorem h11_v39 : (StableHlo.after hostOps1_1 W main_v39 : S3x100000.Idx → EReal)
    = maximumf (W main_v38 : S3x100000.Idx → EReal)
        (broadcastInDim S3x100000 ![] bcast_S_S3x100000 (constant (F := Ideal) S_ .f32 0x00000000#32)) := by
  dsimp only [hostOps1_1]; after_results <;> rfl

/-- The second layer's node table: the node channels over the elevation row. -/
private theorem h12_v41 : (StableHlo.after hostOps1_2 W main_v41 : S4x100000.Idx → EReal)
    = truncf .bf16 (concatenate S4x100000 0 [⟨S3x100000, (W main_v39 : S3x100000.Idx → EReal)⟩, ⟨S1x100000, (W main_v11 : S1x100000.Idx → EReal)⟩]
        concatenates_S3x100000_S1x100000_S4x100000_d0 : FVec Ideal S4x100000 .f32) bitsLt_bf16_f32 := by
  dsimp only [hostOps1_2]; after_results <;> rfl

/-- The table read at the source words. -/
private theorem h13_v42 : (StableHlo.after hostOps1_3 W main_v42 : S4x3200000.Idx → EReal)
    = Host.gather gather_S4x100000_S3200000x1_S4x3200000_0_1_n_n_1_1_41 (W main_v41 : S4x100000.Idx → EReal)
        (broadcastInDim S3200000x1 ![0] bcast_S3200000_S3200000x1_0 (W main_v1 : S3200000.Idx → BitVec 32)) := by
  dsimp only [hostOps1_3]; after_results <;> rfl

/-- The table read at the destination words. -/
private theorem h14_v43 : (StableHlo.after hostOps1_4 W main_v43 : S4x3200000.Idx → EReal)
    = Host.gather gather_S4x100000_S3200000x1_S4x3200000_0_1_n_n_1_1_41 (W main_v41 : S4x100000.Idx → EReal)
        (broadcastInDim S3200000x1 ![0] bcast_S3200000_S3200000x1_0 (W main_v3 : S3200000.Idx → BitVec 32)) := by
  dsimp only [hostOps1_4]; after_results <;> rfl

end Stretches2

section Stretches3
variable (W : Valuation τ sig (Elt Ideal))

/-- The second layer's weights on the source's entries: rows 0 to 2 and row 6, transposed. -/
private theorem h15_v51 : (StableHlo.after hostOps1_5 W main_v51 : S1x4.Idx → EReal)
    = truncf .bf16 (transpose S1x4 [1, 0]
        (concatenate S4x1 0
          [⟨S3x1, extractStridedSlice S3x1 ![0, 0] (W main_arg11 : S8x1.Idx → EReal) slices_S8x1_S3x1_0_0⟩,
           ⟨S1x1, extractStridedSlice S1x1 ![6, 0] (W main_arg11 : S8x1.Idx → EReal) slices_S8x1_S1x1_6_0⟩]
          concatenates_S3x1_S1x1_S4x1_d0) transposes_S4x1_S1x4_1_0 : FVec Ideal S1x4 .f32) bitsLt_bf16_f32 := by
  dsimp only [hostOps1_5]; after_results <;> rfl

/-- The second layer's weights on the destination's entries: rows 3 to 5 and row 7, transposed. -/
private theorem h15_v53 : (StableHlo.after hostOps1_5 W main_v53 : S1x4.Idx → EReal)
    = truncf .bf16 (transpose S1x4 [1, 0]
        (concatenate S4x1 0
          [⟨S3x1, extractStridedSlice S3x1 ![3, 0] (W main_arg11 : S8x1.Idx → EReal) slices_S8x1_S3x1_3_0⟩,
           ⟨S1x1, extractStridedSlice S1x1 ![7, 0] (W main_arg11 : S8x1.Idx → EReal) slices_S8x1_S1x1_7_0⟩]
          concatenates_S3x1_S1x1_S4x1_d0) transposes_S4x1_S1x4_1_0 : FVec Ideal S1x4 .f32) bitsLt_bf16_f32 := by
  dsimp only [hostOps1_5]; after_results <;> rfl

/-- The gate's weights, transposed. -/
private theorem h15_v55 : (StableHlo.after hostOps1_5 W main_v55 : S1x4.Idx → EReal)
    = truncf .bf16 (transpose S1x4 [1, 0] (W main_arg13 : S4x1.Idx → EReal) transposes_S4x1_S1x4_1_0 : FVec Ideal S1x4 .f32)
        bitsLt_bf16_f32 := by
  dsimp only [hostOps1_5]; after_results <;> rfl

/-- The bias as a column. -/
private theorem h15_v56 : (StableHlo.after hostOps1_5 W main_v56 : S1x1.Idx → EReal)
    = shapeCast S1x1 (W main_arg12 : S1.Idx → EReal) shapeCasts_S1_S1x1 := by
  dsimp only [hostOps1_5]; after_results <;> rfl

/-- The gate's bias as a column. -/
private theorem h15_v57 : (StableHlo.after hostOps1_5 W main_v57 : S1x1.Idx → EReal)
    = shapeCast S1x1 (W main_arg14 : S1.Idx → EReal) shapeCasts_S1_S1x1 := by
  dsimp only [hostOps1_5]; after_results <;> rfl

end Stretches3

/-! ## The wrap of a word that is not negative -/

/-- A word that is not negative read signed is its own wrapped index. -/
private theorem wrapped_apply (D : S3200000.Idx → BitVec 32) (i : S3200000.Idx) (h : 0 ≤ (D i).toInt) :
    wrapped D i = D i := by
  have hs : (D i).slt 0#32 = false := by
    unfold BitVec.slt
    exact decide_eq_false (by rw [show (0#32 : BitVec 32).toInt = 0 from rfl]; omega)
  show Scalar.select (IntOp.cmpi .slt (D i) 0#32) (IntOp.addi (D i) 100000#32) (D i) = D i
  have hc : IntOp.cmpi .slt (D i) 0#32 = 0#1 := by
    show BitVec.ofBool ((D i).slt 0#32) = 0#1
    rw [hs]; rfl
  rw [hc, select_zero]

/-! ## What the later stretches leave as the first stretch left it -/

section Keep

private theorem V5_V1 (r : Ref sig .tc) (h1 : r ∉ hostOps0_1_W := by decide) (h2 : r ∉ hostOps0_2_W := by decide)
    (h3 : r ∉ hostOps0_3_W := by decide) (h5 : r ∉ ([main_v30] : List (Ref sig .tc)) := by decide) :
    V5 (F := Ideal) m outs c r = V1 m c r :=
  (V5_of m outs c r h5).trans <| (V4_of m c r h3).trans <| (V3_of m c r h2).trans (V2_of m c r h1)

private theorem V7_V1 (r : Ref sig .tc) (h1 : r ∉ hostOps0_1_W := by decide) (h2 : r ∉ hostOps0_2_W := by decide)
    (h3 : r ∉ hostOps0_3_W := by decide) (h5 : r ∉ ([main_v30] : List (Ref sig .tc)) := by decide)
    (h6 : r ∉ hostOps1_W := by decide) (h7 : r ∉ hostOps1_1_W := by decide) :
    V7 (F := Ideal) m outs c r = V1 m c r :=
  (V7_of m outs c r h7).trans <| (V6_of m outs c r h6).trans (V5_V1 m outs c r h1 h2 h3 h5)

private theorem V9_V1 (r : Ref sig .tc) (h1 : r ∉ hostOps0_1_W := by decide) (h2 : r ∉ hostOps0_2_W := by decide)
    (h3 : r ∉ hostOps0_3_W := by decide) (h5 : r ∉ ([main_v30] : List (Ref sig .tc)) := by decide)
    (h6 : r ∉ hostOps1_W := by decide) (h7 : r ∉ hostOps1_1_W := by decide) (h8 : r ∉ hostOps1_2_W := by decide)
    (h9 : r ∉ hostOps1_3_W := by decide) :
    V9 (F := Ideal) m outs c r = V1 m c r :=
  (V9_of m outs c r h9).trans <| (V8_of m outs c r h8).trans (V7_V1 m outs c r h1 h2 h3 h5 h6 h7)

private theorem V11_V1 (r : Ref sig .tc) (h1 : r ∉ hostOps0_1_W := by decide) (h2 : r ∉ hostOps0_2_W := by decide)
    (h3 : r ∉ hostOps0_3_W := by decide) (h5 : r ∉ ([main_v30] : List (Ref sig .tc)) := by decide)
    (h6 : r ∉ hostOps1_W := by decide) (h7 : r ∉ hostOps1_1_W := by decide) (h8 : r ∉ hostOps1_2_W := by decide)
    (h9 : r ∉ hostOps1_3_W := by decide) (h10 : r ∉ hostOps1_4_W := by decide) (h11 : r ∉ hostOps1_5_W := by decide) :
    V11 (F := Ideal) m outs c r = V1 m c r :=
  (V11_of m outs c r h11).trans <| (V10_of m outs c r h10).trans (V9_V1 m outs c r h1 h2 h3 h5 h6 h7 h8 h9)

/-- An argument array reaches the last stretch as launched. -/
private theorem V10_arg (r : Ref sig .tc) (h0 : r ∉ hostOps0_W := by decide) (h1 : r ∉ hostOps0_1_W := by decide)
    (h2 : r ∉ hostOps0_2_W := by decide)
    (h3 : r ∉ hostOps0_3_W := by decide) (h5 : r ∉ ([main_v30] : List (Ref sig .tc)) := by decide)
    (h6 : r ∉ hostOps1_W := by decide) (h7 : r ∉ hostOps1_1_W := by decide) (h8 : r ∉ hostOps1_2_W := by decide)
    (h9 : r ∉ hostOps1_3_W := by decide) (h10 : r ∉ hostOps1_4_W := by decide) :
    V10 (F := Ideal) m outs c r = m ((c.tc : Thread nD τ).loc r) :=
  (V10_of m outs c r h10).trans <| (V9_V1 m outs c r h1 h2 h3 h5 h6 h7 h8 h9).trans (V1_of m c r h0)

end Keep

/-! ## What the first stretch left, entry by entry -/

section First

/-- The source word of edge e. -/
private theorem v1_apply (e : Fin EE) :
    (V1 (F := Ideal) m c main_v1 : S3200000.Idx → BitVec 32) (ix1 e) = (kargs m c).ei 0 e := by
  rw [show (V1 (F := Ideal) m c main_v1 : S3200000.Idx → BitVec 32) = _ from h0_v1 (V0 m c)]
  rw [shapeCast_1a_a_apply, slice2_axis0_apply 0 _ _ (0 : Fin 1) e (0 : Fin 2) rfl]
  rfl

/-- The destination word of edge e. -/
private theorem v3_apply (e : Fin EE) :
    (V1 (F := Ideal) m c main_v3 : S3200000.Idx → BitVec 32) (ix1 e) = (kargs m c).ei 1 e := by
  rw [show (V1 (F := Ideal) m c main_v3 : S3200000.Idx → BitVec 32) = _ from h0_v3 (V0 m c)]
  rw [shapeCast_1a_a_apply, slice2_axis0_apply 1 _ _ (0 : Fin 1) e (1 : Fin 2) rfl]
  rfl

/-- The elevation row. -/
private theorem v11_apply (u : Fin 1) (n : Fin NN) :
    (V1 (F := Ideal) m c main_v11 : S1x100000.Idx → EReal) (ix2 u n) = (kargs m c).elev n := by
  rw [show (V1 (F := Ideal) m c main_v11 : S1x100000.Idx → EReal) = _ from h0_v11 (V0 m c)]
  exact broadcastInDim_apply _ bcast_S100000_S1x100000_1 _ (ix2 u n) (ix1 n) (fun a => match a with
    | ⟨0, _⟩ => by show n.val = if (100000 : Nat) = 1 then 0 else n.val; rw [if_neg (by decide)])

end First

section First2

/-- The stacked edge features. -/
private theorem v9_first (j : Fin 4) (e : Fin EE) :
    (V1 (F := Ideal) m c main_v9 : S4x3200000.Idx → EReal) (ix2 j e) = (kargs m c).ef j e := by
  rw [show (V1 (F := Ideal) m c main_v9 : S4x3200000.Idx → EReal) = _ from h0_v9 (V0 m c)]
  have hb : ∀ (x : S3200000.Idx → EReal),
      broadcastInDim S1x3200000 ![1] bcast_S3200000_S1x3200000_1 x (ix2 (0 : Fin 1) e) = x (ix1 e) := fun x =>
    broadcastInDim_apply _ bcast_S3200000_S1x3200000_1 x (ix2 (0 : Fin 1) e) (ix1 e) (fun a => match a with
      | ⟨0, _⟩ => by show e.val = if (3200000 : Nat) = 1 then 0 else e.val; rw [if_neg (by decide)])
  have hi : ∀ (q : Fin 4) (b : Fin S1x3200000.rank), b.cast (rfl : S1x3200000.rank = S4x3200000.rank) ≠ (0 : Fin S4x3200000.rank) →
      ((ix2 (0 : Fin 1) e : S1x3200000.Idx) b).val = ((ix2 q e : S4x3200000.Idx) (b.cast rfl)).val := fun q b hb =>
    match b, hb with
    | ⟨0, _⟩, hb => absurd rfl hb
    | ⟨1, _⟩, _ => rfl
  match j with
  | ⟨0, _⟩ =>
    exact (concatenate_apply_piece _ _ _ (ix2 (⟨0, by omega⟩ : Fin 4) e) 0 (by show (0 : ℕ) < 4; omega) S1x3200000 _ rfl rfl 0 rfl
      (ix2 (0 : Fin 1) e) (hi _) rfl).trans (hb _)
  | ⟨1, _⟩ =>
    exact (concatenate_apply_piece _ _ _ (ix2 (⟨1, by omega⟩ : Fin 4) e) 1 (by show (1 : ℕ) < 4; omega) S1x3200000 _ rfl rfl 1 rfl
      (ix2 (0 : Fin 1) e) (hi _) rfl).trans (hb _)
  | ⟨2, _⟩ =>
    exact (concatenate_apply_piece _ _ _ (ix2 (⟨2, by omega⟩ : Fin 4) e) 2 (by show (2 : ℕ) < 4; omega) S1x3200000 _ rfl rfl 2 rfl
      (ix2 (0 : Fin 1) e) (hi _) rfl).trans (hb _)
  | ⟨3, _⟩ =>
    exact (concatenate_apply_piece _ _ _ (ix2 (⟨3, by omega⟩ : Fin 4) e) 3 (by show (3 : ℕ) < 4; omega) S1x3200000 _ rfl rfl 3 rfl
      (ix2 (0 : Fin 1) e) (hi _) rfl).trans (hb _)

end First2

/-! ## The scatter-add of messages into zeros, rectified, over any words and messages -/

section Abstract

/-- The zero matrix reads zero. -/
private theorem zero_apply (i : S3x100000.Idx) :
    broadcastInDim S3x100000 ![] bcast_S_S3x100000 (constant (F := Ideal) S_ .f32 0x00000000#32) i = 0 := by
  rw [broadcastInDim_scalar_apply, constant_apply, Ideal.ofBits_zero_f32]

/-- A vector of words as a column reads, at (e, 0), the vector at e. -/
private theorem col_apply (x : S3200000.Idx → BitVec 32) (e : Fin EE) :
    broadcastInDim S3200000x1 ![0] bcast_S3200000_S3200000x1_0 x (ix2 e (0 : Fin 1)) = x (ix1 e) :=
  broadcastInDim_apply _ bcast_S3200000_S3200000x1_0 x (ix2 e (0 : Fin 1)) (ix1 e) (fun a => match a with
    | ⟨0, _⟩ => by show e.val = if (3200000 : Nat) = 1 then 0 else e.val; rw [if_neg (by decide)])

/-- The column scatter-add at (o, n): the operand's entry plus the updates of the columns whose word read signed is n. -/
private theorem scatter_apply (Z : FVec Ideal S3x100000 .f32) (I : S3200000x1.Idx → BitVec 32) (U : FVec Ideal S3x3200000 .f32)
    (o : Fin 3) (n : Fin NN) :
    Host.scatterAdd (F := Ideal) scatter_S3x100000_S3200000x1_S3x3200000_0_1_1_1 Z I U (ix2 o n)
      = Z (ix2 o n) + ∑ e ∈ Finset.univ.filter (fun e : Fin EE => (I (ix2 e (0 : Fin 1))).toInt = (n.val : ℤ)), U (ix2 o e) := by
  show Ideal.hostScatterAdd scatter_S3x100000_S3200000x1_S3x3200000_0_1_1_1 Z I U (ix2 o n) = _
  exact Cert.LibScatterAddCols.scatterAdd_cols_apply scatter_S3x100000_S3200000x1_S3x3200000_0_1_1_1 rfl rfl rfl rfl Z I U o n

/-- Messages U added into zeros at the column I of words, then rectified. -/
private theorem relu_scatter_apply (I : S3200000x1.Idx → BitVec 32) (U : FVec Ideal S3x3200000 .f32) (o : Fin 3) (n : Fin NN) :
    maximumf
        (Host.scatterAdd (F := Ideal) scatter_S3x100000_S3200000x1_S3x3200000_0_1_1_1
          (broadcastInDim S3x100000 ![] bcast_S_S3x100000 (constant (F := Ideal) S_ .f32 0x00000000#32)) I U)
        (broadcastInDim S3x100000 ![] bcast_S_S3x100000 (constant (F := Ideal) S_ .f32 0x00000000#32)) (ix2 o n)
      = max (0 + ∑ e ∈ Finset.univ.filter (fun e : Fin EE => (I (ix2 e (0 : Fin 1))).toInt = (n.val : ℤ)), U (ix2 o e)) 0 := by
  rw [maximumf_apply, zero_apply, scatter_apply, zero_apply]

end Abstract

/-! ## The stretches between the two calls, entry by entry -/

section Second

/-- The destination words reach the scatter as the first stretch left them. -/
private theorem v3_at5 (e : Fin EE) :
    (V5 (F := Ideal) m outs c main_v3 : S3200000.Idx → BitVec 32) (ix1 e) = (kargs m c).ei 1 e :=
  (congrFun (V5_V1 m outs c main_v3) (ix1 e)).trans (v3_apply m c e)

include hout5 in
/-- The scatter's updates are what the first call left. -/
private theorem v30_at5 (o : Fin 3) (e : Fin EE) :
    (V5 (F := Ideal) m outs c main_v30 : S3x3200000.Idx → EReal) (ix2 o e) = Cert.Spec.edge1 (kargs m c) o e :=
  (congrFun (Function.update_self _ _ _ : V5 (F := Ideal) m outs c main_v30 = outs 5 main_v30 c) (ix2 o e)).trans (hout5 o e)

include hnn hout5 in
/-- The first layer's node channels (after the scatter-add and the rectifier). -/
theorem v39_apply (o : Fin 3) (n : Fin NN) :
    (V7 (F := Ideal) m outs c main_v39 : S3x100000.Idx → EReal) (ix2 o n) = Cert.Spec.h1 (kargs m c) o n := by
  refine (congrFun (h11_v39 (V6 (F := Ideal) m outs c)) (ix2 o n)).trans ?_
  rw [show (V6 (F := Ideal) m outs c main_v38 : S3x100000.Idx → EReal) = _ from h1_v38 (V5 m outs c)]
  refine (relu_scatter_apply _ _ o n).trans ?_
  unfold Cert.Spec.h1
  refine congrArg (fun t => max ((0 : EReal) + t) 0)
    (Finset.sum_congr (Finset.filter_congr fun e _ => ?_) fun e _ => v30_at5 m outs c hout5 o e)
  rw [col_apply, wrapped_apply _ _ (by rw [v3_at5]; exact hnn e), v3_at5]
  rfl

end Second

section Table

/-- The elevation row reaches the second table as the first stretch left it. -/
private theorem v11_at7 (n : Fin NN) :
    (V7 (F := Ideal) m outs c main_v11 : S1x100000.Idx → EReal) (ix2 (0 : Fin 1) n) = (kargs m c).elev n :=
  (congrFun (V7_V1 m outs c main_v11) (ix2 (0 : Fin 1) n)).trans (v11_apply m c 0 n)

/-- Node channels A over a one-row matrix B, at (k, n): row k of A for k < 3, the row of B for k = 3. -/
private theorem table_apply (A : S3x100000.Idx → EReal) (B : S1x100000.Idx → EReal) (k : Fin 4) (n : Fin NN) :
    concatenate S4x100000 0 [⟨S3x100000, A⟩, ⟨S1x100000, B⟩] concatenates_S3x100000_S1x100000_S4x100000_d0 (ix2 k n)
      = if h : k.val < 3 then A (ix2 (⟨k.val, h⟩ : Fin 3) n) else B (ix2 (0 : Fin 1) n) := by
  by_cases h : k.val < 3
  · rw [dif_pos h]
    exact concatenate_pair_apply_left _ A B _ (ix2 k n) rfl (ix2 (⟨k.val, h⟩ : Fin 3) n) (fun b => match b with
      | ⟨0, _⟩ => rfl
      | ⟨1, _⟩ => rfl)
  · rw [dif_neg h]
    have hk : k.val = 3 := by omega
    exact concatenate_pair_apply_right _ A B _ (ix2 k n) rfl rfl (ix2 (0 : Fin 1) n) (fun b hb => match b, hb with
      | ⟨0, _⟩, hb => absurd rfl hb
      | ⟨1, _⟩, _ => rfl) (by show 0 + 3 = k.val; omega)

include hnn hout5 in
/-- The second layer's node table. -/
private theorem v41_apply (k : Fin 4) (n : Fin NN) :
    (V8 (F := Ideal) m outs c main_v41 : S4x100000.Idx → EReal) (ix2 k n) = Cert.Spec.tab2 (kargs m c) k n := by
  refine (congrFun (h12_v41 (V7 (F := Ideal) m outs c)) (ix2 k n)).trans ?_
  refine (table_apply _ _ k n).trans ?_
  match k with
  | ⟨0, _⟩ => exact v39_apply m outs c hnn hout5 0 n
  | ⟨1, _⟩ => exact v39_apply m outs c hnn hout5 1 n
  | ⟨2, _⟩ => exact v39_apply m outs c hnn hout5 2 n
  | ⟨3, _⟩ => exact v11_at7 m outs c n

/-- The column gather of the table at a column of words: at (k, e) the table at row k and the word of e read signed and
    clamped. -/
private theorem gather_apply (T : S4x100000.Idx → EReal) (x : S3200000.Idx → BitVec 32) (k : Fin 4) (e : Fin EE) :
    Host.gather gather_S4x100000_S3200000x1_S4x3200000_0_1_n_n_1_1_41 T
        (broadcastInDim S3200000x1 ![0] bcast_S3200000_S3200000x1_0 x) (ix2 k e)
      = T (ix2 k (Cert.Spec.cl (x (ix1 e)))) := by
  refine (HostIdxCols.gather_cols_apply (by decide) gather_S4x100000_S3200000x1_S4x3200000_0_1_n_n_1_1_41
    rfl rfl rfl rfl rfl rfl rfl T _ k e).trans ?_
  refine congrArg (fun j => T (ix2 k j)) (Fin.ext ?_)
  show min _ _ = min _ _
  rw [col_apply]

include hnn hout5 in
theorem v42_apply (k : Fin 4) (e : Fin EE) :
    (V11 (F := Ideal) m outs c main_v42 : S4x3200000.Idx → EReal) (ix2 k e) = Cert.Spec.tab2 (kargs m c) k (Cert.Spec.cl ((kargs m c).ei 0 e)) := by
  refine (congrFun ((V11_of m outs c main_v42 (by decide)).trans (V10_of m outs c main_v42 (by decide))) (ix2 k e)).trans ?_
  refine (congrFun (h13_v42 (V8 (F := Ideal) m outs c)) (ix2 k e)).trans ?_
  refine (gather_apply _ _ k e).trans ?_
  rw [show (V8 (F := Ideal) m outs c main_v1 : S3200000.Idx → BitVec 32) (ix1 e) = (kargs m c).ei 0 e from
    (congrFun ((V8_of m outs c main_v1 (by decide)).trans (V7_V1 m outs c main_v1)) (ix1 e)).trans (v1_apply m c e)]
  exact v41_apply m outs c hnn hout5 k _

include hnn hout5 in
theorem v43_apply (k : Fin 4) (e : Fin EE) :
    (V11 (F := Ideal) m outs c main_v43 : S4x3200000.Idx → EReal) (ix2 k e) = Cert.Spec.tab2 (kargs m c) k (Cert.Spec.cl ((kargs m c).ei 1 e)) := by
  refine (congrFun (V11_of m outs c main_v43 (by decide)) (ix2 k e)).trans ?_
  refine (congrFun (h14_v43 (V9 (F := Ideal) m outs c)) (ix2 k e)).trans ?_
  refine (gather_apply _ _ k e).trans ?_
  rw [show (V9 (F := Ideal) m outs c main_v3 : S3200000.Idx → BitVec 32) (ix1 e) = (kargs m c).ei 1 e from
    (congrFun (V9_V1 m outs c main_v3) (ix1 e)).trans (v3_apply m c e)]
  rw [show (V9 (F := Ideal) m outs c main_v41 : S4x100000.Idx → EReal) = V8 m outs c main_v41 from V9_of m outs c main_v41 (by decide)]
  exact v41_apply m outs c hnn hout5 k _

end Table

theorem v9_apply' (j : Fin 4) (e : Fin EE) :
    (V11 (F := Ideal) m outs c main_v9 : S4x3200000.Idx → EReal) (ix2 j e) = (kargs m c).ef j e :=
  (congrFun (V11_V1 m outs c main_v9) (ix2 j e)).trans (v9_first m c j e)

/-! ## The second layer's weights and biases -/

section Weights

/-- Rows r₀, r₀+1, r₀+2 and row r₁ of an eight-row column, stacked and transposed: at (o, k) the column at row j, where j is
    r₀ + k for k < 3 and r₁ for k = 3. -/
private theorem cut_apply (A : S8x1.Idx → EReal) (r₀ r₁ : ℕ) (h0 : S8x1.Slices ![r₀, 0] S3x1) (h1 : S8x1.Slices ![r₁, 0] S1x1)
    (o : Fin 1) (k : Fin 4) (j : Fin 8) (hj : j.val = if k.val < 3 then r₀ + k.val else r₁) :
    (truncf .bf16 (transpose S1x4 [1, 0]
        (concatenate S4x1 0 [⟨S3x1, extractStridedSlice S3x1 ![r₀, 0] A h0⟩, ⟨S1x1, extractStridedSlice S1x1 ![r₁, 0] A h1⟩]
          concatenates_S3x1_S1x1_S4x1_d0) transposes_S4x1_S1x4_1_0 : FVec Ideal S1x4 .f32) bitsLt_bf16_f32 : FVec Ideal S1x4 .bf16)
      (ix2 o k) = A (ix2 j o) := by
  refine (truncf_apply (s := S1x4) _ bitsLt_bf16_f32 (ix2 o k)).trans ?_
  rw [transpose_ix2_apply]
  by_cases h : k.val < 3
  · rw [if_pos h] at hj
    refine (concatenate_pair_apply_left (s₁ := S3x1) (s₂ := S1x1) _ _ _ _ (ix2 k o) rfl (ix2 (⟨k.val, h⟩ : Fin 3) o) (fun b => match b with
      | ⟨0, _⟩ => rfl
      | ⟨1, _⟩ => rfl)).trans ?_
    exact slice2_axis0_apply r₀ A h0 ⟨k.val, h⟩ o j hj
  · rw [if_neg h] at hj
    refine (concatenate_pair_apply_right (s₁ := S3x1) (s₂ := S1x1) _ _ _ _ (ix2 k o) rfl rfl (ix2 (0 : Fin 1) o) (fun b hb => match b, hb with
      | ⟨0, _⟩, hb => absurd rfl hb
      | ⟨1, _⟩, _ => rfl) (by show 0 + 3 = k.val; omega)).trans ?_
    exact slice2_axis0_apply r₁ A h1 (0 : Fin 1) o j (by show j.val = r₁ + 0; omega)

/-- A one-entry vector as a one-entry column. -/
private theorem col1_apply (x : S1.Idx → EReal) (o : Fin 1) :
    shapeCast S1x1 x shapeCasts_S1_S1x1 (ix2 o (0 : Fin 1)) = x (ix1 o) :=
  shapeCast_apply x shapeCasts_S1_S1x1 _ _ (by
    rw [Shape.rowMajor_val_one, Shape.rowMajor_val_two]
    show o.val = o.val * 1 + 0
    omega)

theorem v51_apply (o : Fin 1) (k : Fin 4) :
    (V11 (F := Ideal) m outs c main_v51 : S1x4.Idx → EReal) (ix2 o k) = Cert.Spec.ws2 (kargs m c) o k := by
  refine (congrFun (h15_v51 (V10 (F := Ideal) m outs c)) (ix2 o k)).trans ?_
  rw [show (V10 (F := Ideal) m outs c main_arg11 : S8x1.Idx → EReal) = m ((c.tc : Thread nD τ).loc main_arg11) from
    V10_arg m outs c main_arg11]
  match k with
  | ⟨0, _⟩ => exact cut_apply _ 0 6 _ _ o ⟨0, by omega⟩ 0 rfl
  | ⟨1, _⟩ => exact cut_apply _ 0 6 _ _ o ⟨1, by omega⟩ 1 rfl
  | ⟨2, _⟩ => exact cut_apply _ 0 6 _ _ o ⟨2, by omega⟩ 2 rfl
  | ⟨3, _⟩ => exact cut_apply _ 0 6 _ _ o ⟨3, by omega⟩ 6 rfl

theorem v53_apply (o : Fin 1) (k : Fin 4) :
    (V11 (F := Ideal) m outs c main_v53 : S1x4.Idx → EReal) (ix2 o k) = Cert.Spec.wd2 (kargs m c) o k := by
  refine (congrFun (h15_v53 (V10 (F := Ideal) m outs c)) (ix2 o k)).trans ?_
  rw [show (V10 (F := Ideal) m outs c main_arg11 : S8x1.Idx → EReal) = m ((c.tc : Thread nD τ).loc main_arg11) from
    V10_arg m outs c main_arg11]
  match k with
  | ⟨0, _⟩ => exact cut_apply _ 3 7 _ _ o ⟨0, by omega⟩ 3 rfl
  | ⟨1, _⟩ => exact cut_apply _ 3 7 _ _ o ⟨1, by omega⟩ 4 rfl
  | ⟨2, _⟩ => exact cut_apply _ 3 7 _ _ o ⟨2, by omega⟩ 5 rfl
  | ⟨3, _⟩ => exact cut_apply _ 3 7 _ _ o ⟨3, by omega⟩ 7 rfl

theorem v56_apply (o : Fin 1) :
    (V11 (F := Ideal) m outs c main_v56 : S1x1.Idx → EReal) (ix2 o (0 : Fin 1)) = (kargs m c).b2 o := by
  refine (congrFun (h15_v56 (V10 (F := Ideal) m outs c)) (ix2 o (0 : Fin 1))).trans ?_
  rw [show (V10 (F := Ideal) m outs c main_arg12 : S1.Idx → EReal) = m ((c.tc : Thread nD τ).loc main_arg12) from
    V10_arg m outs c main_arg12]
  exact col1_apply _ o

theorem v55_apply (o : Fin 1) (j : Fin 4) :
    (V11 (F := Ideal) m outs c main_v55 : S1x4.Idx → EReal) (ix2 o j) = (kargs m c).We2 j o := by
  refine (congrFun (h15_v55 (V10 (F := Ideal) m outs c)) (ix2 o j)).trans ?_
  rw [show (V10 (F := Ideal) m outs c main_arg13 : S4x1.Idx → EReal) = m ((c.tc : Thread nD τ).loc main_arg13) from
    V10_arg m outs c main_arg13]
  exact transpose_ix2_apply _ transposes_S4x1_S1x4_1_0 o j

theorem v57_apply (o : Fin 1) :
    (V11 (F := Ideal) m outs c main_v57 : S1x1.Idx → EReal) (ix2 o (0 : Fin 1)) = (kargs m c).be2 o := by
  refine (congrFun (h15_v57 (V10 (F := Ideal) m outs c)) (ix2 o (0 : Fin 1))).trans ?_
  rw [show (V10 (F := Ideal) m outs c main_arg14 : S1.Idx → EReal) = m ((c.tc : Thread nD τ).loc main_arg14) from
    V10_arg m outs c main_arg14]
  exact col1_apply _ o

end Weights

end Cert.KernelIdeal.HandV

end
-- ==== Proof.KvReg1.lean ====
/-
  What the second pallas_call leaves in its output array, entry by entry, from the arrays it is entered with: the grid's 40
  blocks of 80000 edges tile the edge axis, block t of the output is the body's payload of the input blocks at t, and
  the payload at (o, e) is  (sum_k ws(o,k) * src(k,e) + sum_k wd(o,k) * dst(k,e) + b(o)) * logistic(sum_j we(o,j) * ef(j,e) + be(o)):
  the two products into a zero accumulator are plain sums over the contracted coordinate, the bias columns are
  broadcast along the edges, and a change of float format is the identity at the exact instance.
-/
import proofs.«429407_j49014166782254_3_alg».proof.Proof.KiReg1
import proofs.«429407_j49014166782254_3_alg».proof.Proof.Spec
import proofs.«429407_j49014166782254_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandV

open Cert.KernelIdeal Cert.KernelIdeal.Gen Cert.KernelIdeal.Hand Idealize.ShloMosaic Idealize.ShloMosaic.TcCoe Idealize.ShloMosaic.ValueIdx Idealize.SL.Sem
open Cert.Spec (NN EE)

variable (V : (c : Dev nD) → (b : Ref sig .tc) → Buf (Elt Ideal) ((c : Thread nD τ).loc b)) (c : Dev nD)

/-! The region's nine arrays as it is entered, each at its literal type (so that their entries can be added and
    multiplied), and the output array after the region. -/
abbrev src1 : S4x3200000.Idx → EReal := V c main_v42
abbrev dst1 : S4x3200000.Idx → EReal := V c main_v43
abbrev efs1 : S4x3200000.Idx → EReal := V c main_v9
abbrev wsm1 : S1x4.Idx → EReal := V c main_v51
abbrev wdm1 : S1x4.Idx → EReal := V c main_v53
abbrev bcol1 : S1x1.Idx → EReal := V c main_v56
abbrev wem1 : S1x4.Idx → EReal := V c main_v55
abbrev becol1 : S1x1.Idx → EReal := V c main_v57
abbrev outArr1 : S1x3200000.Idx → EReal := (dat1 (F := Ideal) V c).arrAt 8 cfg1.N

/-! ## The body's payload at an index -/

/-- A one-entry column broadcast along the edges, read at (o, q): the one entry. -/
private theorem bcol_apply (x : FVec Ideal S1x1 .f32) (h : S1x1.Broadcasts S1x80000) (o : Fin 1) (q : Fin 80000) :
    broadcastTo S1x80000 x h (ix2 o q) = x (ix2 o (0 : Fin 1)) := by
  refine broadcastTo_apply x h (ix2 o q) (ix2 o (0 : Fin 1)) ?_
  intro a
  match a with
  | ⟨0, _⟩ => show (o : Nat) = 0; omega
  | ⟨1, _⟩ => rfl

/-- The body's payload at (o, q): the two products added, plus the bias entry, times the logistic of the third
    product plus its bias entry. -/
private theorem pay1_apply (x0 x1 x2 : FVec Ideal S4x80000 .bf16) (x3 x4 x6 : FVec Ideal S1x4 .bf16) (x5 x7 : FVec Ideal S1x1 .f32)
    (o : Fin 1) (q : Fin 80000) :
    k1_pay1 (F := Ideal) x0 x1 x2 x3 x4 x6 x5 x7 (ix2 o q)
      = ((∑ k : Fin 4, x3 (ix2 o k) * x0 (ix2 k q)) + (∑ k : Fin 4, x4 (ix2 o k) * x1 (ix2 k q)) + x5 (ix2 o (0 : Fin 1)))
        * Ideal.logistic ((∑ j : Fin 4, x6 (ix2 o j) * x2 (ix2 j q)) + x7 (ix2 o (0 : Fin 1))) := by
  have h1 := Cert.LibPlainDot.matmul_zero_apply dot_S1x4_S4x80000_S1x80000_1_0_0_1_n_n rfl none x3 x0 o q
  have h2 := Cert.LibPlainDot.matmul_zero_apply dot_S1x4_S4x80000_S1x80000_1_0_0_1_n_n rfl none x4 x1 o q
  have h3 := Cert.LibPlainDot.matmul_zero_apply dot_S1x4_S4x80000_S1x80000_1_0_0_1_n_n rfl none x6 x2 o q
  unfold k1_pay1
  simp only [shapeCast_self]
  rw [mulf_apply, addf_apply, addf_apply, h1, h2, bcol_apply]
  show _ * Ideal.logistic (matmul dot_S1x4_S4x80000_S1x80000_1_0_0_1_n_n none x6 x2 (constant (F := Ideal) S1x80000 .f32 0x00000000#32) (ix2 o q)
      + broadcastTo S1x80000 x7 broadcasts_S1x1_S1x80000 (ix2 o q)) = _
  rw [h3, bcol_apply]

/-! ## The whole-array function and the windows' block indices -/

private theorem hz1 : (![0, 0] : Fin 2 → Nat) = fun _ => 0 := funext fun a => by fin_cases a <;> rfl

/-- The value the region leaves at channel o, edge e. -/
private def val1 (o : Fin 1) (e : Fin EE) : EReal :=
  ((∑ k : Fin 4, wsm1 V c (ix2 o k) * src1 V c (ix2 k e))
      + (∑ k : Fin 4, wdm1 V c (ix2 o k) * dst1 V c (ix2 k e))
      + bcol1 V c (ix2 o (0 : Fin 1)))
    * Ideal.logistic ((∑ j : Fin 4, wem1 V c (ix2 o j) * efs1 V c (ix2 j e))
      + becol1 V c (ix2 o (0 : Fin 1)))

/-- The whole output array as one function of its index. -/
private def G1 : S1x3200000.Idx → EReal := fun i => val1 V c (i 0) (i 1)

private theorem idx_facts1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = t.val :=
  (by decide +kernel : ∀ t : Fin grid1.N, _)

/-! Each input block read where the output's rectangle says: a block's coordinate in its array is the block index
    times the block's size plus the coordinate inside the block. -/

private theorem blk1_0_apply (t : Fin cfg1.N) (k : Fin 4) (q : Fin 80000) (e : Fin EE) (he : e.val = t.val * 80000 + q.val) :
    (iblk1 V c 0 t : FVec Ideal S4x80000 .bf16) (ix2 k q) = src1 V c (ix2 k e) := by
  have e0 : win1_0.index t (0 : Fin 2) = 0 := (idx_facts1 t).1
  have e1 : win1_0.index t (1 : Fin 2) = t.val := (idx_facts1 t).2.1
  unfold iblk1
  rw [View.read_apply]
  show V c main_v42 _ = V c main_v42 _
  congr 1
  funext a
  apply Fin.ext
  match a with
  | ⟨0, _⟩ => show win1_0.index t (0 : Fin 2) * 4 + 1 * k.val = k.val; rw [e0]; omega
  | ⟨1, _⟩ => show win1_0.index t (1 : Fin 2) * 80000 + 1 * q.val = e.val; rw [e1, he]; omega

private theorem blk1_1_apply (t : Fin cfg1.N) (k : Fin 4) (q : Fin 80000) (e : Fin EE) (he : e.val = t.val * 80000 + q.val) :
    (iblk1 V c 1 t : FVec Ideal S4x80000 .bf16) (ix2 k q) = dst1 V c (ix2 k e) := by
  have e0 : win1_1.index t (0 : Fin 2) = 0 := (idx_facts1 t).2.2.1
  have e1 : win1_1.index t (1 : Fin 2) = t.val := (idx_facts1 t).2.2.2.1
  unfold iblk1
  rw [View.read_apply]
  show V c main_v43 _ = V c main_v43 _
  congr 1
  funext a
  apply Fin.ext
  match a with
  | ⟨0, _⟩ => show win1_1.index t (0 : Fin 2) * 4 + 1 * k.val = k.val; rw [e0]; omega
  | ⟨1, _⟩ => show win1_1.index t (1 : Fin 2) * 80000 + 1 * q.val = e.val; rw [e1, he]; omega

private theorem blk1_2_apply (t : Fin cfg1.N) (k : Fin 4) (q : Fin 80000) (e : Fin EE) (he : e.val = t.val * 80000 + q.val) :
    (iblk1 V c 2 t : FVec Ideal S4x80000 .bf16) (ix2 k q) = efs1 V c (ix2 k e) := by
  have e0 : win1_2.index t (0 : Fin 2) = 0 := (idx_facts1 t).2.2.2.2.1
  have e1 : win1_2.index t (1 : Fin 2) = t.val := (idx_facts1 t).2.2.2.2.2.1
  unfold iblk1
  rw [View.read_apply]
  show V c main_v9 _ = V c main_v9 _
  congr 1
  funext a
  apply Fin.ext
  match a with
  | ⟨0, _⟩ => show win1_2.index t (0 : Fin 2) * 4 + 1 * k.val = k.val; rw [e0]; omega
  | ⟨1, _⟩ => show win1_2.index t (1 : Fin 2) * 80000 + 1 * q.val = e.val; rw [e1, he]; omega

private theorem blk1_3_apply (t : Fin cfg1.N) (o : Fin 1) (k : Fin 4) :
    (iblk1 V c 3 t : FVec Ideal S1x4 .bf16) (ix2 o k) = wsm1 V c (ix2 o k) := by
  have e0 : win1_3.index t (0 : Fin 2) = 0 := (idx_facts1 t).2.2.2.2.2.2.1
  have e1 : win1_3.index t (1 : Fin 2) = 0 := (idx_facts1 t).2.2.2.2.2.2.2.1
  unfold iblk1
  rw [View.read_apply]
  show V c main_v51 _ = V c main_v51 _
  congr 1
  funext a
  apply Fin.ext
  match a with
  | ⟨0, _⟩ => show win1_3.index t (0 : Fin 2) * 1 + 1 * o.val = o.val; rw [e0]; omega
  | ⟨1, _⟩ => show win1_3.index t (1 : Fin 2) * 4 + 1 * k.val = k.val; rw [e1]; omega

private theorem blk1_4_apply (t : Fin cfg1.N) (o : Fin 1) (k : Fin 4) :
    (iblk1 V c 4 t : FVec Ideal S1x4 .bf16) (ix2 o k) = wdm1 V c (ix2 o k) := by
  have e0 : win1_4.index t (0 : Fin 2) = 0 := (idx_facts1 t).2.2.2.2.2.2.2.2.1
  have e1 : win1_4.index t (1 : Fin 2) = 0 := (idx_facts1 t).2.2.2.2.2.2.2.2.2.1
  unfold iblk1
  rw [View.read_apply]
  show V c main_v53 _ = V c main_v53 _
  congr 1
  funext a
  apply Fin.ext
  match a with
  | ⟨0, _⟩ => show win1_4.index t (0 : Fin 2) * 1 + 1 * o.val = o.val; rw [e0]; omega
  | ⟨1, _⟩ => show win1_4.index t (1 : Fin 2) * 4 + 1 * k.val = k.val; rw [e1]; omega

private theorem blk1_5_apply (t : Fin cfg1.N) (o : Fin 1) (z : Fin 1) :
    (iblk1 V c 5 t : FVec Ideal S1x1 .f32) (ix2 o z) = bcol1 V c (ix2 o z) := by
  have e0 : win1_5.index t (0 : Fin 2) = 0 := (idx_facts1 t).2.2.2.2.2.2.2.2.2.2.1
  have e1 : win1_5.index t (1 : Fin 2) = 0 := (idx_facts1 t).2.2.2.2.2.2.2.2.2.2.2.1
  unfold iblk1
  rw [View.read_apply]
  show V c main_v56 _ = V c main_v56 _
  congr 1
  funext a
  apply Fin.ext
  match a with
  | ⟨0, _⟩ => show win1_5.index t (0 : Fin 2) * 1 + 1 * o.val = o.val; rw [e0]; omega
  | ⟨1, _⟩ => show win1_5.index t (1 : Fin 2) * 1 + 1 * z.val = z.val; rw [e1]; omega

private theorem blk1_6_apply (t : Fin cfg1.N) (o : Fin 1) (k : Fin 4) :
    (iblk1 V c 6 t : FVec Ideal S1x4 .bf16) (ix2 o k) = wem1 V c (ix2 o k) := by
  have e0 : win1_6.index t (0 : Fin 2) = 0 := (idx_facts1 t).2.2.2.2.2.2.2.2.2.2.2.2.1
  have e1 : win1_6.index t (1 : Fin 2) = 0 := (idx_facts1 t).2.2.2.2.2.2.2.2.2.2.2.2.2.1
  unfold iblk1
  rw [View.read_apply]
  show V c main_v55 _ = V c main_v55 _
  congr 1
  funext a
  apply Fin.ext
  match a with
  | ⟨0, _⟩ => show win1_6.index t (0 : Fin 2) * 1 + 1 * o.val = o.val; rw [e0]; omega
  | ⟨1, _⟩ => show win1_6.index t (1 : Fin 2) * 4 + 1 * k.val = k.val; rw [e1]; omega

private theorem blk1_7_apply (t : Fin cfg1.N) (o : Fin 1) (z : Fin 1) :
    (iblk1 V c 7 t : FVec Ideal S1x1 .f32) (ix2 o z) = becol1 V c (ix2 o z) := by
  have e0 : win1_7.index t (0 : Fin 2) = 0 := (idx_facts1 t).2.2.2.2.2.2.2.2.2.2.2.2.2.2.1
  have e1 : win1_7.index t (1 : Fin 2) = 0 := (idx_facts1 t).2.2.2.2.2.2.2.2.2.2.2.2.2.2.2.1
  unfold iblk1
  rw [View.read_apply]
  show V c main_v57 _ = V c main_v57 _
  congr 1
  funext a
  apply Fin.ext
  match a with
  | ⟨0, _⟩ => show win1_7.index t (0 : Fin 2) * 1 + 1 * o.val = o.val; rw [e0]; omega
  | ⟨1, _⟩ => show win1_7.index t (1 : Fin 2) * 1 + 1 * z.val = z.val; rw [e1]; omega

/-! ## From the blocks to the array -/

/-- What point t writes back is block t of the whole-array function. -/
private theorem flushed1_eq (t : Fin cfg1.N) :
    (dat1 (F := Ideal) V c).flushed 8 t = ((cfg1.win 8).blk t).view.read (Elt Ideal) (G1 V c) := by
  show (cfg1.win 8).cut (grid1.coords t) ((dat1 (F := Ideal) V c).after 8 t) = _
  rw [after1_8]
  unfold out1_8
  rw [View.canon_unit_zero hz1]
  simp only [View.ld_unit_zero (S := S4x80000) hz1, View.ld_unit_zero (S := S1x4) hz1, View.ld_unit_zero (S := S1x1) hz1]
  funext j
  obtain ⟨o, q, rfl⟩ : ∃ (o : Fin 1) (q : Fin 80000), j = (ix2 o q : S1x80000.Idx) := ⟨j 0, j 1, eq_ix2 (n0 := 1) (n1 := 80000) j⟩
  have hN : cfg1.N = 40 := N_1
  have ht : t.val < 40 := hN ▸ t.isLt
  have hq : q.val < 80000 := q.isLt
  have e80 : win1_8.index t (0 : Fin 2) = 0 := (idx_facts1 t).2.2.2.2.2.2.2.2.2.2.2.2.2.2.2.2.1
  have e81 : win1_8.index t (1 : Fin 2) = t.val := (idx_facts1 t).2.2.2.2.2.2.2.2.2.2.2.2.2.2.2.2.2
  obtain ⟨e, he⟩ : ∃ e : Fin EE, e.val = t.val * 80000 + q.val := ⟨⟨t.val * 80000 + q.val, by show _ < 3200000; omega⟩, rfl⟩
  rw [View.read_apply]
  show k1_pay1 (F := Ideal) (iblk1 V c 0 t) (iblk1 V c 1 t) (iblk1 V c 2 t) (iblk1 V c 3 t) (iblk1 V c 4 t) (iblk1 V c 6 t)
        (iblk1 V c 5 t) (iblk1 V c 7 t) (ix2 o q) = _
  refine (pay1_apply (iblk1 V c 0 t) (iblk1 V c 1 t) (iblk1 V c 2 t) (iblk1 V c 3 t) (iblk1 V c 4 t) (iblk1 V c 6 t)
        (iblk1 V c 5 t) (iblk1 V c 7 t) o q).trans ?_
  simp only [blk1_0_apply V c t _ q e he, blk1_1_apply V c t _ q e he, blk1_2_apply V c t _ q e he, blk1_3_apply V c t,
    blk1_4_apply V c t, blk1_5_apply V c t, blk1_6_apply V c t, blk1_7_apply V c t]
  rw [cast_eq]
  have h0 : (((View.whole main_v58).slice ((win1 8).rect t)).emb (ix2 o q) : S1x3200000.Idx) 0 = o :=
    Fin.ext (by show win1_8.index t (0 : Fin 2) * 1 + 1 * o.val = o.val; rw [e80]; omega)
  have h1 : (((View.whole main_v58).slice ((win1 8).rect t)).emb (ix2 o q) : S1x3200000.Idx) 1 = e :=
    Fin.ext (by show win1_8.index t (1 : Fin 2) * 80000 + 1 * q.val = e.val; rw [e81, he]; omega)
  show val1 V c o e = G1 V c _
  exact (congrArg₂ (val1 V c) h0 h1).symm

/-- Every index of the output array lies in the block of some point: edge e in block e / 80000. -/
private theorem cover1 (i : S1x3200000.Idx) :
    ∃ t : Fin cfg1.N, (cfg1.win 8).flush t = true ∧ i ∈ ((cfg1.win 8).blk t).view.set := by
  have hi0 : (i 0).val < 1 := (i 0).isLt
  have hi1 : (i 1).val < 3200000 := (i 1).isLt
  have hN : cfg1.N = 40 := N_1
  obtain ⟨t, htv⟩ : ∃ t : Fin cfg1.N, t.val = (i 1).val / 80000 := ⟨⟨(i 1).val / 80000, by rw [hN]; omega⟩, rfl⟩
  have e80 : win1_8.index t (0 : Fin 2) = 0 := (idx_facts1 t).2.2.2.2.2.2.2.2.2.2.2.2.2.2.2.2.1
  have e81 : win1_8.index t (1 : Fin 2) = t.val := (idx_facts1 t).2.2.2.2.2.2.2.2.2.2.2.2.2.2.2.2.2
  refine ⟨t, flush1_8 t, ?_⟩
  show i ∈ ((View.whole main_v58).slice (win1_8.rect t)).set
  rw [View.set_slice_whole, Rect.mem_set_unit]
  intro a
  match a with
  | ⟨0, _⟩ => show win1_8.index t (0 : Fin 2) * 1 ≤ (i 0).val ∧ (i 0).val < win1_8.index t (0 : Fin 2) * 1 + 1; rw [e80]; omega
  | ⟨1, _⟩ => show win1_8.index t (1 : Fin 2) * 80000 ≤ (i 1).val ∧ (i 1).val < win1_8.index t (1 : Fin 2) * 80000 + 80000; rw [e81, htv]; omega

/-- The output array after the region is the whole-array function. -/
private theorem outArr1_eq : outArr1 V c = G1 V c :=
  (dat1 (F := Ideal) V c).arrAt_eq_of_cover 8 (G1 V c) (fun t _ => flushed1_eq V c t) (cover1)

/-- The output array after the region, at channel o and edge e. -/
theorem reg1_value (o : Fin 1) (e : Fin EE) :
    outArr1 V c (ix2 o e)
      = ((∑ k : Fin 4, wsm1 V c (ix2 o k) * src1 V c (ix2 k e))
          + (∑ k : Fin 4, wdm1 V c (ix2 o k) * dst1 V c (ix2 k e))
          + bcol1 V c (ix2 o (0 : Fin 1)))
        * Ideal.logistic ((∑ j : Fin 4, wem1 V c (ix2 o j) * efs1 V c (ix2 j e))
          + becol1 V c (ix2 o (0 : Fin 1))) :=
  congrFun (outArr1_eq V c) (ix2 o e)

end Cert.KernelIdeal.HandV

end
-- ==== Proof.KvHost2.lean ====
/-
  What the host lines after the second pallas_call leave in the program's result, entry by entry, given what that
  call left in its output array (hout12: the second layer's gated messages): the messages are added into their
  destination nodes (a column scatter-add into zeros; a destination word that is not negative is its own wrapped
  index), rectified, and the one row transposed into a column.
-/
import proofs.«429407_j49014166782254_3_alg».proof.Proof.KvArgs
import proofs.«429407_j49014166782254_3_alg».proof.Proof.Gen.KernelIdeal.Regions
import proofs.«429407_j49014166782254_3_alg».proof.Proof.LibScatterAddCols
import Idealize.ShloMosaic.Lib.Pipeline.Value
import Idealize.ShloMosaic.Lib.ValueLayout
import Idealize.ShloMosaic.PureOps.Ideal.Laws

noncomputable section

namespace Cert.KernelIdeal.HandV

open Cert.KernelIdeal Cert.KernelIdeal.Gen Idealize.ShloMosaic Idealize.ShloMosaic.TcCoe Idealize.ShloMosaic.ValueIdx Idealize.SL.Sem
open Cert.Spec (NN EE)

variable (m : (ℓ : Loc nD τ sig) → Buf (Elt Ideal) ℓ) (outs : Outs (F := Ideal)) (c : Dev nD)
variable (hnn : ∀ e : Fin EE, 0 ≤ ((kargs m c).ei 1 e).toInt)
variable (hout12 : ∀ (e : Fin EE), (outs 12 main_v58 c : S1x3200000.Idx → EReal) (ix2 (0 : Fin 1) e) = Cert.Spec.edge2 (kargs m c) 0 e)

/-! ## What each host stretch leaves in the array it ends on, over any contents before it -/

/-- The last stretch: the transpose of the rectified row. -/
private theorem stretch_transpose (W : Valuation τ sig (Elt Ideal)) :
    (StableHlo.after (hostOps2_2 (F := Ideal)) W main_v68 : S100000x1.Idx → EReal)
      = transpose S100000x1 [1, 0] (W main_v67 : S1x100000.Idx → EReal) transposes_S1x100000_S100000x1_1_0 := by
  after_results

/-- The rectifier: the maximum with a zero row. -/
private theorem stretch_relu (W : Valuation τ sig (Elt Ideal)) :
    (StableHlo.after (hostOps2_1 (F := Ideal)) W main_v67 : S1x100000.Idx → EReal)
      = maximumf (W main_v66 : S1x100000.Idx → EReal)
          (broadcastInDim S1x100000 ![] bcast_S_S1x100000 (constant (F := Ideal) S_ .f32 0x00000000#32)) := by
  after_results
  rfl

/-- The scatter stretch: the messages added into a zero row at the wrapped destination words, as a column. -/
private theorem stretch_scatter (W : Valuation τ sig (Elt Ideal)) :
    (StableHlo.after (hostOps2 (F := Ideal)) W main_v66 : S1x100000.Idx → EReal)
      = Host.scatterAdd (F := Ideal) scatter_S1x100000_S3200000x1_S1x3200000_0_1_1_1
          (broadcastInDim S1x100000 ![] bcast_S_S1x100000 (constant (F := Ideal) S_ .f32 0x00000000#32))
          (broadcastInDim S3200000x1 ![0] bcast_S3200000_S3200000x1_0
            (select
              (cmpi .slt (W main_v3 : S3200000.Idx → BitVec 32)
                (broadcastInDim S3200000 ![] bcast_S_S3200000 (constantI S_ 32 0#32)))
              (addi (W main_v3 : S3200000.Idx → BitVec 32)
                (broadcastInDim S3200000 ![] bcast_S_S3200000 (constantI S_ 32 100000#32)))
              (W main_v3 : S3200000.Idx → BitVec 32)))
          (W main_v58 : S1x3200000.Idx → EReal) := by
  after_results_simp

/-- The first stretch leaves in the destination array row 1 of the index array, flattened. -/
private theorem stretch_dst (W : Valuation τ sig (Elt Ideal)) :
    (StableHlo.after (hostOps0 (F := Ideal)) W main_v3 : S3200000.Idx → BitVec 32)
      = shapeCast S3200000
          (extractStridedSlice S1x3200000 ![1, 0] (W main_arg0 : S2x3200000.Idx → BitVec 32) slices_S2x3200000_S1x3200000_1_0)
          shapeCasts_S1x3200000_S3200000 := by
  after_results_simp
  rfl

/-! ## Single operations read at an index -/

/-- A scalar broadcast to any shape reads the scalar everywhere. -/
private theorem bcast_scalar_apply {α : Type} {t : Shape} (dims : Fin S_.rank → Fin t.rank) (h : S_.BroadcastsInDim t dims)
    (x : S_.Idx → α) (j : t.Idx) : broadcastInDim t dims h x j = x ix0 :=
  broadcastInDim_apply dims h x j ix0 (fun a => a.elim0)

/-- A vector laid out as a column reads, at (e, 0), the vector at e. -/
private theorem bcast_col_apply {α : Type} (x : S3200000.Idx → α) (e : Fin EE) :
    broadcastInDim S3200000x1 ![0] bcast_S3200000_S3200000x1_0 x (ix2 e (0 : Fin 1)) = x (ix1 e) :=
  broadcastInDim_apply _ _ x _ (ix1 e) (fun a => match a with | ⟨0, _⟩ => rfl)

/-- A word that is not negative read signed is its own wrapped index. -/
private theorem wrap_of_nonneg (w k : BitVec 32) (hw : 0 ≤ w.toInt) :
    Scalar.select (IntOp.cmpi .slt w 0#32) k w = w := by
  have h0 : IntOp.cmpi .slt w 0#32 = 0#1 := by
    unfold IntOp.cmpi
    have : w.slt 0#32 = false := by
      simp only [BitVec.slt, BitVec.toInt_zero, decide_eq_false_iff_not, not_lt]
      exact hw
    rw [this]; rfl
  rw [h0, select_zero]

/-- At the exact instance the host's accumulating scatter is the exact sum. -/
private theorem scatterAdd_ideal {s si su : Shape} {w : Nat} (d : ScatterDims s si su) (x : s.Idx → EReal) (idx : IVec si w)
    (upd : su.Idx → EReal) :
    Host.scatterAdd (F := Ideal) (φ := .f32) d x idx upd = Ideal.hostScatterAdd d x idx upd := rfl

/-- The wrapped destination column reads, at (e, 0), the destination word of e when that word is not negative. -/
private theorem wrapped_apply (d : S3200000.Idx → BitVec 32) (e : Fin EE) (hd : 0 ≤ (d (ix1 e)).toInt) :
    broadcastInDim S3200000x1 ![0] bcast_S3200000_S3200000x1_0
        (select
          (cmpi .slt d (broadcastInDim S3200000 ![] bcast_S_S3200000 (constantI S_ 32 0#32)))
          (addi d (broadcastInDim S3200000 ![] bcast_S_S3200000 (constantI S_ 32 100000#32)))
          d)
        (ix2 e (0 : Fin 1)) = d (ix1 e) := by
  rw [bcast_col_apply, select_apply]
  have hc : cmpi .slt d (broadcastInDim S3200000 ![] bcast_S_S3200000 (constantI S_ 32 0#32)) (ix1 e)
      = IntOp.cmpi .slt (d (ix1 e)) 0#32 := by
    show IntOp.cmpi .slt (d (ix1 e)) (broadcastInDim S3200000 ![] bcast_S_S3200000 (constantI S_ 32 0#32) (ix1 e)) = _
    rw [bcast_scalar_apply]
    rfl
  rw [hc]
  exact wrap_of_nonneg _ _ hd

/-! ## The arrays the scatter stretch reads -/

/-- The destination words the scatter stretch reads are row 1 of the index array: the first stretch wrote them, nothing
    after it did. -/
private theorem dst_apply (e : Fin EE) :
    (V12 (F := Ideal) m outs c main_v3 : S3200000.Idx → BitVec 32) (ix1 e) = (kargs m c).ei 1 e := by
  have h : (V12 (F := Ideal) m outs c main_v3 : S3200000.Idx → BitVec 32) = (V1 (F := Ideal) m c main_v3 : S3200000.Idx → BitVec 32) :=
    (V12_of m outs c main_v3 (by decide)).trans <| (V11_of m outs c main_v3 (by decide)).trans <|
    (V10_of m outs c main_v3 (by decide)).trans <| (V9_of m outs c main_v3 (by decide)).trans <|
    (V8_of m outs c main_v3 (by decide)).trans <| (V7_of m outs c main_v3 (by decide)).trans <|
    (V6_of m outs c main_v3 (by decide)).trans <| (V5_of m outs c main_v3 (by decide)).trans <|
    (V4_of m c main_v3 (by decide)).trans <| (V3_of m c main_v3 (by decide)).trans <| (V2_of m c main_v3 (by decide))
  refine (congrFun h (ix1 e)).trans ?_
  refine (congrFun (stretch_dst (V0 m c)) (ix1 e)).trans ?_
  refine (shapeCast_apply _ _ (ix1 e) (ix2 (0 : Fin 1) e) ?_).trans ?_
  · rw [Shape.rowMajor_val_two, Shape.rowMajor_val_one]; show 0 * 3200000 + e.val = e.val; omega
  refine (extractStridedSlice_apply _ _ _ (ix2 (0 : Fin 1) e) (ix2 (1 : Fin 2) e) ?_).trans ?_
  · intro a
    match a with
    | ⟨0, _⟩ => rfl
    | ⟨1, _⟩ => show e.val = 0 + e.val; omega
  rfl

/-- The second region's array is what it left there. -/
private theorem msg_eq :
    (V12 (F := Ideal) m outs c main_v58 : S1x3200000.Idx → EReal) = (outs 12 main_v58 c : S1x3200000.Idx → EReal) :=
  Function.update_self ..

include hnn hout12 in
/-- The program's result at node n. -/
theorem v68_apply (n : Fin NN) :
    (V15 (F := Ideal) m outs c main_v68 : S100000x1.Idx → EReal) (ix2 n (0 : Fin 1)) = Cert.Spec.out (kargs m c) n := by
  -- the transpose
  refine (congrFun (stretch_transpose (V14 (F := Ideal) m outs c)) (ix2 n (0 : Fin 1))).trans ?_
  refine (transpose_ix2_apply _ _ n (0 : Fin 1)).trans ?_
  -- the rectifier
  refine (congrFun (stretch_relu (V13 (F := Ideal) m outs c)) (ix2 (0 : Fin 1) n)).trans ?_
  rw [maximumf_apply, bcast_scalar_apply, constant_apply, Ideal.ofBits_zero_f32]
  -- the scatter
  have hs : (V13 (F := Ideal) m outs c main_v66 : S1x100000.Idx → EReal) (ix2 (0 : Fin 1) n)
      = 0 + ∑ e ∈ Finset.univ.filter (Cert.Spec.lands (kargs m c) n), Cert.Spec.edge2 (kargs m c) 0 e := by
    refine (congrFun (stretch_scatter (V12 (F := Ideal) m outs c)) (ix2 (0 : Fin 1) n)).trans ?_
    refine (congrFun (scatterAdd_ideal _ _ _ _) (ix2 (0 : Fin 1) n)).trans ?_
    refine (Cert.LibScatterAddCols.scatterAdd_cols_apply scatter_S1x100000_S3200000x1_S1x3200000_0_1_1_1 rfl rfl rfl rfl
      _ _ _ (0 : Fin 1) n).trans ?_
    refine congrArg₂ (· + ·) ?_ (Finset.sum_congr (Finset.filter_congr fun e _ => ?_) fun e _ => ?_)
    · rw [bcast_scalar_apply, constant_apply, Ideal.ofBits_zero_f32]
    · rw [wrapped_apply _ e (by rw [dst_apply]; exact hnn e), dst_apply]
      exact Iff.rfl
    · exact (congrFun (msg_eq m outs c) (ix2 (0 : Fin 1) e)).trans (hout12 e)
  rw [hs, Cert.Spec.out]

end Cert.KernelIdeal.HandV

end
-- ==== Proof.KvAll.lean ====
/-
  The kernel program's result, entry by entry, at the exact instance: the specification's transposed arrangement.

  What the first pallas_call leaves in its output array is, by the region's value and the entries of its operands,
  the first layer's gated messages; the host lines between the calls turn them into the second call's operands; what
  the second call leaves is the second layer's gated messages; the last host lines add them into their destination
  nodes, rectify and transpose.  The index words are not negative, so the wrap of negative indices in the host's
  scatters is the identity.
-/
import proofs.«429407_j49014166782254_3_alg».proof.Proof.KiRun
import proofs.«429407_j49014166782254_3_alg».proof.Proof.KvHost0
import proofs.«429407_j49014166782254_3_alg».proof.Proof.KvReg0
import proofs.«429407_j49014166782254_3_alg».proof.Proof.KvHost1
import proofs.«429407_j49014166782254_3_alg».proof.Proof.KvReg1
import proofs.«429407_j49014166782254_3_alg».proof.Proof.KvHost2

noncomputable section

namespace Cert.KernelIdeal.HandV

open Cert.KernelIdeal Cert.KernelIdeal.Gen Cert.KernelIdeal.Hand Idealize.ShloMosaic Idealize.ShloMosaic.TcCoe Idealize.ShloMosaic.ValueIdx Idealize.SL.Sem
open Cert.Spec (NN EE)

variable (m : (ℓ : Loc nD τ sig) → Buf (Elt Ideal) ℓ) (c : Dev nD)

/-- The first call's output array after the region is the first layer's gated messages. -/
theorem left5 (o : Fin 3) (e : Fin EE) :
    outArr0 (Ve0 m) c (ix2 o e) = Cert.Spec.edge1 (kargs m c) o e := by
  rw [reg0_value]
  unfold Cert.Spec.edge1
  simp only [wsm0, wdm0, src0, dst0, bcol0, wem0, efs0, becol0, Ve0, v14_apply m c, v15_apply m c, v9_apply m c, v23_apply m c,
    v25_apply m c, v28_apply m c, v27_apply m c, v29_apply m c]

theorem out5A (o : Fin 3) (e : Fin EE) :
    (outsA (F := Ideal) m 5 main_v30 c : S3x3200000.Idx → EReal) (ix2 o e) = Cert.Spec.edge1 (kargs m c) o e := by
  show (X5 m c (Proc.devRef .tc (Pipeline.arrRef spec0 8)) : S3x3200000.Idx → EReal) (ix2 o e) = _
  rw [X5_arr]
  exact left5 m c o e

variable (hnn : ∀ e : Fin EE, 0 ≤ ((kargs m c).ei 1 e).toInt)

include hnn in
/-- The second call's output array after the region is the second layer's gated messages. -/
theorem left12 (e : Fin EE) :
    outArr1 (Ve1 m) c (ix2 (0 : Fin 1) e) = Cert.Spec.edge2 (kargs m c) 0 e := by
  rw [reg1_value]
  unfold Cert.Spec.edge2
  simp only [wsm1, wdm1, src1, dst1, bcol1, wem1, efs1, becol1, Ve1,
    v42_apply m (outsA m) c hnn (out5A m c), v43_apply m (outsA m) c hnn (out5A m c), v9_apply' m (outsA m) c,
    v51_apply m (outsA m) c, v53_apply m (outsA m) c, v56_apply m (outsA m) c, v55_apply m (outsA m) c, v57_apply m (outsA m) c]

include hnn in
theorem out12 (e : Fin EE) :
    (outsF (F := Ideal) m 12 main_v58 c : S1x3200000.Idx → EReal) (ix2 (0 : Fin 1) e) = Cert.Spec.edge2 (kargs m c) 0 e := by
  rw [outsF_12]
  show (X12 m c (Proc.devRef .tc (Pipeline.arrRef spec1 8)) : S1x3200000.Idx → EReal) (ix2 (0 : Fin 1) e) = _
  rw [X12_arr]
  exact left12 m c hnn e

include hnn in
/-- The kernel program's result at node n. -/
theorem kernel_value (n : Fin NN) :
    (V15 (F := Ideal) m (outsF m) c (Proc.devRef .tc main_v68) : S100000x1.Idx → EReal) (ix2 n (0 : Fin 1)) = Cert.Spec.out (kargs m c) n :=
  v68_apply m (outsF m) c hnn (out12 m c hnn) n

end Cert.KernelIdeal.HandV

end
-- ==== Proof.LibHostIdx.lean ====
/-
  Host integer operations read at an index: the running sum, the sum over an axis, and the take at a
  column of start indices.

  * A `reduce_window` with the word addition whose window is a whole axis, padded low by the axis' length less one and
    started from zero, is the INCLUSIVE RUNNING SUM along that axis: at position `i` the sum of the entries at positions
    `i' ≤ i` (`reduceWindow_cumsum_rows` along axis 0 of a rank-2 array, `reduceWindow_cumsum` for a rank-1 array); if
    the entries are the words of natural numbers, it is the word of their sum (`…_ofNat`).
  * A `reduce` with the word addition from zero over axis 1 of a rank-2 array is, at row `r`, the sum of row `r`
    (`reduce_add_cols`); over the one axis of a rank-1 array it is the sum of all entries (`reduce_add_all`).
  * A gather from a rank-1 operand whose start indices are an `[R, 1]` column, the operand's axis collapsed and
    start-indexed, reads at `r` the operand at the start index of `r` read signed and clamped into the operand
    (`gather_take_ix`).
-/
import Idealize.ShloMosaic.PureOps.Reduce
import Idealize.ShloMosaic.Lib.ValueIdx
import Idealize.ShloMosaic.Lib.ValueIdxRank1
import Idealize.ShloMosaic.Lib.StableHlo.Predicate
import Mathlib.Data.BitVec

open scoped BigOperators

namespace Idealize.ShloMosaic.HostIdx

open Idealize.ShloMosaic Idealize.ShloMosaic.ValueIdx

/-! ## Sums of words -/

/-- A left fold of the word addition over a list is the start plus the sum of the list's terms. -/
theorem foldl_addi_eq {ι : Type} {w : Nat} (g : ι → BitVec w) :
    ∀ (l : List ι) (a : BitVec w), l.foldl (fun r n => IntOp.addi r (g n)) a = a + (l.map g).sum
  | [], a => by simp
  | n :: l, a => by
    rw [List.foldl_cons, foldl_addi_eq g l, List.map_cons, List.sum_cons, show IntOp.addi a (g n) = a + g n from rfl,
      add_assoc]

/-- The word of a finite sum of natural numbers is the sum of their words. -/
theorem ofNat_sum {ι : Type} {w : Nat} (S : Finset ι) (f : ι → ℕ) :
    BitVec.ofNat w (∑ i ∈ S, f i) = ∑ i ∈ S, BitVec.ofNat w (f i) := by
  classical
  induction S using Finset.cons_induction with
  | empty => simp
  | cons a S ha ih => rw [Finset.sum_cons, Finset.sum_cons, BitVec.ofNat_add, ih]

/-- A window of `P + 1` terms ending at position `i ≤ P` of a sequence padded low by `P` zeros sums the sequence's
    terms at the positions up to `i`. -/
theorem window_sum_eq_prefix {M : Type} [AddCommMonoid M] (P i : ℕ) (hi : i ≤ P) (f : ℕ → M) :
    ∑ a ∈ Finset.range (P + 1), (if P ≤ i + a then f (i + a - P) else 0) = ∑ k ∈ Finset.range (i + 1), f k := by
  rw [← Finset.sum_filter]
  refine Finset.sum_nbij' (fun a => i + a - P) (fun k => k + P - i) ?_ ?_ ?_ ?_ ?_
  · intro a ha
    simp only [Finset.mem_filter, Finset.mem_range] at ha
    simp only [Finset.mem_range]; omega
  · intro k hk
    simp only [Finset.mem_range] at hk
    simp only [Finset.mem_filter, Finset.mem_range]; omega
  · intro a ha
    simp only [Finset.mem_filter, Finset.mem_range] at ha
    show i + a - P + P - i = a
    omega
  · intro k hk
    simp only [Finset.mem_range] at hk
    show i + (k + P - i) - P = k
    omega
  · intro a _; rfl

/-- The same over `Fin (P + 1)`: the window ending at `i` sums the terms at the positions `i' ≤ i`. -/
theorem sum_window_fin {M : Type} [AddCommMonoid M] (P : ℕ) (i : Fin (P + 1)) (y : Fin (P + 1) → M) :
    ∑ a : Fin (P + 1), (if h : P ≤ i.val + a.val then y ⟨i.val + a.val - P, by omega⟩ else 0)
      = ∑ i' ∈ Finset.univ.filter (fun i' : Fin (P + 1) => i' ≤ i), y i' := by
  classical
  -- the sequence continued by zero past its end
  let yy : ℕ → M := fun m => if h : m < P + 1 then y ⟨m, h⟩ else 0
  have hyy : ∀ i' : Fin (P + 1), y i' = yy i'.val := fun i' => by
    show y i' = if h : i'.val < P + 1 then y ⟨i'.val, h⟩ else 0
    rw [dif_pos i'.isLt]
  have e1 : ∑ a : Fin (P + 1), (if h : P ≤ i.val + a.val then y ⟨i.val + a.val - P, by omega⟩ else 0)
      = ∑ a ∈ Finset.range (P + 1), (if P ≤ i.val + a then yy (i.val + a - P) else 0) := by
    rw [← Fin.sum_univ_eq_sum_range (fun a : ℕ => if P ≤ i.val + a then yy (i.val + a - P) else 0) (P + 1)]
    refine Finset.sum_congr rfl fun a _ => ?_
    by_cases hc : P ≤ i.val + a.val
    · rw [dif_pos hc, if_pos hc, hyy]
    · rw [dif_neg hc, if_neg hc]
  have e2 : ∑ i' ∈ Finset.univ.filter (fun i' : Fin (P + 1) => i' ≤ i), y i'
      = ∑ m ∈ Finset.range (P + 1), (if m ≤ i.val then yy m else 0) := by
    rw [← Fin.sum_univ_eq_sum_range (fun m : ℕ => if m ≤ i.val then yy m else 0) (P + 1), Finset.sum_filter]
    refine Finset.sum_congr rfl fun i' _ => ?_
    rw [hyy i']; rfl
  rw [e1, e2, window_sum_eq_prefix P i.val (by omega) yy, ← Finset.sum_filter]
  refine Finset.sum_congr ?_ fun _ _ => rfl
  ext m
  simp only [Finset.mem_range, Finset.mem_filter]
  omega

/-- A set fold of the word addition from zero is the sum. -/
theorem fold_addi_eq_sum {ι : Type} {w : Nat} (S : Finset ι) (f : ι → BitVec w) :
    S.fold IntOp.addi 0 f = ∑ i ∈ S, f i := by
  classical
  induction S using Finset.cons_induction with
  | empty => simp
  | cons a S ha ih => rw [Finset.fold_cons, Finset.sum_cons, ih]; rfl

/-- THE RUNNING SUM ALONG AXIS 0 of an `[R, C]` array: the `reduce_window` with window `[R, 1]`, strides one, low padding
    `[P, 0]` with `P + 1 = R`, from zero, reads at `(i, e)` the sum of column `e` over the rows `i' ≤ i`. -/
theorem reduceWindow_cumsum_rows {R C P w : Nat} {u : Shape} (hP : P + 1 = R)
    (x : IVec ⟨2, ![R, C]⟩ w) (init : IVec u w)
    (h : (⟨2, ![R, C]⟩ : Shape).ReduceWindows (![R, 1] : Fin 2 → Nat) ![1, 1] ![P, 0] ![0, 0] ⟨2, ![R, C]⟩)
    (hu : 0 < u.numel) (h0 : ∀ k, init k = 0) (i : Fin R) (e : Fin C) :
    Host.reduceWindow IntOp.addi (![R, 1] : Fin 2 → Nat) ![1, 1] ![P, 0] ![0, 0] x init h hu (ix2 i e)
      = ∑ i' ∈ Finset.univ.filter (fun i' : Fin R => i' ≤ i), x (ix2 i' e) := by
  classical
  subst hP
  unfold Host.reduceWindow
  dsimp only
  rw [foldl_addi_eq, h0, zero_add, ← Fin.sum_univ_def, ← Equiv.sum_comp (Shape.rowMajor _)]
  simp only [Equiv.symm_apply_apply]
  rw [sum_idx2, ← sum_window_fin P i fun i' => x (ix2 i' e)]
  refine Finset.sum_congr rfl fun a _ => ?_
  rw [Fin.sum_univ_one]
  split_ifs with h1 h2 h2
  · congr 1
    funext a_1
    match a_1 with
    | ⟨0, _⟩ => exact Fin.ext (show i.val * 1 + a.val - P = i.val + a.val - P by omega)
    | ⟨1, _⟩ => exact Fin.ext (show e.val * 1 + 0 - 0 = e.val by omega)
  · have t : P ≤ i.val * 1 + a.val := (h1 0).1
    exact absurd (by omega) h2
  · refine absurd (fun a_1 => ?_) h1
    match a_1 with
    | ⟨0, _⟩ => exact ⟨show P ≤ i.val * 1 + a.val by omega, show i.val * 1 + a.val - P < P + 1 by omega⟩
    | ⟨1, _⟩ => exact ⟨show 0 ≤ e.val * 1 + 0 by omega, show e.val * 1 + 0 - 0 < C by have := e.isLt; omega⟩
  · rfl

/-- The running sum along axis 0 of words of natural numbers is the word of the running sum. -/
theorem reduceWindow_cumsum_rows_ofNat {R C P w : Nat} {u : Shape} (hP : P + 1 = R)
    (x : IVec ⟨2, ![R, C]⟩ w) (init : IVec u w)
    (h : (⟨2, ![R, C]⟩ : Shape).ReduceWindows (![R, 1] : Fin 2 → Nat) ![1, 1] ![P, 0] ![0, 0] ⟨2, ![R, C]⟩)
    (hu : 0 < u.numel) (h0 : ∀ k, init k = 0) (i : Fin R) (e : Fin C)
    (f : Fin R → ℕ) (hx : ∀ i', x (ix2 i' e) = BitVec.ofNat w (f i')) :
    Host.reduceWindow IntOp.addi (![R, 1] : Fin 2 → Nat) ![1, 1] ![P, 0] ![0, 0] x init h hu (ix2 i e)
      = BitVec.ofNat w (∑ i' ∈ Finset.univ.filter (fun i' : Fin R => i' ≤ i), f i') := by
  rw [reduceWindow_cumsum_rows hP x init h hu h0 i e, ofNat_sum]
  exact Finset.sum_congr rfl fun i' _ => hx i'

/-- THE RUNNING SUM of a rank-1 array of length `N`: the `reduce_window` with window `[N]`, stride one, low padding
    `[P]` with `P + 1 = N`, from zero, reads at `i` the sum of the entries at positions `i' ≤ i`. -/
theorem reduceWindow_cumsum {N P w : Nat} {u : Shape} (hP : P + 1 = N)
    (x : IVec ⟨1, ![N]⟩ w) (init : IVec u w)
    (h : (⟨1, ![N]⟩ : Shape).ReduceWindows (![N] : Fin 1 → Nat) ![1] ![P] ![0] ⟨1, ![N]⟩)
    (hu : 0 < u.numel) (h0 : ∀ k, init k = 0) (i : Fin N) :
    Host.reduceWindow IntOp.addi (![N] : Fin 1 → Nat) ![1] ![P] ![0] x init h hu (ix1 i)
      = ∑ i' ∈ Finset.univ.filter (fun i' : Fin N => i' ≤ i), x (ix1 i') := by
  classical
  subst hP
  unfold Host.reduceWindow
  dsimp only
  rw [foldl_addi_eq, h0, zero_add, ← Fin.sum_univ_def, ← Equiv.sum_comp (Shape.rowMajor _)]
  simp only [Equiv.symm_apply_apply]
  rw [← Equiv.sum_comp (idxEquiv1 (n := P + 1)).symm, ← sum_window_fin P i fun i' => x (ix1 i')]
  refine Finset.sum_congr rfl fun a _ => ?_
  split_ifs with h1 h2 h2
  · congr 1
    funext a_1
    obtain rfl : a_1 = 0 := Subsingleton.elim _ _
    exact Fin.ext (show i.val * 1 + a.val - P = i.val + a.val - P by omega)
  · have t : P ≤ i.val * 1 + a.val := (h1 0).1
    exact absurd (by omega) h2
  · refine absurd (fun a_1 => ?_) h1
    obtain rfl : a_1 = 0 := Subsingleton.elim _ _
    exact ⟨show P ≤ i.val * 1 + a.val by omega, show i.val * 1 + a.val - P < P + 1 by omega⟩
  · rfl

/-- The running sum of a rank-1 array of words of natural numbers is the word of the running sum. -/
theorem reduceWindow_cumsum_ofNat {N P w : Nat} {u : Shape} (hP : P + 1 = N)
    (x : IVec ⟨1, ![N]⟩ w) (init : IVec u w)
    (h : (⟨1, ![N]⟩ : Shape).ReduceWindows (![N] : Fin 1 → Nat) ![1] ![P] ![0] ⟨1, ![N]⟩)
    (hu : 0 < u.numel) (h0 : ∀ k, init k = 0) (i : Fin N)
    (f : Fin N → ℕ) (hx : ∀ i', x (ix1 i') = BitVec.ofNat w (f i')) :
    Host.reduceWindow IntOp.addi (![N] : Fin 1 → Nat) ![1] ![P] ![0] x init h hu (ix1 i)
      = BitVec.ofNat w (∑ i' ∈ Finset.univ.filter (fun i' : Fin N => i' ≤ i), f i') := by
  rw [reduceWindow_cumsum hP x init h hu h0 i, ofNat_sum]
  exact Finset.sum_congr rfl fun i' _ => hx i'

/-- THE SUM OVER AXIS 1 of an `[R, C]` array of words, from zero, reads at `r` the sum of row `r`. -/
theorem reduce_add_cols {R C w : Nat} {u : Shape} (x : IVec ⟨2, ![R, C]⟩ w) (init : IVec u w)
    (h : (⟨2, ![R, C]⟩ : Shape).ReducesTo [1] ⟨1, ![R]⟩) (hu : 0 < u.numel) (h0 : ∀ k, init k = 0) (r : Fin R) :
    Host.reduce IntOp.addi x init h hu (ix1 r) = ∑ q : Fin C, x (ix2 r q) := by
  classical
  rw [Host.reduce_eq_fold, h0, fold_addi_eq_sum]
  -- the indices dropping to `r` are row `r`: reindex them by their column
  have hdrop : ∀ i : (⟨2, ![R, C]⟩ : Shape).Idx, h.drop i = ix1 r ↔ i 0 = r := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![R, C]⟩ : Shape).Idx, i 0 = r → ix2 r (i 1) = i := fun i h0 => by
    funext b; match b with
    | ⟨0, _⟩ => exact h0.symm
    | ⟨1, _⟩ => rfl
  refine Finset.sum_bij' (fun i _ => i 1) (fun q _ => ix2 r q) (fun _ _ => Finset.mem_univ _)
    (fun q _ => Finset.mem_filter.2 ⟨Finset.mem_univ _, (hdrop _).2 rfl⟩)
    (fun i hi => hback i ((hdrop i).1 (Finset.mem_filter.1 hi).2)) (fun _ _ => rfl) ?_
  intro i hi
  exact (congrArg x (hback i ((hdrop i).1 (Finset.mem_filter.1 hi).2))).symm

/-- The sum over axis 1 of words of natural numbers is the word of the row's sum. -/
theorem reduce_add_cols_ofNat {R C w : Nat} {u : Shape} (x : IVec ⟨2, ![R, C]⟩ w) (init : IVec u w)
    (h : (⟨2, ![R, C]⟩ : Shape).ReducesTo [1] ⟨1, ![R]⟩) (hu : 0 < u.numel) (h0 : ∀ k, init k = 0) (r : Fin R)
    (f : Fin C → ℕ) (hx : ∀ q, x (ix2 r q) = BitVec.ofNat w (f q)) :
    Host.reduce IntOp.addi x init h hu (ix1 r) = BitVec.ofNat w (∑ q : Fin C, f q) := by
  rw [reduce_add_cols x init h hu h0 r, ofNat_sum]
  exact Finset.sum_congr rfl fun q _ => hx q

/-- THE SUM OF ALL ENTRIES of a rank-1 array of words, from zero: the scalar result is the sum of the entries. -/
theorem reduce_add_all {N w : Nat} {u : Shape} (x : IVec ⟨1, ![N]⟩ w) (init : IVec u w)
    (h : (⟨1, ![N]⟩ : Shape).ReducesTo [0] ⟨0, ![]⟩) (hu : 0 < u.numel) (h0 : ∀ k, init k = 0)
    (j : (⟨0, ![]⟩ : Shape).Idx) :
    Host.reduce IntOp.addi x init h hu j = ∑ k : Fin N, x (ix1 k) := by
  classical
  rw [Host.reduce_eq_fold, h0, fold_addi_eq_sum,
    Finset.filter_true_of_mem fun i _ => (funext fun a => a.elim0 : h.drop i = j),
    ← Equiv.sum_comp (idxEquiv1 (n := N)).symm]
  rfl

/-- The sum of all entries of words of natural numbers is the word of the sum. -/
theorem reduce_add_all_ofNat {N w : Nat} {u : Shape} (x : IVec ⟨1, ![N]⟩ w) (init : IVec u w)
    (h : (⟨1, ![N]⟩ : Shape).ReducesTo [0] ⟨0, ![]⟩) (hu : 0 < u.numel) (h0 : ∀ k, init k = 0)
    (j : (⟨0, ![]⟩ : Shape).Idx) (f : Fin N → ℕ) (hx : ∀ k, x (ix1 k) = BitVec.ofNat w (f k)) :
    Host.reduce IntOp.addi x init h hu j = BitVec.ofNat w (∑ k : Fin N, f k) := by
  rw [reduce_add_all x init h hu h0 j, ofNat_sum]
  exact Finset.sum_congr rfl fun k _ => hx k

/-- THE TAKE at an `[R, 1]` column of start indices: a gather from a rank-1 operand whose one axis is collapsed and
    start-indexed, the index vector on axis 1, reads at `r` the operand at the start index of `r`, read signed and
    clamped into `[0, N − 1]`. -/
theorem gather_take_ix {α : Type} {N R w : Nat} (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![R, 1]⟩ w) (r : Fin R) :
    Host.gather d x idx (ix1 r) = x (ix1 ⟨min (idx (ix2 r 0)).toInt.toNat (N - 1), by omega⟩) := by
  have e1 : (Shape.Idx.ofFin r : (⟨1, ![R]⟩ : Shape).Idx) = ix1 r := by
    funext a; obtain rfl : a = 0 := Subsingleton.elim _ _; rfl
  have e2 : (StableHlo.Predicate.ixP r : (⟨2, ![R, 1]⟩ : Shape).Idx) = ix2 r 0 := by
    funext a; match a with
    | ⟨0, _⟩ => rfl
    | ⟨1, _⟩ => rfl
  have h := StableHlo.Predicate.gather_take d hcoll hob hsim hivd x idx r hN
  rw [e1] at h
  refine h.trans (congrArg x ?_)
  funext a; obtain rfl : a = 0 := Subsingleton.elim _ _
  refine Fin.ext ?_
  show min (idx (StableHlo.Predicate.ixP r)).toInt.toNat (N - 1) = min (idx (ix2 r 0)).toInt.toNat (N - 1)
  rw [e2]

end Idealize.ShloMosaic.HostIdx
-- ==== Proof.LibHostIdx2.lean ====
import Idealize.ShloMosaic.PureOps
import Idealize.ShloMosaic.Lib.ValueIdx

/-!
# A row gather and a one-axis scatter, read at an index

Two host operations on tables of rows, each read at one index of its result.

* The ROW GATHER `y[r, :] = x[idx[r], :]` of an operand `x : [N, C]` at a column of start
  indices `idx : [R, 1]`: result element `(r, q)` is `x` at row `idx[r, 0]`, that word read as a
  signed integer and clamped into `[0, N − 1]`, and column `q`.
* The SCATTER `y = x.at[idx].set(u)` of updates `u : [R]` into an operand `x : [N]` at a column
  of indices `idx : [R, 1]`.  The operation is a left fold over the updates in order: update `r`
  replaces the element at position `idx[r, 0]` (read signed, not clamped; dropped when outside
  `[0, N)`).  The value left at a position is that of the LAST update that lands there.  When
  the indices are the words of an injective map `p` into `[0, N)`, exactly one update lands at
  `p r`, namely update `r`, so no later step of the fold touches that position again and the
  order in which the fold visits the updates does not matter: the result at `p r` is `u r`, and
  a position no `p r` equals keeps the operand's element.
-/

namespace Idealize.ShloMosaic.HostIdx2

open Idealize.ShloMosaic Idealize.ShloMosaic.ValueIdx

/-! ## Words of small numbers -/

/-- The word of a number below half the word range reads back, signed, as that number. -/
theorem toInt_ofNat_of_lt {w k : Nat} (hk : 2 * k < 2 ^ w) : (BitVec.ofNat w k).toInt = (k : Int) := by
  rw [BitVec.toInt_eq_toNat_cond, BitVec.toNat_ofNat]
  have h1 : k % 2 ^ w = k := Nat.mod_eq_of_lt (by omega)
  rw [h1, if_pos hk]

/-! ## The row gather -/

/-- THE ROW GATHER READ AT `(r, q)`: the operand at row `idx[r, 0]`, read signed and clamped into
    `[0, N − 1]`, and column `q`. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    show GatherDims.start _ (ix2 r q) idx 0 + GatherDims.batchCoord _ (ix2 r q) 0
      + GatherDims.offCoord _ (ix2 r q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩)
        ⟨[1], [0], [], [], [0], 1, ![1, C], wf⟩ (ix2 r q)
        ⟨List.idxOf (0 : Fin 2) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl
  | ⟨1, _⟩ =>
    show GatherDims.start _ (ix2 r q) idx 1 + GatherDims.batchCoord _ (ix2 r q) 1
      + GatherDims.offCoord _ (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The row gather at a start index that is the word of a row number `k < N`: row `k`. -/
theorem gather_rows_apply_of_eq {α : Type} {N R C w : Nat}
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) (hNw : 2 * N ≤ 2 ^ w)
    (x : (⟨2, ![N, C]⟩ : Shape).Idx → α) (idx : IVec ⟨2, ![R, 1]⟩ w) (r : Fin R) (q : Fin C)
    (k : Nat) (hk : k < N) (hidx : idx (ix2 r (0 : Fin 1)) = BitVec.ofNat w k) :
    Host.gather d x idx (ix2 r q) = x (ix2 ⟨k, hk⟩ q) := by
  rw [gather_rows_apply (by omega) d hod hcd hob hsb hsim hiv hss]
  congr 2
  refine Fin.ext ?_
  show min (idx (ix2 r (0 : Fin 1))).toInt.toNat (N - 1) = k
  rw [hidx, toInt_ofNat_of_lt (by omega)]
  simp only [Int.toNat_natCast]
  omega

/-! ## The scatter -/

/-- A left fold of point writes: a position that holds `c`, and at which every writer in the list
    writes `c`, holds `c` after the fold. -/
theorem foldl_set_inv {ι κ α : Type} [DecidableEq κ] (g : ι → κ) (v : ι → α) (k : κ) (c : α) :
    ∀ (l : List ι) (r : κ → α), (∀ n ∈ l, g n = k → v n = c) → r k = c →
      (l.foldl (fun r n => fun i' => if i' = g n then v n else r i') r) k = c
  | [], _, _, h => h
  | a :: l, r, hl, h => by
    rw [List.foldl_cons]
    refine foldl_set_inv g v k c l _ (fun n hn => hl n (List.mem_cons_of_mem _ hn)) ?_
    show (if k = g a then v a else r k) = c
    by_cases hk : k = g a
    · rw [if_pos hk]; exact hl a List.mem_cons_self hk.symm
    · rw [if_neg hk]; exact h

/-- A left fold of point writes, read at the position of a writer `n₀` of the list, all of whose
    co-writers write the same value: that value. -/
theorem foldl_set_hit {ι κ α : Type} [DecidableEq κ] (g : ι → κ) (v : ι → α) (n₀ : ι) :
    ∀ (l : List ι) (r : κ → α), n₀ ∈ l → (∀ n ∈ l, g n = g n₀ → v n = v n₀) →
      (l.foldl (fun r n => fun i' => if i' = g n then v n else r i') r) (g n₀) = v n₀
  | [], _, hm, _ => nomatch hm
  | a :: l, r, hm, hl => by
    rw [List.foldl_cons]
    by_cases ha : g a = g n₀
    · refine foldl_set_inv g v (g n₀) (v n₀) l _ (fun n hn => hl n (List.mem_cons_of_mem _ hn)) ?_
      show (if g n₀ = g a then v a else r (g n₀)) = v n₀
      rw [if_pos ha.symm]; exact hl a List.mem_cons_self ha
    · have hm' : n₀ ∈ l := by
        rcases List.mem_cons.1 hm with h | h
        · exact absurd (by rw [h]) ha
        · exact h
      exact foldl_set_hit g v n₀ l _ hm' (fun n hn => hl n (List.mem_cons_of_mem _ hn))

/-- Where update `r` lands: position `p r`. -/
theorem resultIdx_eq {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (idx : IVec ⟨2, ![R, 1]⟩ w)
    (p : Fin R → Nat) (hp : ∀ r, p r < N) (hidx : ∀ r, idx (ix2 r (0 : Fin 1)) = BitVec.ofNat w (p r))
    (r : Fin R) :
    d.resultIdx? (ix1 r) idx = some (ix1 ⟨p r, hp r⟩) := by
  obtain ⟨uw, iw, sd, iv, wf⟩ := d
  dsimp only at huw hiw hsd hiv
  subst huw hiw hsd hiv
  have hst : ∀ a, ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) = (p r : Int) := by
    intro a
    obtain rfl : a = 0 := Subsingleton.elim _ _
    unfold ScatterDims.start ScatterDims.window
    have hnk : (0 : Fin 1) ∉ ScatterDims.sKept (s := ⟨1, ![N]⟩) (si := ⟨2, ![R, 1]⟩) (u := ⟨1, ![R]⟩)
        ⟨[], [0], [0], 1, wf⟩ := by
      simp [ScatterDims.sKept, Shape.kept]
    rw [dif_pos (List.mem_singleton.mpr rfl), dif_neg hnk]
    have hsi : ScatterDims.siIdx (s := ⟨1, ![N]⟩) (si := ⟨2, ![R, 1]⟩) (u := ⟨1, ![R]⟩)
        ⟨[], [0], [0], 1, wf⟩ (ix1 r)
        ⟨List.idxOf (0 : Fin 1) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi, hidx, toInt_ofNat_of_lt (by have := hp r; omega)]
    simp
  unfold ScatterDims.resultIdx?
  have hall : ∀ a, 0 ≤ ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) ∧
      ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) < ((⟨1, ![N]⟩ : Shape).size a : Int) := by
    intro a
    rw [hst a]
    obtain rfl : a = 0 := Subsingleton.elim _ _
    have := hp r
    show (0 : Int) ≤ (p r : Int) ∧ (p r : Int) < ((N : Nat) : Int)
    omega
  rw [dif_pos hall]
  congr 1
  funext a
  refine Fin.ext ?_
  obtain rfl : a = 0 := Subsingleton.elim _ _
  show (ScatterDims.start _ (ix1 r) idx 0 + (ScatterDims.window _ (ix1 r) 0 : Nat)).toNat = p r
  rw [hst 0]
  simp

/-- THE SCATTER READ AT A HIT: when the indices are the words of an injective map `p` into
    `[0, N)`, position `p r` holds update `r`. -/
theorem scatter_set_apply_of_inj {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (hinj : Function.Injective p) (r : Fin R) :
    Host.scatter d (fun _ b => b) x idx u (ix1 ⟨p r, hp r⟩) = u (ix1 r) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have hco : ∀ n ∈ List.finRange (⟨1, ![R]⟩ : Shape).numel,
      (ix1 ⟨p (((⟨1, ![R]⟩ : Shape).rowMajor.symm n) 0), hp _⟩ : (⟨1, ![N]⟩ : Shape).Idx)
        = ix1 ⟨p (((⟨1, ![R]⟩ : Shape).rowMajor.symm ((⟨1, ![R]⟩ : Shape).rowMajor (ix1 r))) 0), hp _⟩ →
      u ((⟨1, ![R]⟩ : Shape).rowMajor.symm n)
        = u ((⟨1, ![R]⟩ : Shape).rowMajor.symm ((⟨1, ![R]⟩ : Shape).rowMajor (ix1 r))) := by
    intro n _ hn
    rw [Equiv.symm_apply_apply] at hn ⊢
    have h1 : p (((⟨1, ![R]⟩ : Shape).rowMajor.symm n) 0) = p r := congrArg Fin.val (congrFun hn 0)
    have h2 := hinj h1
    rw [eq_ix1 ((⟨1, ![R]⟩ : Shape).rowMajor.symm n), h2]
    rfl
  have key := foldl_set_hit
    (fun n => (ix1 ⟨p (((⟨1, ![R]⟩ : Shape).rowMajor.symm n) 0), hp _⟩ : (⟨1, ![N]⟩ : Shape).Idx))
    (fun n => u ((⟨1, ![R]⟩ : Shape).rowMajor.symm n))
    ((⟨1, ![R]⟩ : Shape).rowMajor (ix1 r)) (List.finRange _) x (List.mem_finRange _) hco
  simp only [Equiv.symm_apply_apply] at key
  unfold Host.scatter
  simp only [hA]
  exact key

/-- THE SCATTER READ AT A MISS: a position that is no `p r` keeps the operand's element. -/
theorem scatter_set_apply_of_miss {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (n : Fin N) (hn : ∀ r, p r ≠ n.val) :
    Host.scatter d (fun _ b => b) x idx u (ix1 n) = x (ix1 n) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have key := foldl_set_inv
    (fun m => (ix1 ⟨p (((⟨1, ![R]⟩ : Shape).rowMajor.symm m) 0), hp _⟩ : (⟨1, ![N]⟩ : Shape).Idx))
    (fun m => u ((⟨1, ![R]⟩ : Shape).rowMajor.symm m)) (ix1 n) (x (ix1 n)) (List.finRange _) x
    (fun m _ hm => absurd (congrArg Fin.val (congrFun hm 0)) (hn _)) rfl
  unfold Host.scatter
  simp only [hA]
  exact key

end Idealize.ShloMosaic.HostIdx2
-- ==== Proof.LibScatterAdd.lean ====
/-
  An accumulating scatter read at an index, at the extended reals.

  The accumulating scatter of updates into an operand holds, at each operand index, the operand's element plus the
  sum of the updates that land there. An update lands, on every operand axis, at its start (the start index's component
  for that axis, read as a signed integer and not clamped; zero on an axis the start index does not address) plus its
  window coordinate (the update's coordinate on the window axis that goes to that operand axis; zero on an inserted
  axis); an update that lands outside the operand on some axis is dropped.

  Two shapes of it:
    * FLAT: a vector operand [N], a column of start indices [R, 1], one scalar update per start index [R]. The one operand
      axis is addressed by the start index and inserted, so update n lands on p exactly when idx[n, 0], read signed, is p:
      element p is the operand's plus the updates n whose start index is p.
    * ROWS: a matrix operand [S, T], a column of start indices [R, 1] naming ROWS, one row update [R, T] per start index.
      Operand axis 0 is addressed by the start index and inserted, operand axis 1 carries the update's window axis 1 from
      start zero, so update (n, t') lands on (o, t) exactly when idx[n, 0], read signed, is o and t' = t. The sum over
      the update indices that land on (o, t), split by coordinates, keeps in each row n at most the one term t' = t:
      element (o, t) is the operand's plus the updates (n, t) of the rows n whose start index is o.
-/
import Idealize.ShloMosaic.PureOps.Ideal
import Idealize.ShloMosaic.Lib.ValueIdx
import proofs.«429407_j49014166782254_3_alg».proof.Proof.LibScatterConst

noncomputable section

namespace Cert.LibScatterAdd

open Idealize.ShloMosaic Idealize.ShloMosaic.ValueIdx

/-- FLAT, one update: update `n` lands on `p` exactly when its start index, read signed, is `p`. The operand's one axis is
    the one the start index addresses, so the start there is the index word at `[n, 0]`; that axis is inserted, so the
    window coordinate is zero. -/
theorem flat_lands_iff {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1) (idx : IVec ⟨2, ![R, 1]⟩ 32) (n : (⟨1, ![R]⟩ : Shape).Idx) (p : Fin N) :
    d.resultIdx? n idx = some (ix1 p) ↔ (idx (ix2 (n 0) (0 : Fin 1))).toInt = (p.val : ℤ) := by
  rw [Cert.LibScatterConst.resultIdx?_eq_some_iff]
  obtain ⟨uw, iw, sd, iv, wf⟩ := d
  dsimp only at huw hiw hsd hiv
  subst huw hiw hsd hiv
  -- the start on the operand's axis: the index word at [n, 0]
  have hstart : ScatterDims.start (s := ⟨1, ![N]⟩) (si := ⟨2, ![R, 1]⟩) (u := ⟨1, ![R]⟩) ⟨[], [0], [0], 1, wf⟩ n idx 0
      = (idx (ix2 (n 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- the operand's axis is inserted: no window coordinate
  have hwin : ScatterDims.window (s := ⟨1, ![N]⟩) (si := ⟨2, ![R, 1]⟩) (u := ⟨1, ![R]⟩) ⟨[], [0], [0], 1, wf⟩ n 0 = 0 := by
    unfold ScatterDims.window
    exact dif_neg (show (0 : Fin 1) ∉ (List.finRange 1).filter (· ∉ ([0] : List (Fin 1))) by decide)
  constructor
  · intro h
    have h0 := h 0
    rw [hstart, hwin, Nat.cast_zero, add_zero] at h0
    exact h0
  · intro h a
    obtain rfl : a = 0 := Subsingleton.elim _ _
    rw [hstart, hwin, Nat.cast_zero, add_zero]
    exact h

/-- FLAT: element `p` is the operand's plus the sum of the updates whose start index, read signed, is `p`. -/
theorem scatterAdd_flat_apply {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![R, 1]⟩ 32) (upd : (⟨1, ![R]⟩ : Shape).Idx → EReal) (p : Fin N) :
    Ideal.hostScatterAdd d x idx upd (ix1 p)
      = x (ix1 p) + ∑ n ∈ Finset.univ.filter
          (fun n : (⟨1, ![R]⟩ : Shape).Idx => (idx (ix2 (n 0) (0 : Fin 1))).toInt = (p.val : ℤ)), upd n := by
  -- the two sums run over the same set of update indices
  unfold Ideal.hostScatterAdd
  congr 1
  refine Finset.sum_congr (Finset.filter_congr fun n _ => ?_) fun _ _ => rfl
  exact flat_lands_iff d huw hiw hsd hiv idx n p

/-- ROWS, one update: update `j = (n, t')` lands on `(o, t)` exactly when the start index of row `n`, read signed, is `o`
    and `t' = t`. On operand axis 0 the start is the index word at `[n, 0]` and the axis is inserted (window coordinate
    zero); operand axis 1 is not addressed by the start index (start zero) and carries the update's axis 1. -/
theorem rows_lands_iff {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1) (idx : IVec ⟨2, ![R, 1]⟩ 32) (j : (⟨2, ![R, T]⟩ : Shape).Idx) (o : Fin S) (t : Fin T) :
    d.resultIdx? j idx = some (ix2 o t) ↔ (idx (ix2 (j 0) (0 : Fin 1))).toInt = (o.val : ℤ) ∧ j 1 = t := by
  rw [Cert.LibScatterConst.resultIdx?_eq_some_iff]
  obtain ⟨uw, iw, sd, iv, wf⟩ := d
  dsimp only at huw hiw hsd hiv
  subst huw hiw hsd hiv
  -- operand axis 0: the start is the index word at [n, 0] …
  have hstart0 : ScatterDims.start (s := ⟨2, ![S, T]⟩) (si := ⟨2, ![R, 1]⟩) (u := ⟨2, ![R, T]⟩) ⟨[1], [0], [0], 1, wf⟩ j idx 0
      = (idx (ix2 (j 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- … operand axis 1 is not addressed by the start index
  have hstart1 : ScatterDims.start (s := ⟨2, ![S, T]⟩) (si := ⟨2, ![R, 1]⟩) (u := ⟨2, ![R, T]⟩) ⟨[1], [0], [0], 1, wf⟩ j idx 1
      = 0 := by
    unfold ScatterDims.start
    exact dif_neg (show (1 : Fin 2) ∉ ([0] : List (Fin 2)) by decide)
  -- operand axis 0 is inserted: no window coordinate …
  have hwin0 : ScatterDims.window (s := ⟨2, ![S, T]⟩) (si := ⟨2, ![R, 1]⟩) (u := ⟨2, ![R, T]⟩) ⟨[1], [0], [0], 1, wf⟩ j 0 = 0 := by
    unfold ScatterDims.window
    exact dif_neg (show (0 : Fin 2) ∉ (List.finRange 2).filter (· ∉ ([0] : List (Fin 2))) by decide)
  -- … operand axis 1 is the one kept axis: its window coordinate is the update's coordinate on its window axis 1
  have hwin1 : ScatterDims.window (s := ⟨2, ![S, T]⟩) (si := ⟨2, ![R, 1]⟩) (u := ⟨2, ![R, T]⟩) ⟨[1], [0], [0], 1, wf⟩ j 1
      = (j 1).val := by
    unfold ScatterDims.window
    exact (dif_pos (show (1 : Fin 2) ∈ (List.finRange 2).filter (· ∉ ([0] : List (Fin 2))) by decide)).trans rfl
  constructor
  · intro h
    have h0 := h 0
    have h1 := h 1
    rw [hstart0, hwin0, Nat.cast_zero, add_zero] at h0
    rw [hstart1, hwin1, zero_add] at h1
    exact ⟨h0, Fin.ext (by exact_mod_cast h1)⟩
  · rintro ⟨h0, h1⟩ a
    match a with
    | ⟨0, _⟩ =>
      show ScatterDims.start _ j idx 0 + (ScatterDims.window _ j 0 : ℤ) = _
      rw [hstart0, hwin0, Nat.cast_zero, add_zero]
      exact h0
    | ⟨1, _⟩ =>
      show ScatterDims.start _ j idx 1 + (ScatterDims.window _ j 1 : ℤ) = _
      rw [hstart1, hwin1, zero_add, h1]

/-- ROWS: element `(o, t)` is the operand's plus the sum over the rows `n` whose start index, read signed, is `o`, of
    update `(n, t)`. -/
theorem scatterAdd_rows_apply {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1)
    (x : (⟨2, ![S, T]⟩ : Shape).Idx → EReal) (idx : IVec ⟨2, ![R, 1]⟩ 32) (upd : (⟨2, ![R, T]⟩ : Shape).Idx → EReal)
    (o : Fin S) (t : Fin T) :
    Ideal.hostScatterAdd d x idx upd (ix2 o t)
      = x (ix2 o t) + ∑ n ∈ Finset.univ.filter
          (fun n : Fin R => (idx (ix2 n (0 : Fin 1))).toInt = (o.val : ℤ)), upd (ix2 n t) := by
  unfold Ideal.hostScatterAdd
  congr 1
  -- both sums as sums of guarded terms; the left one split by the update index's coordinates (n, t')
  rw [Finset.sum_filter, Finset.sum_filter, sum_idx2]
  refine Finset.sum_congr rfl fun n _ => ?_
  by_cases hP : (idx (ix2 n (0 : Fin 1))).toInt = (o.val : ℤ)
  · -- row n starts at o: of its terms only t' = t lands on (o, t)
    rw [if_pos hP, Finset.sum_eq_single t]
    · exact if_pos ((rows_lands_iff d huw hiw hsd hiv idx (ix2 n t) o t).mpr ⟨hP, rfl⟩)
    · intro b _ hb
      exact if_neg (fun h => hb ((rows_lands_iff d huw hiw hsd hiv idx (ix2 n b) o t).mp h).2)
    · intro h; exact absurd (Finset.mem_univ t) h
  · -- row n starts elsewhere: none of its terms lands on (o, t)
    rw [if_neg hP]
    refine Finset.sum_eq_zero fun b _ => ?_
    exact if_neg (fun h => hP ((rows_lands_iff d huw hiw hsd hiv idx (ix2 n b) o t).mp h).1)

end Cert.LibScatterAdd

end
-- ==== Proof.RvLayer1.lean ====
/-
  The reference's first layer read entry by entry off its stages: the four gathers read the node features and the
  elevation at each edge's source and destination word (a word that is not negative is its own wrapped index; the
  gather clamps it into the node range), their concatenation is the message input, the two products are sums over
  the contracted coordinate, the gate is 1 / (1 + exp (-x)), the gated messages are added into their destination
  nodes (a row scatter-add into zeros) and rectified.
-/
import proofs.«429407_j49014166782254_3_alg».proof.Proof.SpecArgs
import proofs.«429407_j49014166782254_3_alg».proof.Proof.Gen.ReferenceIdeal.Read
import proofs.«429407_j49014166782254_3_alg».proof.Proof.LibHostIdx
import proofs.«429407_j49014166782254_3_alg».proof.Proof.LibHostIdx2
import proofs.«429407_j49014166782254_3_alg».proof.Proof.LibScatterAdd

noncomputable section

namespace Cert.ReferenceIdeal.HandV

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo
open Cert.Spec (NN EE)

variable (x0 : (⟨S2x3200000, .i32⟩ : BufTy).Contents (Elt Ideal)) (x1 : (⟨S100000x2, .f32⟩ : BufTy).Contents (Elt Ideal)) (x2 : (⟨S100000, .f32⟩ : BufTy).Contents (Elt Ideal)) (x3 x4 x5 x6 : (⟨S3200000, .f32⟩ : BufTy).Contents (Elt Ideal)) (x7 : (⟨S6x3, .f32⟩ : BufTy).Contents (Elt Ideal)) (x8 : (⟨S3, .f32⟩ : BufTy).Contents (Elt Ideal)) (x9 : (⟨S4x3, .f32⟩ : BufTy).Contents (Elt Ideal)) (x10 : (⟨S3, .f32⟩ : BufTy).Contents (Elt Ideal)) (x11 : (⟨S8x1, .f32⟩ : BufTy).Contents (Elt Ideal)) (x12 : (⟨S1, .f32⟩ : BufTy).Contents (Elt Ideal)) (x13 : (⟨S4x1, .f32⟩ : BufTy).Contents (Elt Ideal)) (x14 : (⟨S1, .f32⟩ : BufTy).Contents (Elt Ideal))
variable (hnn : ∀ (r : Fin 2) (e : Fin EE), 0 ≤ ((Cert.Spec.mkArgs x0 x1 x2 x3 x4 x5 x6 x7 x8 x9 x10 x11 x12 x13 x14).ei r e).toInt)

/-! ### Index words -/

/-- A word that is not negative read signed is its own wrapped index. -/
private theorem wrap_id (w : BitVec 32) (h : 0 ≤ w.toInt) :
    Scalar.select (IntOp.cmpi .slt w 0#32) (IntOp.addi w 100000#32) w = w := by
  have hc : IntOp.cmpi .slt w 0#32 = 0#1 := by
    unfold IntOp.cmpi
    have hs : w.slt 0#32 = false := by
      simp only [BitVec.slt, BitVec.toInt_zero, decide_eq_false_iff_not, not_lt]
      exact h
    show BitVec.ofBool (w.slt 0#32) = 0#1
    rw [hs]; rfl
  rw [hc, select_zero]

/-- The source word of edge e. -/
private theorem v6_word (e : Fin EE) : val_main_v6 (F := Ideal) x0 (ix1 e) = x0 (ix2 (0 : Fin 2) e) := by
  rw [val_main_v6_apply, val_main_v5_apply]
  congr 1
  funext a
  refine Fin.ext ?_
  match a with
  | ⟨0, _⟩ => rfl
  | ⟨1, _⟩ => exact Nat.mod_eq_of_lt e.isLt

/-- The destination word of edge e. -/
private theorem v8_word (e : Fin EE) : val_main_v8 (F := Ideal) x0 (ix1 e) = x0 (ix2 (1 : Fin 2) e) := by
  rw [val_main_v8_apply, val_main_v7_apply]
  congr 1
  funext a
  refine Fin.ext ?_
  match a with
  | ⟨0, _⟩ => rfl
  | ⟨1, _⟩ => exact Nat.mod_eq_of_lt e.isLt

include hnn in
/-- The source word, wrapped: itself. -/
private theorem v13_word (e : Fin EE) : val_main_v13 (F := Ideal) x0 (ix1 e) = x0 (ix2 (0 : Fin 2) e) := by
  rw [val_main_v13_apply, val_main_v10_apply, val_main_v12_apply, val_main_v9_apply, val_main_v11_apply,
    val_main_c_apply, val_main_c_0_apply, v6_word]
  exact wrap_id _ (hnn 0 e)

include hnn in
/-- The destination word, wrapped: itself. -/
private theorem v20_word (e : Fin EE) : val_main_v20 (F := Ideal) x0 (ix1 e) = x0 (ix2 (1 : Fin 2) e) := by
  rw [val_main_v20_apply, val_main_v17_apply, val_main_v19_apply, val_main_v16_apply, val_main_v18_apply,
    val_main_c_1_apply, val_main_c_2_apply, v8_word]
  exact wrap_id _ (hnn 1 e)

include hnn in
/-- The source word, wrapped, as the elevation gather reads it. -/
private theorem v27_word (e : Fin EE) : val_main_v27 (F := Ideal) x0 (ix1 e) = x0 (ix2 (0 : Fin 2) e) := by
  rw [val_main_v27_apply, val_main_v24_apply, val_main_v26_apply, val_main_v23_apply, val_main_v25_apply,
    val_main_c_3_apply, val_main_c_4_apply, v6_word]
  exact wrap_id _ (hnn 0 e)

include hnn in
/-- The destination word, wrapped, as the elevation gather reads it. -/
private theorem v35_word (e : Fin EE) : val_main_v35 (F := Ideal) x0 (ix1 e) = x0 (ix2 (1 : Fin 2) e) := by
  rw [val_main_v35_apply, val_main_v32_apply, val_main_v34_apply, val_main_v31_apply, val_main_v33_apply,
    val_main_c_5_apply, val_main_c_6_apply, v8_word]
  exact wrap_id _ (hnn 1 e)

/-! ### The four gathers -/

include hnn in
/-- The source node's features. -/
private theorem v15_at (e : Fin EE) (q : Fin 2) :
    val_main_v15 (F := Ideal) x0 x1 (ix2 e q) = x1 (ix2 (Cert.Spec.cl (x0 (ix2 (0 : Fin 2) e))) q) := by
  have hw : val_main_v14 (F := Ideal) x0 (ix2 e (0 : Fin 1)) = x0 (ix2 (0 : Fin 2) e) := by
    rw [val_main_v14_apply]
    have hi : idx_main_v14 (ix2 e (0 : Fin 1)) = ix1 e := by
      funext a; match a with | ⟨0, _⟩ => rfl
    rw [hi]
    exact v13_word x0 x1 x2 x3 x4 x5 x6 x7 x8 x9 x10 x11 x12 x13 x14 hnn e
  unfold val_main_v15
  rw [HostIdx2.gather_rows_apply (by decide) gather_S100000x2_S3200000x1_S3200000x2_1_0_n_n_0_1_12 rfl rfl rfl rfl rfl rfl rfl]
  refine congrArg x1 (congrArg (fun r => ix2 r q) (Fin.ext ?_))
  show min (val_main_v14 (F := Ideal) x0 (ix2 e (0 : Fin 1))).toInt.toNat (100000 - 1)
    = min (x0 (ix2 (0 : Fin 2) e)).toInt.toNat (100000 - 1)
  rw [hw]

include hnn in
/-- The destination node's features. -/
private theorem v22_at (e : Fin EE) (q : Fin 2) :
    val_main_v22 (F := Ideal) x0 x1 (ix2 e q) = x1 (ix2 (Cert.Spec.cl (x0 (ix2 (1 : Fin 2) e))) q) := by
  have hw : val_main_v21 (F := Ideal) x0 (ix2 e (0 : Fin 1)) = x0 (ix2 (1 : Fin 2) e) := by
    rw [val_main_v21_apply]
    have hi : idx_main_v21 (ix2 e (0 : Fin 1)) = ix1 e := by
      funext a; match a with | ⟨0, _⟩ => rfl
    rw [hi]
    exact v20_word x0 x1 x2 x3 x4 x5 x6 x7 x8 x9 x10 x11 x12 x13 x14 hnn e
  unfold val_main_v22
  rw [HostIdx2.gather_rows_apply (by decide) gather_S100000x2_S3200000x1_S3200000x2_1_0_n_n_0_1_12 rfl rfl rfl rfl rfl rfl rfl]
  refine congrArg x1 (congrArg (fun r => ix2 r q) (Fin.ext ?_))
  show min (val_main_v21 (F := Ideal) x0 (ix2 e (0 : Fin 1))).toInt.toNat (100000 - 1)
    = min (x0 (ix2 (1 : Fin 2) e)).toInt.toNat (100000 - 1)
  rw [hw]

include hnn in
/-- The source node's elevation. -/
private theorem v29_at (e : Fin EE) :
    val_main_v29 (F := Ideal) x0 x2 (ix1 e) = x2 (ix1 (Cert.Spec.cl (x0 (ix2 (0 : Fin 2) e)))) := by
  have hw : val_main_v28 (F := Ideal) x0 (ix2 e (0 : Fin 1)) = x0 (ix2 (0 : Fin 2) e) := by
    rw [val_main_v28_apply]
    have hi : idx_main_v28 (ix2 e (0 : Fin 1)) = ix1 e := by
      funext a; match a with | ⟨0, _⟩ => rfl
    rw [hi]
    exact v27_word x0 x1 x2 x3 x4 x5 x6 x7 x8 x9 x10 x11 x12 x13 x14 hnn e
  unfold val_main_v29
  rw [HostIdx.gather_take_ix gather_S100000_S3200000x1_S3200000_n_0_n_n_0_1_1 rfl rfl rfl rfl (by decide)]
  refine congrArg x2 (congrArg ix1 (Fin.ext ?_))
  show min (val_main_v28 (F := Ideal) x0 (ix2 e (0 : Fin 1))).toInt.toNat (100000 - 1)
    = min (x0 (ix2 (0 : Fin 2) e)).toInt.toNat (100000 - 1)
  rw [hw]

include hnn in
/-- The destination node's elevation. -/
private theorem v37_at (e : Fin EE) :
    val_main_v37 (F := Ideal) x0 x2 (ix1 e) = x2 (ix1 (Cert.Spec.cl (x0 (ix2 (1 : Fin 2) e)))) := by
  have hw : val_main_v36 (F := Ideal) x0 (ix2 e (0 : Fin 1)) = x0 (ix2 (1 : Fin 2) e) := by
    rw [val_main_v36_apply]
    have hi : idx_main_v36 (ix2 e (0 : Fin 1)) = ix1 e := by
      funext a; match a with | ⟨0, _⟩ => rfl
    rw [hi]
    exact v35_word x0 x1 x2 x3 x4 x5 x6 x7 x8 x9 x10 x11 x12 x13 x14 hnn e
  unfold val_main_v37
  rw [HostIdx.gather_take_ix gather_S100000_S3200000x1_S3200000_n_0_n_n_0_1_1 rfl rfl rfl rfl (by decide)]
  refine congrArg x2 (congrArg ix1 (Fin.ext ?_))
  show min (val_main_v36 (F := Ideal) x0 (ix2 e (0 : Fin 1))).toInt.toNat (100000 - 1)
    = min (x0 (ix2 (1 : Fin 2) e)).toInt.toNat (100000 - 1)
  rw [hw]

/-! ### The two concatenations -/

/-- Column 0 of the edge features is piece 0 of the concatenation. -/
private theorem v4_at0 (e : Fin EE) :
    val_main_v4 (F := Ideal) x3 x4 x5 x6 (ix2 e (0 : Fin 4)) = x3 (ix1 e) := by
  unfold val_main_v4
  rw [concatenate_apply_piece (t := S3200000x4) 1 _ _ (ix2 e (0 : Fin 4)) 0 (by show 0 < 4; omega) S3200000x1
    (val_main_v0 (F := Ideal) x3) rfl rfl 0 rfl (ix2 e (0 : Fin 1)) (fun b hb => by
      match b with
      | ⟨0, _⟩ => rfl
      | ⟨1, _⟩ => exact absurd rfl hb) rfl,
    val_main_v0_apply]
  congr 1
  funext a; match a with | ⟨0, _⟩ => rfl

/-- Column 1 of the edge features is piece 1 of the concatenation. -/
private theorem v4_at1 (e : Fin EE) :
    val_main_v4 (F := Ideal) x3 x4 x5 x6 (ix2 e (1 : Fin 4)) = x4 (ix1 e) := by
  unfold val_main_v4
  rw [concatenate_apply_piece (t := S3200000x4) 1 _ _ (ix2 e (1 : Fin 4)) 1 (by show 1 < 4; omega) S3200000x1
    (val_main_v1 (F := Ideal) x4) rfl rfl 1 rfl (ix2 e (0 : Fin 1)) (fun b hb => by
      match b with
      | ⟨0, _⟩ => rfl
      | ⟨1, _⟩ => exact absurd rfl hb) rfl,
    val_main_v1_apply]
  congr 1
  funext a; match a with | ⟨0, _⟩ => rfl

/-- Column 2 of the edge features is piece 2 of the concatenation. -/
private theorem v4_at2 (e : Fin EE) :
    val_main_v4 (F := Ideal) x3 x4 x5 x6 (ix2 e (2 : Fin 4)) = x5 (ix1 e) := by
  unfold val_main_v4
  rw [concatenate_apply_piece (t := S3200000x4) 1 _ _ (ix2 e (2 : Fin 4)) 2 (by show 2 < 4; omega) S3200000x1
    (val_main_v2 (F := Ideal) x5) rfl rfl 2 rfl (ix2 e (0 : Fin 1)) (fun b hb => by
      match b with
      | ⟨0, _⟩ => rfl
      | ⟨1, _⟩ => exact absurd rfl hb) rfl,
    val_main_v2_apply]
  congr 1
  funext a; match a with | ⟨0, _⟩ => rfl

/-- Column 3 of the edge features is piece 3 of the concatenation. -/
private theorem v4_at3 (e : Fin EE) :
    val_main_v4 (F := Ideal) x3 x4 x5 x6 (ix2 e (3 : Fin 4)) = x6 (ix1 e) := by
  unfold val_main_v4
  rw [concatenate_apply_piece (t := S3200000x4) 1 _ _ (ix2 e (3 : Fin 4)) 3 (by show 3 < 4; omega) S3200000x1
    (val_main_v3 (F := Ideal) x6) rfl rfl 3 rfl (ix2 e (0 : Fin 1)) (fun b hb => by
      match b with
      | ⟨0, _⟩ => rfl
      | ⟨1, _⟩ => exact absurd rfl hb) rfl,
    val_main_v3_apply]
  congr 1
  funext a; match a with | ⟨0, _⟩ => rfl

/-- The edge features at (e, j). -/
private theorem v4_at (e : Fin EE) (j : Fin 4) :
    val_main_v4 (F := Ideal) x3 x4 x5 x6 (ix2 e j) = (Cert.Spec.mkArgs x0 x1 x2 x3 x4 x5 x6 x7 x8 x9 x10 x11 x12 x13 x14).ef j e := by
  match j with
  | 0 => exact v4_at0 x3 x4 x5 x6 e
  | 1 => exact v4_at1 x3 x4 x5 x6 e
  | 2 => exact v4_at2 x3 x4 x5 x6 e
  | 3 => exact v4_at3 x3 x4 x5 x6 e

include hnn in
/-- Column 0 of the message input lies in piece 0 of the concatenation. -/
private theorem v39_at0 (e : Fin EE) :
    val_main_v39 (F := Ideal) x0 x1 x2 (ix2 e (0 : Fin 6)) = x1 (ix2 (Cert.Spec.cl (x0 (ix2 (0 : Fin 2) e))) (0 : Fin 2)) := by
  unfold val_main_v39
  rw [concatenate_apply_piece (t := S3200000x6) 1 _ _ (ix2 e (0 : Fin 6)) 0 (by show 0 < 4; omega) S3200000x2
    (val_main_v15 (F := Ideal) x0 x1) rfl rfl 0 rfl (ix2 e (0 : Fin 2)) (fun b hb => by
      match b with
      | ⟨0, _⟩ => rfl
      | ⟨1, _⟩ => exact absurd rfl hb) rfl]
  exact v15_at x0 x1 x2 x3 x4 x5 x6 x7 x8 x9 x10 x11 x12 x13 x14 hnn e 0

include hnn in
/-- Column 1 of the message input lies in piece 0 of the concatenation. -/
private theorem v39_at1 (e : Fin EE) :
    val_main_v39 (F := Ideal) x0 x1 x2 (ix2 e (1 : Fin 6)) = x1 (ix2 (Cert.Spec.cl (x0 (ix2 (0 : Fin 2) e))) (1 : Fin 2)) := by
  unfold val_main_v39
  rw [concatenate_apply_piece (t := S3200000x6) 1 _ _ (ix2 e (1 : Fin 6)) 0 (by show 0 < 4; omega) S3200000x2
    (val_main_v15 (F := Ideal) x0 x1) rfl rfl 0 rfl (ix2 e (1 : Fin 2)) (fun b hb => by
      match b with
      | ⟨0, _⟩ => rfl
      | ⟨1, _⟩ => exact absurd rfl hb) rfl]
  exact v15_at x0 x1 x2 x3 x4 x5 x6 x7 x8 x9 x10 x11 x12 x13 x14 hnn e 1

include hnn in
/-- Column 2 of the message input lies in piece 1 of the concatenation. -/
private theorem v39_at2 (e : Fin EE) :
    val_main_v39 (F := Ideal) x0 x1 x2 (ix2 e (2 : Fin 6)) = x1 (ix2 (Cert.Spec.cl (x0 (ix2 (1 : Fin 2) e))) (0 : Fin 2)) := by
  unfold val_main_v39
  rw [concatenate_apply_piece (t := S3200000x6) 1 _ _ (ix2 e (2 : Fin 6)) 1 (by show 1 < 4; omega) S3200000x2
    (val_main_v22 (F := Ideal) x0 x1) rfl rfl 2 rfl (ix2 e (0 : Fin 2)) (fun b hb => by
      match b with
      | ⟨0, _⟩ => rfl
      | ⟨1, _⟩ => exact absurd rfl hb) rfl]
  exact v22_at x0 x1 x2 x3 x4 x5 x6 x7 x8 x9 x10 x11 x12 x13 x14 hnn e 0

include hnn in
/-- Column 3 of the message input lies in piece 1 of the concatenation. -/
private theorem v39_at3 (e : Fin EE) :
    val_main_v39 (F := Ideal) x0 x1 x2 (ix2 e (3 : Fin 6)) = x1 (ix2 (Cert.Spec.cl (x0 (ix2 (1 : Fin 2) e))) (1 : Fin 2)) := by
  unfold val_main_v39
  rw [concatenate_apply_piece (t := S3200000x6) 1 _ _ (ix2 e (3 : Fin 6)) 1 (by show 1 < 4; omega) S3200000x2
    (val_main_v22 (F := Ideal) x0 x1) rfl rfl 2 rfl (ix2 e (1 : Fin 2)) (fun b hb => by
      match b with
      | ⟨0, _⟩ => rfl
      | ⟨1, _⟩ => exact absurd rfl hb) rfl]
  exact v22_at x0 x1 x2 x3 x4 x5 x6 x7 x8 x9 x10 x11 x12 x13 x14 hnn e 1

include hnn in
/-- Column 4 of the message input lies in piece 2 of the concatenation. -/
private theorem v39_at4 (e : Fin EE) :
    val_main_v39 (F := Ideal) x0 x1 x2 (ix2 e (4 : Fin 6)) = x2 (ix1 (Cert.Spec.cl (x0 (ix2 (0 : Fin 2) e)))) := by
  unfold val_main_v39
  rw [concatenate_apply_piece (t := S3200000x6) 1 _ _ (ix2 e (4 : Fin 6)) 2 (by show 2 < 4; omega) S3200000x1
    (val_main_v30 (F := Ideal) x0 x2) rfl rfl 4 rfl (ix2 e (0 : Fin 1)) (fun b hb => by
      match b with
      | ⟨0, _⟩ => rfl
      | ⟨1, _⟩ => exact absurd rfl hb) rfl]
  rw [val_main_v30_apply]
  have hi : idx_main_v30 (ix2 e (0 : Fin 1)) = ix1 e := by
    funext a; match a with | ⟨0, _⟩ => rfl
  rw [hi]
  exact v29_at x0 x1 x2 x3 x4 x5 x6 x7 x8 x9 x10 x11 x12 x13 x14 hnn e

include hnn in
/-- Column 5 of the message input lies in piece 3 of the concatenation. -/
private theorem v39_at5 (e : Fin EE) :
    val_main_v39 (F := Ideal) x0 x1 x2 (ix2 e (5 : Fin 6)) = x2 (ix1 (Cert.Spec.cl (x0 (ix2 (1 : Fin 2) e)))) := by
  unfold val_main_v39
  rw [concatenate_apply_piece (t := S3200000x6) 1 _ _ (ix2 e (5 : Fin 6)) 3 (by show 3 < 4; omega) S3200000x1
    (val_main_v38 (F := Ideal) x0 x2) rfl rfl 5 rfl (ix2 e (0 : Fin 1)) (fun b hb => by
      match b with
      | ⟨0, _⟩ => rfl
      | ⟨1, _⟩ => exact absurd rfl hb) rfl]
  rw [val_main_v38_apply]
  have hi : idx_main_v38 (ix2 e (0 : Fin 1)) = ix1 e := by
    funext a; match a with | ⟨0, _⟩ => rfl
  rw [hi]
  exact v37_at x0 x1 x2 x3 x4 x5 x6 x7 x8 x9 x10 x11 x12 x13 x14 hnn e

include hnn in
/-- The message input at (e, j). -/
private theorem v39_at (e : Fin EE) (j : Fin 6) :
    val_main_v39 (F := Ideal) x0 x1 x2 (ix2 e j) = Cert.Spec.min1 (Cert.Spec.mkArgs x0 x1 x2 x3 x4 x5 x6 x7 x8 x9 x10 x11 x12 x13 x14) e j := by
  match j with
  | 0 => exact v39_at0 x0 x1 x2 x3 x4 x5 x6 x7 x8 x9 x10 x11 x12 x13 x14 hnn e
  | 1 => exact v39_at1 x0 x1 x2 x3 x4 x5 x6 x7 x8 x9 x10 x11 x12 x13 x14 hnn e
  | 2 => exact v39_at2 x0 x1 x2 x3 x4 x5 x6 x7 x8 x9 x10 x11 x12 x13 x14 hnn e
  | 3 => exact v39_at3 x0 x1 x2 x3 x4 x5 x6 x7 x8 x9 x10 x11 x12 x13 x14 hnn e
  | 4 => exact v39_at4 x0 x1 x2 x3 x4 x5 x6 x7 x8 x9 x10 x11 x12 x13 x14 hnn e
  | 5 => exact v39_at5 x0 x1 x2 x3 x4 x5 x6 x7 x8 x9 x10 x11 x12 x13 x14 hnn e

/-! ### The products, the gate, the scatter -/

/-- 1.0's pattern denotes 1. -/
private theorem one_f32 : Ideal.ofBits .f32 0x3F800000#32 = 1 := IdealRules.sign_bit.ideal_onePat .f32

/-- The gate's argument at (e, o). -/
private theorem v47_at (e : Fin EE) (o : Fin 3) :
    val_main_v47 (F := Ideal) x3 x4 x5 x6 x9 x10 (ix2 e o)
      = (∑ j : Fin 4, (Cert.Spec.mkArgs x0 x1 x2 x3 x4 x5 x6 x7 x8 x9 x10 x11 x12 x13 x14).ef j e * (Cert.Spec.mkArgs x0 x1 x2 x3 x4 x5 x6 x7 x8 x9 x10 x11 x12 x13 x14).We1 j o) + (Cert.Spec.mkArgs x0 x1 x2 x3 x4 x5 x6 x7 x8 x9 x10 x11 x12 x13 x14).be1 o := by
  rw [val_main_v47_apply, val_main_v44_apply, val_main_v46_apply, val_main_v45_apply, Ideal.addf_def]
  congr 1
  · refine Finset.sum_congr rfl fun k _ => ?_
    have hl : lidx_main_v44 (ix2 e o) k = ix2 e k := by
      funext a
      match a with
      | ⟨0, _⟩ => rfl
      | ⟨1, _⟩ => rfl
    have hr : ridx_main_v44 (ix2 e o) k = ix2 k o := by
      funext a
      match a with
      | ⟨0, _⟩ => rfl
      | ⟨1, _⟩ => rfl
    rw [hl, hr, v4_at x0 x1 x2 x3 x4 x5 x6 x7 x8 x9 x10 x11 x12 x13 x14]
    rfl
  · show x10 _ = x10 (ix1 o)
    congr 1
    funext a; match a with | ⟨0, _⟩ => rfl

/-- The gate at (e, o). -/
private theorem v53_at (e : Fin EE) (o : Fin 3) :
    val_main_v53 (F := Ideal) x3 x4 x5 x6 x9 x10 (ix2 e o)
      = Ideal.div 1 (1 + Ideal.exp (-((∑ j : Fin 4, (Cert.Spec.mkArgs x0 x1 x2 x3 x4 x5 x6 x7 x8 x9 x10 x11 x12 x13 x14).ef j e * (Cert.Spec.mkArgs x0 x1 x2 x3 x4 x5 x6 x7 x8 x9 x10 x11 x12 x13 x14).We1 j o) + (Cert.Spec.mkArgs x0 x1 x2 x3 x4 x5 x6 x7 x8 x9 x10 x11 x12 x13 x14).be1 o))) := by
  rw [val_main_v53_apply, val_main_v52_apply, val_main_cst_7_apply, val_main_v51_apply, val_main_v50_apply,
    val_main_cst_apply, val_main_v49_apply, val_main_v48_apply, v47_at x0 x1 x2 x3 x4 x5 x6 x7 x8 x9 x10 x11 x12 x13 x14]
  simp only [Ideal.hostDivf_def, Ideal.addf_def, Ideal.hostUnary_exp_def, Ideal.hostNegf_def, Ideal.negf_def, Ideal.ofBits_def,
    one_f32]

/-- The row scatter-add of this layer read at (n, o), for any operand, index column and updates. -/
private theorem scatter_rows_at (x : (⟨S100000x3, .f32⟩ : BufTy).Contents (Elt Ideal))
    (idx : (⟨S3200000x1, .i32⟩ : BufTy).Contents (Elt Ideal)) (upd : (⟨S3200000x3, .f32⟩ : BufTy).Contents (Elt Ideal))
    (n : Fin NN) (o : Fin 3) :
    Host.scatterAdd (F := Ideal) (φ := .f32) scatter_S100000x3_S3200000x1_S3200000x3_1_0_0_1 x idx upd (ix2 n o)
      = x (ix2 n o) + ∑ e ∈ Finset.univ.filter (fun e : Fin EE => (idx (ix2 e (0 : Fin 1))).toInt = (n.val : ℤ)), upd (ix2 e o) :=
  Cert.LibScatterAdd.scatterAdd_rows_apply scatter_S100000x3_S3200000x1_S3200000x3_1_0_0_1 rfl rfl rfl rfl x idx upd n o

include hnn in
/-- The message before the gate at (e, o). -/
private theorem v43_at (e : Fin EE) (o : Fin 3) :
    val_main_v43 (F := Ideal) x0 x1 x2 x7 x8 (ix2 e o)
      = (∑ j : Fin 6, Cert.Spec.min1 (Cert.Spec.mkArgs x0 x1 x2 x3 x4 x5 x6 x7 x8 x9 x10 x11 x12 x13 x14) e j * (Cert.Spec.mkArgs x0 x1 x2 x3 x4 x5 x6 x7 x8 x9 x10 x11 x12 x13 x14).W1 j o) + (Cert.Spec.mkArgs x0 x1 x2 x3 x4 x5 x6 x7 x8 x9 x10 x11 x12 x13 x14).b1 o := by
  rw [val_main_v43_apply, val_main_v40_apply, val_main_v42_apply, val_main_v41_apply, Ideal.addf_def]
  congr 1
  · refine Finset.sum_congr rfl fun k _ => ?_
    have hl : lidx_main_v40 (ix2 e o) k = ix2 e k := by
      funext a
      match a with
      | ⟨0, _⟩ => rfl
      | ⟨1, _⟩ => rfl
    have hr : ridx_main_v40 (ix2 e o) k = ix2 k o := by
      funext a
      match a with
      | ⟨0, _⟩ => rfl
      | ⟨1, _⟩ => rfl
    rw [hl, hr, v39_at x0 x1 x2 x3 x4 x5 x6 x7 x8 x9 x10 x11 x12 x13 x14 hnn]
    rfl
  · show x8 _ = x8 (ix1 o)
    congr 1
    funext a; match a with | ⟨0, _⟩ => rfl

include hnn in
/-- The gated message at (e, o). -/
private theorem v54_at (e : Fin EE) (o : Fin 3) :
    val_main_v54 (F := Ideal) x0 x1 x2 x3 x4 x5 x6 x7 x8 x9 x10 (ix2 e o) = Cert.Spec.redge1 (Cert.Spec.mkArgs x0 x1 x2 x3 x4 x5 x6 x7 x8 x9 x10 x11 x12 x13 x14) e o := by
  rw [val_main_v54_apply, v43_at x0 x1 x2 x3 x4 x5 x6 x7 x8 x9 x10 x11 x12 x13 x14 hnn, v53_at x0 x1 x2 x3 x4 x5 x6 x7 x8 x9 x10 x11 x12 x13 x14, Ideal.mulf_def]
  rfl

include hnn in
/-- The first layer's rectified node channels. -/
theorem v58_apply (n : Fin NN) (o : Fin 3) :
    val_main_v58 (F := Ideal) x0 x1 x2 x3 x4 x5 x6 x7 x8 x9 x10 (ix2 n o)
      = Cert.Spec.rh1 (Cert.Spec.mkArgs x0 x1 x2 x3 x4 x5 x6 x7 x8 x9 x10 x11 x12 x13 x14) n o := by
  rw [val_main_v58_apply, val_main_call0_v0_apply, val_main_call0_cst_apply, Ideal.maximumf_def]
  unfold val_main_v57
  rw [scatter_rows_at, val_main_v55_apply, val_main_cst_8_apply, Ideal.ofBits_def, Ideal.ofBits_zero_f32]
  unfold Cert.Spec.rh1
  refine congrArg (fun s : EReal => max (0 + s) 0) ?_
  refine Finset.sum_congr (Finset.filter_congr fun e _ => ?_) fun e _ => v54_at x0 x1 x2 x3 x4 x5 x6 x7 x8 x9 x10 x11 x12 x13 x14 hnn e o
  rw [val_main_v56_apply]
  have hi : idx_main_v56 (ix2 e (0 : Fin 1)) = ix1 e := by
    funext a; match a with | ⟨0, _⟩ => rfl
  rw [hi, v8_word]
  exact Iff.rfl

end Cert.ReferenceIdeal.HandV

end
-- ==== Proof.RvLayer2.lean ====
/-
  The reference's second layer read entry by entry off its stages, given the first layer's node channels: the same
  chain as the first layer with three node channels in place of two node features, eight message inputs and one
  output channel; the rectified sums are the program's result.
-/
import proofs.«429407_j49014166782254_3_alg».proof.Proof.RvLayer1

noncomputable section

namespace Cert.ReferenceIdeal.HandV

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo
open Cert.Spec (NN EE)

variable (x0 : (⟨S2x3200000, .i32⟩ : BufTy).Contents (Elt Ideal)) (x1 : (⟨S100000x2, .f32⟩ : BufTy).Contents (Elt Ideal)) (x2 : (⟨S100000, .f32⟩ : BufTy).Contents (Elt Ideal)) (x3 x4 x5 x6 : (⟨S3200000, .f32⟩ : BufTy).Contents (Elt Ideal)) (x7 : (⟨S6x3, .f32⟩ : BufTy).Contents (Elt Ideal)) (x8 : (⟨S3, .f32⟩ : BufTy).Contents (Elt Ideal)) (x9 : (⟨S4x3, .f32⟩ : BufTy).Contents (Elt Ideal)) (x10 : (⟨S3, .f32⟩ : BufTy).Contents (Elt Ideal)) (x11 : (⟨S8x1, .f32⟩ : BufTy).Contents (Elt Ideal)) (x12 : (⟨S1, .f32⟩ : BufTy).Contents (Elt Ideal)) (x13 : (⟨S4x1, .f32⟩ : BufTy).Contents (Elt Ideal)) (x14 : (⟨S1, .f32⟩ : BufTy).Contents (Elt Ideal))
variable (hnn : ∀ (r : Fin 2) (e : Fin EE), 0 ≤ ((Cert.Spec.mkArgs x0 x1 x2 x3 x4 x5 x6 x7 x8 x9 x10 x11 x12 x13 x14).ei r e).toInt)

/-- The pattern 0x3F800000 is the extended real one. -/
private theorem one_f32 : Ideal.ofBits .f32 0x3F800000#32 = 1 := IdealRules.sign_bit.ideal_onePat .f32

/-- The source word of edge e. -/
private theorem v60_ix (e : Fin EE) : val_main_v60 (F := Ideal) x0 (ix1 e) = x0 (ix2 (0 : Fin 2) e) := by
  rw [val_main_v60_apply, val_main_v59_apply]
  congr 1
  funext a
  refine Fin.ext ?_
  match a with
  | ⟨0, _⟩ => rfl
  | ⟨1, _⟩ => have h : e.val < 3200000 := e.isLt; show e.val % 3200000 = e.val; omega

/-- The destination word of edge e. -/
private theorem v62_ix (e : Fin EE) : val_main_v62 (F := Ideal) x0 (ix1 e) = x0 (ix2 (1 : Fin 2) e) := by
  rw [val_main_v62_apply, val_main_v61_apply]
  congr 1
  funext a
  refine Fin.ext ?_
  match a with
  | ⟨0, _⟩ => rfl
  | ⟨1, _⟩ => have h : e.val < 3200000 := e.isLt; show e.val % 3200000 = e.val; omega

/-- A word that is not negative is its own wrapped index. -/
private theorem wrap_nonneg (w : BitVec 32) (h : 0 ≤ w.toInt) :
    Scalar.select (IntOp.cmpi .slt w 0#32) (IntOp.addi w 100000#32) w = w := by
  have hlt : w.slt 0#32 = false := by
    simp only [BitVec.slt, BitVec.toInt_zero, decide_eq_false_iff_not, Int.not_lt]
    exact h
  show (if BitVec.ofBool (w.slt 0#32) = 1 then _ else _) = _
  rw [hlt]
  rfl

private theorem v67_ix (e : Fin EE) (h : 0 ≤ (x0 (ix2 (0 : Fin 2) e)).toInt) :
    val_main_v67 (F := Ideal) x0 (ix1 e) = x0 (ix2 (0 : Fin 2) e) := by
  rw [val_main_v67_apply, val_main_v64_apply, val_main_v66_apply, val_main_v63_apply, val_main_v65_apply,
    val_main_c_9_apply, val_main_c_10_apply, v60_ix]
  exact wrap_nonneg _ h

private theorem v74_ix (e : Fin EE) (h : 0 ≤ (x0 (ix2 (1 : Fin 2) e)).toInt) :
    val_main_v74 (F := Ideal) x0 (ix1 e) = x0 (ix2 (1 : Fin 2) e) := by
  rw [val_main_v74_apply, val_main_v71_apply, val_main_v73_apply, val_main_v70_apply, val_main_v72_apply,
    val_main_c_11_apply, val_main_c_12_apply, v62_ix]
  exact wrap_nonneg _ h

private theorem v81_ix (e : Fin EE) (h : 0 ≤ (x0 (ix2 (0 : Fin 2) e)).toInt) :
    val_main_v81 (F := Ideal) x0 (ix1 e) = x0 (ix2 (0 : Fin 2) e) := by
  rw [val_main_v81_apply, val_main_v78_apply, val_main_v80_apply, val_main_v77_apply, val_main_v79_apply,
    val_main_c_13_apply, val_main_c_14_apply, v60_ix]
  exact wrap_nonneg _ h

private theorem v89_ix (e : Fin EE) (h : 0 ≤ (x0 (ix2 (1 : Fin 2) e)).toInt) :
    val_main_v89 (F := Ideal) x0 (ix1 e) = x0 (ix2 (1 : Fin 2) e) := by
  rw [val_main_v89_apply, val_main_v86_apply, val_main_v88_apply, val_main_v85_apply, val_main_v87_apply,
    val_main_c_15_apply, val_main_c_16_apply, v62_ix]
  exact wrap_nonneg _ h

/-- A column index read back to its row. -/
private theorem col_ix (e : Fin EE) :
    (fun a => match a with | ⟨0, _⟩ => ⟨((ix2 e (0 : Fin 1) : S3200000x1.Idx) 0).val, ((ix2 e (0 : Fin 1) : S3200000x1.Idx) 0).isLt⟩ : S3200000.Idx) = ix1 e := by
  funext a
  refine Fin.ext ?_
  match a with
  | ⟨0, _⟩ => rfl

private theorem v68_ix (e : Fin EE) (h : 0 ≤ (x0 (ix2 (0 : Fin 2) e)).toInt) :
    val_main_v68 (F := Ideal) x0 (ix2 e (0 : Fin 1)) = x0 (ix2 (0 : Fin 2) e) := by
  rw [val_main_v68_apply]
  exact (congrArg (val_main_v67 (F := Ideal) x0) (col_ix e)).trans (v67_ix x0 e h)

private theorem v75_ix (e : Fin EE) (h : 0 ≤ (x0 (ix2 (1 : Fin 2) e)).toInt) :
    val_main_v75 (F := Ideal) x0 (ix2 e (0 : Fin 1)) = x0 (ix2 (1 : Fin 2) e) := by
  rw [val_main_v75_apply]
  exact (congrArg (val_main_v74 (F := Ideal) x0) (col_ix e)).trans (v74_ix x0 e h)

private theorem v82_ix (e : Fin EE) (h : 0 ≤ (x0 (ix2 (0 : Fin 2) e)).toInt) :
    val_main_v82 (F := Ideal) x0 (ix2 e (0 : Fin 1)) = x0 (ix2 (0 : Fin 2) e) := by
  rw [val_main_v82_apply]
  exact (congrArg (val_main_v81 (F := Ideal) x0) (col_ix e)).trans (v81_ix x0 e h)

private theorem v90_ix (e : Fin EE) (h : 0 ≤ (x0 (ix2 (1 : Fin 2) e)).toInt) :
    val_main_v90 (F := Ideal) x0 (ix2 e (0 : Fin 1)) = x0 (ix2 (1 : Fin 2) e) := by
  rw [val_main_v90_apply]
  exact (congrArg (val_main_v89 (F := Ideal) x0) (col_ix e)).trans (v89_ix x0 e h)

/-- The source node's first-layer channels at edge e. -/
private theorem v69_ix (e : Fin EE) (q : Fin 3) (h : 0 ≤ (x0 (ix2 (0 : Fin 2) e)).toInt) :
    val_main_v69 (F := Ideal) x0 x1 x2 x3 x4 x5 x6 x7 x8 x9 x10 (ix2 e q)
      = val_main_v58 (F := Ideal) x0 x1 x2 x3 x4 x5 x6 x7 x8 x9 x10 (ix2 (Cert.Spec.cl (x0 (ix2 (0 : Fin 2) e))) q) := by
  unfold val_main_v69
  refine (HostIdx2.gather_rows_apply (by decide) gather_S100000x3_S3200000x1_S3200000x3_1_0_n_n_0_1_13 rfl rfl rfl rfl rfl rfl rfl _ _ e q).trans ?_
  refine congrArg (fun k => val_main_v58 (F := Ideal) x0 x1 x2 x3 x4 x5 x6 x7 x8 x9 x10 (ix2 k q)) (Fin.ext ?_)
  show min (val_main_v68 (F := Ideal) x0 (ix2 e (0 : Fin 1))).toInt.toNat (100000 - 1) = min (x0 (ix2 (0 : Fin 2) e)).toInt.toNat (100000 - 1)
  rw [v68_ix x0 e h]

/-- The destination node's first-layer channels at edge e. -/
private theorem v76_ix (e : Fin EE) (q : Fin 3) (h : 0 ≤ (x0 (ix2 (1 : Fin 2) e)).toInt) :
    val_main_v76 (F := Ideal) x0 x1 x2 x3 x4 x5 x6 x7 x8 x9 x10 (ix2 e q)
      = val_main_v58 (F := Ideal) x0 x1 x2 x3 x4 x5 x6 x7 x8 x9 x10 (ix2 (Cert.Spec.cl (x0 (ix2 (1 : Fin 2) e))) q) := by
  unfold val_main_v76
  refine (HostIdx2.gather_rows_apply (by decide) gather_S100000x3_S3200000x1_S3200000x3_1_0_n_n_0_1_13 rfl rfl rfl rfl rfl rfl rfl _ _ e q).trans ?_
  refine congrArg (fun k => val_main_v58 (F := Ideal) x0 x1 x2 x3 x4 x5 x6 x7 x8 x9 x10 (ix2 k q)) (Fin.ext ?_)
  show min (val_main_v75 (F := Ideal) x0 (ix2 e (0 : Fin 1))).toInt.toNat (100000 - 1) = min (x0 (ix2 (1 : Fin 2) e)).toInt.toNat (100000 - 1)
  rw [v75_ix x0 e h]

/-- The source node's elevation at edge e. -/
private theorem v84_ix (e : Fin EE) (h : 0 ≤ (x0 (ix2 (0 : Fin 2) e)).toInt) :
    val_main_v84 (F := Ideal) x0 x2 (ix2 e (0 : Fin 1)) = x2 (ix1 (Cert.Spec.cl (x0 (ix2 (0 : Fin 2) e)))) := by
  rw [val_main_v84_apply]
  refine (congrArg (val_main_v83 (F := Ideal) x0 x2) (col_ix e)).trans ?_
  unfold val_main_v83
  refine (HostIdx.gather_take_ix gather_S100000_S3200000x1_S3200000_n_0_n_n_0_1_1 rfl rfl rfl rfl (by decide) _ _ e).trans ?_
  refine congrArg (fun k => x2 (ix1 k)) (Fin.ext ?_)
  show min (val_main_v82 (F := Ideal) x0 (ix2 e (0 : Fin 1))).toInt.toNat (100000 - 1) = min (x0 (ix2 (0 : Fin 2) e)).toInt.toNat (100000 - 1)
  rw [v82_ix x0 e h]

/-- The destination node's elevation at edge e. -/
private theorem v92_ix (e : Fin EE) (h : 0 ≤ (x0 (ix2 (1 : Fin 2) e)).toInt) :
    val_main_v92 (F := Ideal) x0 x2 (ix2 e (0 : Fin 1)) = x2 (ix1 (Cert.Spec.cl (x0 (ix2 (1 : Fin 2) e)))) := by
  rw [val_main_v92_apply]
  refine (congrArg (val_main_v91 (F := Ideal) x0 x2) (col_ix e)).trans ?_
  unfold val_main_v91
  refine (HostIdx.gather_take_ix gather_S100000_S3200000x1_S3200000_n_0_n_n_0_1_1 rfl rfl rfl rfl (by decide) _ _ e).trans ?_
  refine congrArg (fun k => x2 (ix1 k)) (Fin.ext ?_)
  show min (val_main_v90 (F := Ideal) x0 (ix2 e (0 : Fin 1))).toInt.toNat (100000 - 1) = min (x0 (ix2 (1 : Fin 2) e)).toInt.toNat (100000 - 1)
  rw [v90_ix x0 e h]

section Cat
variable {α : Type}

/-- The eight-column concatenation read in its first piece. -/
private theorem cat8_p0 (y0 y1 : S3200000x3.Idx → α) (y2 y3 : S3200000x1.Idx → α) (e : Fin EE) (q : Fin 3) (j : Fin 8)
    (hj : j.val = q.val) :
    concatenate S3200000x8 1 [⟨S3200000x3, y0⟩, ⟨S3200000x3, y1⟩, ⟨S3200000x1, y2⟩, ⟨S3200000x1, y3⟩]
      concatenates_S3200000x3_S3200000x3_S3200000x1_S3200000x1_S3200000x8_d1 (ix2 e j) = y0 (ix2 e q) := by
  refine concatenate_apply_piece (t := S3200000x8) (1 : Fin 2) [⟨S3200000x3, y0⟩, ⟨S3200000x3, y1⟩, ⟨S3200000x1, y2⟩, ⟨S3200000x1, y3⟩] concatenates_S3200000x3_S3200000x3_S3200000x1_S3200000x1_S3200000x8_d1 (ix2 e j) 0 (by show _ < 4; omega) S3200000x3 y0 rfl rfl 0 rfl (ix2 e q) ?_ ?_
  · intro b hb
    match b with
    | ⟨0, _⟩ => rfl
    | ⟨1, _⟩ => exact absurd (Fin.ext rfl) hb
  · show 0 + q.val = j.val
    omega

/-- The eight-column concatenation read in its second piece. -/
private theorem cat8_p1 (y0 y1 : S3200000x3.Idx → α) (y2 y3 : S3200000x1.Idx → α) (e : Fin EE) (q : Fin 3) (j : Fin 8)
    (hj : j.val = 3 + q.val) :
    concatenate S3200000x8 1 [⟨S3200000x3, y0⟩, ⟨S3200000x3, y1⟩, ⟨S3200000x1, y2⟩, ⟨S3200000x1, y3⟩]
      concatenates_S3200000x3_S3200000x3_S3200000x1_S3200000x1_S3200000x8_d1 (ix2 e j) = y1 (ix2 e q) := by
  refine concatenate_apply_piece (t := S3200000x8) (1 : Fin 2) [⟨S3200000x3, y0⟩, ⟨S3200000x3, y1⟩, ⟨S3200000x1, y2⟩, ⟨S3200000x1, y3⟩] concatenates_S3200000x3_S3200000x3_S3200000x1_S3200000x1_S3200000x8_d1 (ix2 e j) 1 (by show _ < 4; omega) S3200000x3 y1 rfl rfl 3 rfl (ix2 e q) ?_ ?_
  · intro b hb
    match b with
    | ⟨0, _⟩ => rfl
    | ⟨1, _⟩ => exact absurd (Fin.ext rfl) hb
  · show 3 + q.val = j.val
    omega

/-- The eight-column concatenation read in its third piece. -/
private theorem cat8_p2 (y0 y1 : S3200000x3.Idx → α) (y2 y3 : S3200000x1.Idx → α) (e : Fin EE) (j : Fin 8)
    (hj : j.val = 6) :
    concatenate S3200000x8 1 [⟨S3200000x3, y0⟩, ⟨S3200000x3, y1⟩, ⟨S3200000x1, y2⟩, ⟨S3200000x1, y3⟩]
      concatenates_S3200000x3_S3200000x3_S3200000x1_S3200000x1_S3200000x8_d1 (ix2 e j) = y2 (ix2 e (0 : Fin 1)) := by
  refine concatenate_apply_piece (t := S3200000x8) (1 : Fin 2) [⟨S3200000x3, y0⟩, ⟨S3200000x3, y1⟩, ⟨S3200000x1, y2⟩, ⟨S3200000x1, y3⟩] concatenates_S3200000x3_S3200000x3_S3200000x1_S3200000x1_S3200000x8_d1 (ix2 e j) 2 (by show _ < 4; omega) S3200000x1 y2 rfl rfl 6 rfl (ix2 e (0 : Fin 1)) ?_ ?_
  · intro b hb
    match b with
    | ⟨0, _⟩ => rfl
    | ⟨1, _⟩ => exact absurd (Fin.ext rfl) hb
  · show 6 + 0 = j.val
    omega

/-- The eight-column concatenation read in its fourth piece. -/
private theorem cat8_p3 (y0 y1 : S3200000x3.Idx → α) (y2 y3 : S3200000x1.Idx → α) (e : Fin EE) (j : Fin 8)
    (hj : j.val = 7) :
    concatenate S3200000x8 1 [⟨S3200000x3, y0⟩, ⟨S3200000x3, y1⟩, ⟨S3200000x1, y2⟩, ⟨S3200000x1, y3⟩]
      concatenates_S3200000x3_S3200000x3_S3200000x1_S3200000x1_S3200000x8_d1 (ix2 e j) = y3 (ix2 e (0 : Fin 1)) := by
  refine concatenate_apply_piece (t := S3200000x8) (1 : Fin 2) [⟨S3200000x3, y0⟩, ⟨S3200000x3, y1⟩, ⟨S3200000x1, y2⟩, ⟨S3200000x1, y3⟩] concatenates_S3200000x3_S3200000x3_S3200000x1_S3200000x1_S3200000x8_d1 (ix2 e j) 3 (by show _ < 4; omega) S3200000x1 y3 rfl rfl 7 rfl (ix2 e (0 : Fin 1)) ?_ ?_
  · intro b hb
    match b with
    | ⟨0, _⟩ => rfl
    | ⟨1, _⟩ => exact absurd (Fin.ext rfl) hb
  · show 7 + 0 = j.val
    omega

end Cat

section Cat4
variable {α : Type}

/-- The four-column concatenation of four columns reads column j of piece j. -/
private theorem cat4 (y0 y1 y2 y3 : S3200000x1.Idx → α) (e : Fin EE) (j : Fin 4) :
    concatenate S3200000x4 1 [⟨S3200000x1, y0⟩, ⟨S3200000x1, y1⟩, ⟨S3200000x1, y2⟩, ⟨S3200000x1, y3⟩]
      concatenates_S3200000x1_S3200000x1_S3200000x1_S3200000x1_S3200000x4_d1 (ix2 e j)
      = (match j with | 0 => y0 | 1 => y1 | 2 => y2 | 3 => y3) (ix2 e (0 : Fin 1)) := by
  match j with
  | ⟨0, _⟩ =>
    refine (concatenate_apply_piece (t := S3200000x4) (1 : Fin 2)
      [⟨S3200000x1, y0⟩, ⟨S3200000x1, y1⟩, ⟨S3200000x1, y2⟩, ⟨S3200000x1, y3⟩]
      concatenates_S3200000x1_S3200000x1_S3200000x1_S3200000x1_S3200000x4_d1 (ix2 e _) 0 (by show _ < 4; omega)
      S3200000x1 y0 rfl rfl 0 rfl (ix2 e (0 : Fin 1)) ?_ rfl)
    intro b hb
    match b with
    | ⟨0, _⟩ => rfl
    | ⟨1, _⟩ => exact absurd (Fin.ext rfl) hb
  | ⟨1, _⟩ =>
    refine (concatenate_apply_piece (t := S3200000x4) (1 : Fin 2)
      [⟨S3200000x1, y0⟩, ⟨S3200000x1, y1⟩, ⟨S3200000x1, y2⟩, ⟨S3200000x1, y3⟩]
      concatenates_S3200000x1_S3200000x1_S3200000x1_S3200000x1_S3200000x4_d1 (ix2 e _) 1 (by show _ < 4; omega)
      S3200000x1 y1 rfl rfl 1 rfl (ix2 e (0 : Fin 1)) ?_ rfl)
    intro b hb
    match b with
    | ⟨0, _⟩ => rfl
    | ⟨1, _⟩ => exact absurd (Fin.ext rfl) hb
  | ⟨2, _⟩ =>
    refine (concatenate_apply_piece (t := S3200000x4) (1 : Fin 2)
      [⟨S3200000x1, y0⟩, ⟨S3200000x1, y1⟩, ⟨S3200000x1, y2⟩, ⟨S3200000x1, y3⟩]
      concatenates_S3200000x1_S3200000x1_S3200000x1_S3200000x1_S3200000x4_d1 (ix2 e _) 2 (by show _ < 4; omega)
      S3200000x1 y2 rfl rfl 2 rfl (ix2 e (0 : Fin 1)) ?_ rfl)
    intro b hb
    match b with
    | ⟨0, _⟩ => rfl
    | ⟨1, _⟩ => exact absurd (Fin.ext rfl) hb
  | ⟨3, _⟩ =>
    refine (concatenate_apply_piece (t := S3200000x4) (1 : Fin 2)
      [⟨S3200000x1, y0⟩, ⟨S3200000x1, y1⟩, ⟨S3200000x1, y2⟩, ⟨S3200000x1, y3⟩]
      concatenates_S3200000x1_S3200000x1_S3200000x1_S3200000x1_S3200000x4_d1 (ix2 e _) 3 (by show _ < 4; omega)
      S3200000x1 y3 rfl rfl 3 rfl (ix2 e (0 : Fin 1)) ?_ rfl)
    intro b hb
    match b with
    | ⟨0, _⟩ => rfl
    | ⟨1, _⟩ => exact absurd (Fin.ext rfl) hb

end Cat4

/-- The edge features at (e, j). -/
private theorem v4_ix (e : Fin EE) (j : Fin 4) :
    val_main_v4 (F := Ideal) x3 x4 x5 x6 (ix2 e j) = (Cert.Spec.mkArgs x0 x1 x2 x3 x4 x5 x6 x7 x8 x9 x10 x11 x12 x13 x14).ef j e := by
  unfold val_main_v4
  rw [cat4]
  match j with
  | ⟨0, _⟩ => exact (val_main_v0_apply x3 _).trans (congrArg x3 (col_ix e))
  | ⟨1, _⟩ => exact (val_main_v1_apply x4 _).trans (congrArg x4 (col_ix e))
  | ⟨2, _⟩ => exact (val_main_v2_apply x5 _).trans (congrArg x5 (col_ix e))
  | ⟨3, _⟩ => exact (val_main_v3_apply x6 _).trans (congrArg x6 (col_ix e))

include hnn in
/-- The second layer's message input at (e, j). -/
private theorem v93_ix (e : Fin EE) (j : Fin 8) :
    val_main_v93 (F := Ideal) x0 x1 x2 x3 x4 x5 x6 x7 x8 x9 x10 (ix2 e j) = Cert.Spec.min2 (Cert.Spec.mkArgs x0 x1 x2 x3 x4 x5 x6 x7 x8 x9 x10 x11 x12 x13 x14) e j := by
  have h0 : 0 ≤ (x0 (ix2 (0 : Fin 2) e)).toInt := hnn 0 e
  have h1 : 0 ≤ (x0 (ix2 (1 : Fin 2) e)).toInt := hnn 1 e
  unfold val_main_v93
  match j with
  | ⟨0, _⟩ =>
    refine (cat8_p0 _ _ _ _ e (0 : Fin 3) _ rfl).trans ?_
    rw [v69_ix x0 x1 x2 x3 x4 x5 x6 x7 x8 x9 x10 e 0 h0, v58_apply x0 x1 x2 x3 x4 x5 x6 x7 x8 x9 x10 x11 x12 x13 x14 hnn]
    rfl
  | ⟨1, _⟩ =>
    refine (cat8_p0 _ _ _ _ e (1 : Fin 3) _ rfl).trans ?_
    rw [v69_ix x0 x1 x2 x3 x4 x5 x6 x7 x8 x9 x10 e 1 h0, v58_apply x0 x1 x2 x3 x4 x5 x6 x7 x8 x9 x10 x11 x12 x13 x14 hnn]
    rfl
  | ⟨2, _⟩ =>
    refine (cat8_p0 _ _ _ _ e (2 : Fin 3) _ rfl).trans ?_
    rw [v69_ix x0 x1 x2 x3 x4 x5 x6 x7 x8 x9 x10 e 2 h0, v58_apply x0 x1 x2 x3 x4 x5 x6 x7 x8 x9 x10 x11 x12 x13 x14 hnn]
    rfl
  | ⟨3, _⟩ =>
    refine (cat8_p1 _ _ _ _ e (0 : Fin 3) _ rfl).trans ?_
    rw [v76_ix x0 x1 x2 x3 x4 x5 x6 x7 x8 x9 x10 e 0 h1, v58_apply x0 x1 x2 x3 x4 x5 x6 x7 x8 x9 x10 x11 x12 x13 x14 hnn]
    rfl
  | ⟨4, _⟩ =>
    refine (cat8_p1 _ _ _ _ e (1 : Fin 3) _ rfl).trans ?_
    rw [v76_ix x0 x1 x2 x3 x4 x5 x6 x7 x8 x9 x10 e 1 h1, v58_apply x0 x1 x2 x3 x4 x5 x6 x7 x8 x9 x10 x11 x12 x13 x14 hnn]
    rfl
  | ⟨5, _⟩ =>
    refine (cat8_p1 _ _ _ _ e (2 : Fin 3) _ rfl).trans ?_
    rw [v76_ix x0 x1 x2 x3 x4 x5 x6 x7 x8 x9 x10 e 2 h1, v58_apply x0 x1 x2 x3 x4 x5 x6 x7 x8 x9 x10 x11 x12 x13 x14 hnn]
    rfl
  | ⟨6, _⟩ =>
    refine (cat8_p2 _ _ _ _ e _ rfl).trans ?_
    rw [v84_ix x0 x2 e h0]
    rfl
  | ⟨7, _⟩ =>
    refine (cat8_p3 _ _ _ _ e _ rfl).trans ?_
    rw [v92_ix x0 x2 e h1]
    rfl

include hnn in
/-- The second layer's product of the message input with its weights. -/
private theorem v94_ix (e : Fin EE) :
    val_main_v94 (F := Ideal) x0 x1 x2 x3 x4 x5 x6 x7 x8 x9 x10 x11 (ix2 e (0 : Fin 1))
      = ∑ j : Fin 8, Cert.Spec.min2 (Cert.Spec.mkArgs x0 x1 x2 x3 x4 x5 x6 x7 x8 x9 x10 x11 x12 x13 x14) e j * (Cert.Spec.mkArgs x0 x1 x2 x3 x4 x5 x6 x7 x8 x9 x10 x11 x12 x13 x14).W2 j 0 := by
  rw [val_main_v94_apply]
  refine Finset.sum_congr rfl fun k _ => ?_
  have el : lidx_main_v94 (ix2 e (0 : Fin 1)) k = ix2 e k := by
    funext a; refine Fin.ext ?_
    match a with
    | ⟨0, _⟩ => rfl
    | ⟨1, _⟩ => rfl
  have er : ridx_main_v94 (ix2 e (0 : Fin 1)) k = ix2 k (0 : Fin 1) := by
    funext a; refine Fin.ext ?_
    match a with
    | ⟨0, _⟩ => rfl
    | ⟨1, _⟩ => rfl
  rw [el, er, v93_ix x0 x1 x2 x3 x4 x5 x6 x7 x8 x9 x10 x11 x12 x13 x14 hnn]
  rfl

/-- The second layer's bias, broadcast over the edges. -/
private theorem v96_ix (e : Fin EE) : val_main_v96 (F := Ideal) x12 (ix2 e (0 : Fin 1)) = x12 (ix1 (0 : Fin 1)) := by
  rw [val_main_v96_apply, val_main_v95_apply]
  congr 1
  funext a; refine Fin.ext ?_
  match a with
  | ⟨0, _⟩ => rfl

/-- The gate's product of the edge features with its weights. -/
private theorem v98_ix (e : Fin EE) :
    val_main_v98 (F := Ideal) x3 x4 x5 x6 x13 (ix2 e (0 : Fin 1))
      = ∑ j : Fin 4, (Cert.Spec.mkArgs x0 x1 x2 x3 x4 x5 x6 x7 x8 x9 x10 x11 x12 x13 x14).ef j e * (Cert.Spec.mkArgs x0 x1 x2 x3 x4 x5 x6 x7 x8 x9 x10 x11 x12 x13 x14).We2 j 0 := by
  rw [val_main_v98_apply]
  refine Finset.sum_congr rfl fun k _ => ?_
  have el : lidx_main_v98 (ix2 e (0 : Fin 1)) k = ix2 e k := by
    funext a; refine Fin.ext ?_
    match a with
    | ⟨0, _⟩ => rfl
    | ⟨1, _⟩ => rfl
  have er : ridx_main_v98 (ix2 e (0 : Fin 1)) k = ix2 k (0 : Fin 1) := by
    funext a; refine Fin.ext ?_
    match a with
    | ⟨0, _⟩ => rfl
    | ⟨1, _⟩ => rfl
  rw [el, er, v4_ix x0 x1 x2 x3 x4 x5 x6 x7 x8 x9 x10 x11 x12 x13 x14]
  rfl

/-- The gate's bias, broadcast over the edges. -/
private theorem v100_ix (e : Fin EE) : val_main_v100 (F := Ideal) x14 (ix2 e (0 : Fin 1)) = x14 (ix1 (0 : Fin 1)) := by
  rw [val_main_v100_apply, val_main_v99_apply]
  congr 1
  funext a; refine Fin.ext ?_
  match a with
  | ⟨0, _⟩ => rfl

include hnn in
/-- The second layer's gated message of edge e. -/
private theorem v108_ix (e : Fin EE) :
    val_main_v108 (F := Ideal) x0 x1 x2 x3 x4 x5 x6 x7 x8 x9 x10 x11 x12 x13 x14 (ix2 e (0 : Fin 1)) = Cert.Spec.redge2 (Cert.Spec.mkArgs x0 x1 x2 x3 x4 x5 x6 x7 x8 x9 x10 x11 x12 x13 x14) e 0 := by
  rw [val_main_v108_apply, val_main_v97_apply, val_main_v107_apply, val_main_v106_apply, val_main_cst_18_apply,
    val_main_v105_apply, val_main_v104_apply, val_main_cst_17_apply, val_main_v103_apply, val_main_v102_apply,
    val_main_v101_apply, v94_ix x0 x1 x2 x3 x4 x5 x6 x7 x8 x9 x10 x11 x12 x13 x14 hnn, v96_ix, v98_ix x0 x1 x2 x3 x4 x5 x6 x7 x8 x9 x10 x11 x12 x13 x14, v100_ix]
  simp only [Ideal.mulf_def, Ideal.addf_def, Ideal.hostDivf_def, Ideal.hostUnary_exp_def, Ideal.hostNegf_def,
    Ideal.negf_def, Ideal.ofBits_def, one_f32]
  rfl

/-- The destination word of edge e, as the scatter reads it. -/
private theorem v110_ix (e : Fin EE) : val_main_v110 (F := Ideal) x0 (ix2 e (0 : Fin 1)) = x0 (ix2 (1 : Fin 2) e) := by
  rw [val_main_v110_apply]
  exact (congrArg (val_main_v62 (F := Ideal) x0) (col_ix e)).trans (v62_ix x0 e)

/-- The one-column row scatter-add read at node n: the operand's entry plus the updates whose word, read signed, is n. -/
private theorem scat1 (x : S100000x1.Idx → EReal) (idx : IVec S3200000x1 32) (upd : S3200000x1.Idx → EReal) (n : Fin NN) :
    Host.scatterAdd (F := Ideal) (φ := .f32) scatter_S100000x1_S3200000x1_S3200000x1_1_0_0_1 x idx upd (ix2 n (0 : Fin 1))
      = x (ix2 n (0 : Fin 1)) + ∑ e ∈ Finset.univ.filter (fun e : Fin EE => (idx (ix2 e (0 : Fin 1))).toInt = (n.val : ℤ)),
          upd (ix2 e (0 : Fin 1)) :=
  Cert.LibScatterAdd.scatterAdd_rows_apply scatter_S100000x1_S3200000x1_S3200000x1_1_0_0_1 rfl rfl rfl rfl x idx upd n (0 : Fin 1)

include hnn in
/-- The second layer's messages added into their destination nodes. -/
private theorem v111_ix (n : Fin NN) :
    val_main_v111 (F := Ideal) x0 x1 x2 x3 x4 x5 x6 x7 x8 x9 x10 x11 x12 x13 x14 (ix2 n (0 : Fin 1))
      = 0 + ∑ e ∈ Finset.univ.filter (Cert.Spec.lands (Cert.Spec.mkArgs x0 x1 x2 x3 x4 x5 x6 x7 x8 x9 x10 x11 x12 x13 x14) n), Cert.Spec.redge2 (Cert.Spec.mkArgs x0 x1 x2 x3 x4 x5 x6 x7 x8 x9 x10 x11 x12 x13 x14) e 0 := by
  unfold val_main_v111
  rw [scat1, val_main_v109_apply, val_main_cst_19_apply, Ideal.ofBits_def, Ideal.ofBits_zero_f32]
  refine congrArg (fun s : EReal => 0 + s) ?_
  refine Finset.sum_congr (Finset.filter_congr fun e _ => ?_) fun e _ => v108_ix x0 x1 x2 x3 x4 x5 x6 x7 x8 x9 x10 x11 x12 x13 x14 hnn e
  rw [v110_ix]
  exact Iff.rfl

include hnn in
/-- The reference's result at node n. -/
theorem v112_apply (n : Fin NN) :
    val_main_v112 (F := Ideal) x0 x1 x2 x3 x4 x5 x6 x7 x8 x9 x10 x11 x12 x13 x14 (ix2 n (0 : Fin 1))
      = Cert.Spec.rout (Cert.Spec.mkArgs x0 x1 x2 x3 x4 x5 x6 x7 x8 x9 x10 x11 x12 x13 x14) n := by
  rw [val_main_v112_apply, val_main_call1_v0_apply, val_main_call1_cst_apply, v111_ix x0 x1 x2 x3 x4 x5 x6 x7 x8 x9 x10 x11 x12 x13 x14 hnn n,
    Ideal.maximumf_def, Ideal.ofBits_def, Ideal.ofBits_zero_f32]
  rfl

end Cert.ReferenceIdeal.HandV

end
-- ==== Proof.SpecAlgebra.lean ====
/-
  The two arrangements of the layers are one function.  The six (eight) products of the row arrangement's one sum
  are, term by term with the factors swapped, the three (four) products against the source rows and the three
  (four) against the destination rows of the transposed arrangement; the gate's sum has its factors swapped; and
  1 / (1 + exp (-x)) is the logistic function by definition.  Only commutativity and associativity of + and * on
  the extended reals are used.
-/
import proofs.«429407_j49014166782254_3_alg».proof.Proof.Spec

noncomputable section

namespace Cert.Spec

open Idealize.ShloMosaic

variable (a : Args)

theorem redge1_eq (e : Fin EE) (o : Fin 3) : redge1 a e o = edge1 a o e := by
  unfold redge1 edge1 Ideal.logistic
  simp only [mul_comm (a.ef _ e), mul_comm (min1 a e _)]
  congr 1
  simp only [Fin.sum_univ_six, Fin.sum_univ_three, min1, tab1, ws1, wd1]
  ac_rfl

theorem rh1_eq (n : Fin NN) (o : Fin 3) : rh1 a n o = h1 a o n := by
  unfold rh1 h1
  simp only [redge1_eq]

theorem redge2_eq (e : Fin EE) (o : Fin 1) : redge2 a e o = edge2 a o e := by
  unfold redge2 edge2 Ideal.logistic
  simp only [mul_comm (a.ef _ e), mul_comm (min2 a e _)]
  congr 1
  simp only [Fin.sum_univ_eight, Fin.sum_univ_four]
  simp only [min2, tab2, ws2, wd2]
  simp only [rh1_eq]
  abel

/-- The row arrangement's result is the transposed arrangement's. -/
theorem rout_eq_out (n : Fin NN) : rout a n = out a n := by
  unfold rout out
  simp only [redge2_eq]

end Cert.Spec

end
-- ==== Proof.PreDecode.lean ====
/-
  The added conjunct of the precondition, decoded: where the precondition holds, every word of the index array, read
  signed, is at least zero.
-/
import proofs.«429407_j49014166782254_3_alg».proof.Proof.KvArgs
import proofs.«429407_j49014166782254_3_alg».proof.Proof.Gen.Pre_finite_inputs
import proofs.«429407_j49014166782254_3_alg».proof.Defs
import Idealize.ShloMosaic.Lib.ReduceAll
import Idealize.ShloMosaic.Lib.StableHlo.Predicate

noncomputable section

namespace Cert.KernelIdeal.HandV

open Cert.KernelIdeal Idealize.ShloMosaic Idealize.ShloMosaic.TcCoe Idealize.ShloMosaic.ValueIdx Idealize.SL.Sem
open Cert.Spec (NN EE)

/-- The rank-0 shape has one index. -/
private instance : Subsingleton Cert.Pre_finite_inputs.S_.Idx := ⟨fun a b => funext fun d => d.elim0⟩

/-- Under the precondition every index word is non-negative. -/
theorem nonneg_of_pre [hPre_finite_inputs : Cert.Pre_finite_inputs.Facts] (m : (ℓ : Loc nD τ sig) → Buf (Elt Ideal) ℓ) (h : Cert.Pre_KernelIdeal m) (c : Dev nD)
    (r : Fin 2) (e : Fin EE) : 0 ≤ ((kargs m c).ei r e).toInt := by
  -- the predicate's one scalar result, on core c
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- the added conjunct is the last one of the conjunction
  have h1 := (IntOp.andi_eq_one.1 h0).2
  -- a reduction by "and" over both axes that came out 1 met a 1 at every entry
  have h2 := Host.reduce_andi_all _ _ _ _ _ h1 (ix2 r e)
  -- the entry is the signed compare of the word against the broadcast zero
  have h3 := IntOp.cmpi_sge.1 h2
  change (0#32 : BitVec 32).toInt ≤ _ at h3
  rw [show (0#32 : BitVec 32).toInt = 0 from by decide] at h3
  exact h3

end Cert.KernelIdeal.HandV

end
-- ==== Proof.lean ====
/-
  Two stacked edge-gated message-passing layers over a graph of 100000 nodes and 3200000 edges: a kernel that
  computes each layer's gated edge messages in a pallas_call on a transposed layout (node tables gathered at the
  edges' source and destination, the weight matrix cut into its source rows and its destination rows, the gate by the
  logistic function), with the gathers and the scatter-add into the destination nodes on the host, against a
  reference that concatenates the gathered features into one message input, multiplies once, gates by
  1 / (1 + exp (-x)) and sums by segment.

  Over the extended reals, for index words that are not negative (the precondition's added conjunct: for a negative
  word the two programs differ — the kernel's gather clamps where the reference's wraps, and the kernel's scatter
  wraps where the reference's drops), the two compute the same numbers: the two arrangements of each layer's sums
  agree by commutativity and associativity alone, so finiteness of the float inputs is never used.

  The kernel program's run (Proof/KiRun.lean, at any float instance; Proof/KbRun.lean for the word-level program)
  gives both its frames and names its result buffer at the last boundary's contents; Proof/KvAll.lean reads those
  contents entry by entry as the specification's transposed arrangement; the reference's generated run and stages are
  read entry by entry as the row arrangement (Proof/RvLayer1.lean, Proof/RvLayer2.lean); Proof/SpecAlgebra.lean joins
  the two arrangements; Proof/PreDecode.lean decodes the precondition.
-/
import proofs.«429407_j49014166782254_3_alg».proof.Defs
import proofs.«429407_j49014166782254_3_alg».proof.Proof.Gen.Kernel
import proofs.«429407_j49014166782254_3_alg».proof.Proof.Gen.KernelIdeal
import proofs.«429407_j49014166782254_3_alg».proof.Proof.Gen.ReferenceIdeal
import proofs.«429407_j49014166782254_3_alg».proof.Proof.Gen.Pre_finite_inputs
import proofs.«429407_j49014166782254_3_alg».proof.Proof.Gen.ReferenceIdeal.Run
import proofs.«429407_j49014166782254_3_alg».proof.Proof.Gen.ReferenceIdeal.Read
import proofs.«429407_j49014166782254_3_alg».proof.Proof.KbRun
import proofs.«429407_j49014166782254_3_alg».proof.Proof.KiRun
import proofs.«429407_j49014166782254_3_alg».proof.Proof.KvAll
import proofs.«429407_j49014166782254_3_alg».proof.Proof.RvLayer2
import proofs.«429407_j49014166782254_3_alg».proof.Proof.SpecAlgebra
import proofs.«429407_j49014166782254_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level program runs to its end with its arguments unchanged: its run, the result's conjunct dropped. -/
theorem frame_p : Cert.frame_Kernel := fun m ρ _ =>
  (θ_run Cert.Kernel.defs _ _).mono (fun _ h c => (h c).2) (Cert.Kernel.Hand.run_main (F := Bits) m ρ)

/-- The same for the idealized program. -/
theorem frame_pi : Cert.frame_KernelIdeal := fun m ρ _ =>
  (θ_run Cert.KernelIdeal.defs _ _).mono (fun _ h c => (h c).2) (Cert.KernelIdeal.Hand.run_main (F := Ideal) m ρ)

/-- The reference is a host program: its generated run, the result's conjunct dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Run from memories that agree on the arguments, with index words that are not negative, the two idealized
    programs end with equal results: the kernel's is the transposed arrangement of the arguments, the reference's the
    row arrangement, and the two arrangements are one function. -/
theorem algebraic : Cert.algebraic_KernelIdeal_ReferenceIdeal := by
  intro m ρ m' ρ' hpre hagree
  refine ⟨fun c => Cert.KernelIdeal.Gen.V15 m (Cert.KernelIdeal.Hand.outsF m) c (Proc.devRef .tc Cert.KernelIdeal.main_v68),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  have hnn := Cert.KernelIdeal.HandV.nonneg_of_pre m hpre c
  have hargs : Cert.Spec.mkArgs (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      = Cert.KernelIdeal.HandV.kargs m c := by
    unfold Cert.KernelIdeal.HandV.kargs
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  rw [Cert.ReferenceIdeal.Read.val_main_v112_eq]
  funext i
  obtain ⟨n, q, rfl⟩ : ∃ (n : Fin 100000) (q : Fin 1), i = ix2 n q := ⟨i 0, i 1, eq_ix2 i⟩
  obtain rfl : q = 0 := Subsingleton.elim _ _
  rw [Cert.ReferenceIdeal.HandV.v112_apply _ _ _ _ _ _ _ _ _ _ _ _ _ _ _ (by rw [hargs]; exact hnn) n, hargs, Cert.Spec.rout_eq_out]
  exact (Cert.KernelIdeal.HandV.kernel_value m c (hnn 1) n).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
